-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x8 : Shape := ⟨2, ![32768, 8]⟩
abbrev S32768 : Shape := ⟨1, ![32768]⟩
abbrev S16x64 : Shape := ⟨2, ![16, 64]⟩
abbrev S64x64 : Shape := ⟨2, ![64, 64]⟩
abbrev S32x64 : Shape := ⟨2, ![32, 64]⟩
abbrev S256x128 : Shape := ⟨2, ![256, 128]⟩
abbrev S256 : Shape := ⟨1, ![256]⟩
abbrev S256x448 : Shape := ⟨2, ![256, 448]⟩
abbrev S_ : Shape := ⟨0, ![]⟩

class Facts : Prop where
  bcast_S_S16x64 : S_.BroadcastsInDim S16x64 (![] : Fin 0 → Fin S16x64.rank)
  reducesTo_S16x64_S_d0_1 : S16x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x448 : S_.BroadcastsInDim S256x448 (![] : Fin 0 → Fin S256x448.rank)
  reducesTo_S256x448_S_d0_1 : S256x448.ReducesTo [0, 1] S_
  bcast_S_S32768x8 : S_.BroadcastsInDim S32768x8 (![] : Fin 0 → Fin S32768x8.rank)
  reducesTo_S32768x8_S_d0_1 : S32768x8.ReducesTo [0, 1] S_
  bcast_S_S32768 : S_.BroadcastsInDim S32768 (![] : Fin 0 → Fin S32768.rank)
  reducesTo_S32768_S_d0 : S32768.ReducesTo [0] S_

variable [Facts]

def fn_part4 {F : FTy → Type} [FloatOps F] (main_arg3 : IVec S32768 32) (main_arg4 : IVec S32768 32) (main_v64 : IVec S_ 1) (main_v66 : IVec S32768 1) (main_c_26 : IVec S_ 32) : IVec S_ 1 :=
  let main_v67 : IVec S32768 32 := broadcastInDim S32768 ![] bcast_S_S32768 main_c_26
  let main_v68 : IVec S32768 1 := cmpi .slt main_arg3 main_v67
  let main_v69 : IVec S32768 1 := andi main_v66 main_v68
  let main_c_27 : IVec S_ 1 := constantI S_ 1 1#1
  let main_v70 : IVec S_ 1 := (fun x v => Host.reduce IntOp.andi x v reducesTo_S32768_S_d0 h_S_) main_v69 main_c_27
  let main_v71 : IVec S_ 1 := andi main_v64 main_v70
  let main_c_28 : IVec S_ 32 := constantI S_ 32 0#32
  let main_v72 : IVec S32768 32 := broadcastInDim S32768 ![] bcast_S_S32768 main_c_28
  let main_v73 : IVec S32768 1 := cmpi .sge main_arg4 main_v72
  let main_c_29 : IVec S_ 32 := constantI S_ 32 32#32
  let main_v74 : IVec S32768 32 := broadcastInDim S32768 ![] bcast_S_S32768 main_c_29
  let main_v75 : IVec S32768 1 := cmpi .slt main_arg4 main_v74
  let main_v76 : IVec S32768 1 := andi main_v73 main_v75
  let main_c_30 : IVec S_ 1 := constantI S_ 1 1#1
  let main_v77 : IVec S_ 1 := (fun x v => Host.reduce IntOp.andi x v reducesTo_S32768_S_d0 h_S_) main_v76 main_c_30
  let main_v78 : IVec S_ 1 := andi main_v71 main_v77
  main_v78

def fn_part3 {F : FTy → Type} [FloatOps F] (main_arg1 : IVec S32768x8 32) (main_arg2 : IVec S32768 32) (main_arg3 : IVec S32768 32) (main_arg4 : IVec S32768 32) (main_v50 : IVec S_ 1) : IVec S_ 1 :=
  let main_c_19 : IVec S_ 32 := constantI S_ 32 0#32
  let main_v51 : IVec S32768x8 32 := broadcastInDim S32768x8 ![] bcast_S_S32768x8 main_c_19
  let main_v52 : IVec S32768x8 1 := cmpi .sge main_arg1 main_v51
  let main_c_20 : IVec S_ 32 := constantI S_ 32 16#32
  let main_v53 : IVec S32768x8 32 := broadcastInDim S32768x8 ![] bcast_S_S32768x8 main_c_20
  let main_v54 : IVec S32768x8 1 := cmpi .slt main_arg1 main_v53
  let main_v55 : IVec S32768x8 1 := andi main_v52 main_v54
  let main_c_21 : IVec S_ 1 := constantI S_ 1 1#1
  let main_v56 : IVec S_ 1 := (fun x v => Host.reduce IntOp.andi x v reducesTo_S32768x8_S_d0_1 h_S_) main_v55 main_c_21
  let main_v57 : IVec S_ 1 := andi main_v50 main_v56
  let main_c_22 : IVec S_ 32 := constantI S_ 32 0#32
  let main_v58 : IVec S32768 32 := broadcastInDim S32768 ![] bcast_S_S32768 main_c_22
  let main_v59 : IVec S32768 1 := cmpi .sge main_arg2 main_v58
  let main_c_23 : IVec S_ 32 := constantI S_ 32 16#32
  let main_v60 : IVec S32768 32 := broadcastInDim S32768 ![] bcast_S_S32768 main_c_23
  let main_v61 : IVec S32768 1 := cmpi .slt main_arg2 main_v60
  let main_v62 : IVec S32768 1 := andi main_v59 main_v61
  let main_c_24 : IVec S_ 1 := constantI S_ 1 1#1
  let main_v63 : IVec S_ 1 := (fun x v => Host.reduce IntOp.andi x v reducesTo_S32768_S_d0 h_S_) main_v62 main_c_24
  let main_v64 : IVec S_ 1 := andi main_v57 main_v63
  let main_c_25 : IVec S_ 32 := constantI S_ 32 0#32
  let main_v65 : IVec S32768 32 := broadcastInDim S32768 ![] bcast_S_S32768 main_c_25
  let main_v66 : IVec S32768 1 := cmpi .sge main_arg3 main_v65
  let main_c_26 : IVec S_ 32 := constantI S_ 32 64#32
  fn_part4 (F := F) main_arg3 main_arg4 main_v64 main_v66 main_c_26

def fn_part2 {F : FTy → Type} [FloatOps F] (main_arg0 : IVec S32768x8 32) (main_arg1 : IVec S32768x8 32) (main_arg2 : IVec S32768 32) (main_arg3 : IVec S32768 32) (main_arg4 : IVec S32768 32) (main_arg12 : FVec F S256x448 .f32) (main_arg13 : FVec F S256 .f32) (main_v33 : IVec S_ 1) : IVec S_ 1 :=
  let main_v34 : FVec F S256x448 .f32 := Host.absf main_arg12
  let main_cst_12 : FVec F S_ .f32 := constant S_ .f32 0x7F800000#32
  let main_v35 : FVec F S256x448 .f32 := broadcastInDim S256x448 ![] bcast_S_S256x448 main_cst_12
  let main_v36 : IVec S256x448 1 := cmpf .olt main_v34 main_v35
  let main_c_13 : IVec S_ 1 := constantI S_ 1 1#1
  let main_v37 : IVec S_ 1 := (fun x v => Host.reduce IntOp.andi x v reducesTo_S256x448_S_d0_1 h_S_) main_v36 main_c_13
  let main_v38 : IVec S_ 1 := andi main_v33 main_v37
  let main_v39 : FVec F S256 .f32 := Host.absf main_arg13
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S32768x8 32 := broadcastInDim S32768x8 ![] bcast_S_S32768x8 main_c_16
  let main_v45 : IVec S32768x8 1 := cmpi .sge main_arg0 main_v44
  let main_c_17 : IVec S_ 32 := constantI S_ 32 16#32
  let main_v46 : IVec S32768x8 32 := broadcastInDim S32768x8 ![] bcast_S_S32768x8 main_c_17
  let main_v47 : IVec S32768x8 1 := cmpi .slt main_arg0 main_v46
  let main_v48 : IVec S32768x8 1 := andi main_v45 main_v47
  let main_c_18 : IVec S_ 1 := constantI S_ 1 1#1
  let main_v49 : IVec S_ 1 := (fun x v => Host.reduce IntOp.andi x v reducesTo_S32768x8_S_d0_1 h_S_) main_v48 main_c_18
  let main_v50 : IVec S_ 1 := andi main_v43 main_v49
  fn_part3 (F := F) main_arg1 main_arg2 main_arg3 main_arg4 main_v50

def fn_part1 {F : FTy → Type} [FloatOps F] (main_arg0 : IVec S32768x8 32) (main_arg1 : IVec S32768x8 32) (main_arg2 : IVec S32768 32) (main_arg3 : IVec S32768 32) (main_arg4 : IVec S32768 32) (main_arg9 : FVec F S32x64 .f32) (main_arg10 : FVec F S256x128 .f32) (main_arg11 : FVec F S256 .f32) (main_arg12 : FVec F S256x448 .f32) (main_arg13 : FVec F S256 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S32x64 .f32 := Host.absf main_arg9
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S256x128 .f32 := Host.absf main_arg10
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg11
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg1 main_arg2 main_arg3 main_arg4 main_arg12 main_arg13 main_v33

def fn {F : FTy → Type} [FloatOps F] (main_arg0 : IVec S32768x8 32) (main_arg1 : IVec S32768x8 32) (main_arg2 : IVec S32768 32) (main_arg3 : IVec S32768 32) (main_arg4 : IVec S32768 32) (main_arg5 : FVec F S16x64 .f32) (main_arg6 : FVec F S16x64 .f32) (main_arg7 : FVec F S16x64 .f32) (main_arg8 : FVec F S64x64 .f32) (main_arg9 : FVec F S32x64 .f32) (main_arg10 : FVec F S256x128 .f32) (main_arg11 : FVec F S256 .f32) (main_arg12 : FVec F S256x448 .f32) (main_arg13 : FVec F S256 .f32) : IVec S_ 1 :=
  let main_v0 : FVec F S16x64 .f32 := Host.absf main_arg5
  let main_cst : FVec F S_ .f32 := constant S_ .f32 0x7F800000#32
  let main_v1 : FVec F S16x64 .f32 := broadcastInDim S16x64 ![] bcast_S_S16x64 main_cst
  let main_v2 : IVec S16x64 1 := cmpf .olt main_v0 main_v1
  let main_c : IVec S_ 1 := constantI S_ 1 1#1
  let main_v3 : IVec S_ 1 := (fun x v => Host.reduce IntOp.andi x v reducesTo_S16x64_S_d0_1 h_S_) main_v2 main_c
  let main_v4 : FVec F S16x64 .f32 := Host.absf main_arg6
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64 .f32 := Host.absf main_arg7
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64x64 .f32 := Host.absf main_arg8
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg1 main_arg2 main_arg3 main_arg4 main_arg9 main_arg10 main_arg11 main_arg12 main_arg13 main_v13 main_v16
-- ==== Kernel.lean ====
abbrev S32768x8 : Shape := ⟨2, ![32768, 8]⟩
abbrev S32768 : Shape := ⟨1, ![32768]⟩
abbrev S16x64 : Shape := ⟨2, ![16, 64]⟩
abbrev S64x64 : Shape := ⟨2, ![64, 64]⟩
abbrev S32x64 : Shape := ⟨2, ![32, 64]⟩
abbrev S256x128 : Shape := ⟨2, ![256, 128]⟩
abbrev S256 : Shape := ⟨1, ![256]⟩
abbrev S256x448 : Shape := ⟨2, ![256, 448]⟩
abbrev S32768x1 : Shape := ⟨2, ![32768, 1]⟩
abbrev S32768x3 : Shape := ⟨2, ![32768, 3]⟩
abbrev S32768x19 : Shape := ⟨2, ![32768, 19]⟩
abbrev S256x64 : Shape := ⟨2, ![256, 64]⟩
abbrev S64x256 : Shape := ⟨2, ![64, 256]⟩
abbrev S16x256 : Shape := ⟨2, ![16, 256]⟩
abbrev S32x256 : Shape := ⟨2, ![32, 256]⟩
abbrev S256x256 : Shape := ⟨2, ![256, 256]⟩
abbrev S112x256 : Shape := ⟨2, ![112, 256]⟩
abbrev S32768x256 : Shape := ⟨2, ![32768, 256]⟩
abbrev S2048x19 : Shape := ⟨2, ![2048, 19]⟩
abbrev S2048x256 : Shape := ⟨2, ![2048, 256]⟩
abbrev S2048x8 : Shape := ⟨2, ![2048, 8]⟩
abbrev S2048x3 : Shape := ⟨2, ![2048, 3]⟩
abbrev S2048x32 : Shape := ⟨2, ![2048, 32]⟩
abbrev S2048x112 : Shape := ⟨2, ![2048, 112]⟩
abbrev S2048x1 : Shape := ⟨2, ![2048, 1]⟩
abbrev S1x256 : Shape := ⟨2, ![1, 256]⟩

abbrev nBuf : Space → Nat
  | .hbm => 41
  | .vmem => 9
  | .smem => 0
  | _ => 0

abbrev bufTy : (tb : Table) → Fin (tcTables nBuf tb) → BufTy
  | .hbm, ⟨0, _⟩ => ⟨S32768x8, .i32⟩
  | .hbm, ⟨1, _⟩ => ⟨S32768x8, .i32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S16x64, .f32⟩
  | .hbm, ⟨6, _⟩ => ⟨S16x64, .f32⟩
  | .hbm, ⟨7, _⟩ => ⟨S16x64, .f32⟩
  | .hbm, ⟨8, _⟩ => ⟨S64x64, .f32⟩
  | .hbm, ⟨9, _⟩ => ⟨S32x64, .f32⟩
  | .hbm, ⟨10, _⟩ => ⟨S256x128, .f32⟩
  | .hbm, ⟨11, _⟩ => ⟨S256, .f32⟩
  | .hbm, ⟨12, _⟩ => ⟨S256x448, .f32⟩
  | .hbm, ⟨13, _⟩ => ⟨S256, .f32⟩
  | .hbm, ⟨14, _⟩ => ⟨S32768x1, .i32⟩
  | .hbm, ⟨15, _⟩ => ⟨S32768x1, .i32⟩
  | .hbm, ⟨16, _⟩ => ⟨S32768x1, .i32⟩
  | .hbm, ⟨17, _⟩ => ⟨S32768x3, .i32⟩
  | .hbm, ⟨18, _⟩ => ⟨S32768x19, .i32⟩
  | .hbm, ⟨19, _⟩ => ⟨S256x64, .f32⟩
  | .hbm, ⟨20, _⟩ => ⟨S256x64, .f32⟩
  | .hbm, ⟨21, _⟩ => ⟨S64x256, .f32⟩
  | .hbm, ⟨22, _⟩ => ⟨S16x256, .f32⟩
  | .hbm, ⟨23, _⟩ => ⟨S64x256, .f32⟩
  | .hbm, ⟨24, _⟩ => ⟨S16x256, .f32⟩
  | .hbm, ⟨25, _⟩ => ⟨S32x256, .f32⟩
  | .hbm, ⟨26, _⟩ => ⟨S256x64, .f32⟩
  | .hbm, ⟨27, _⟩ => ⟨S256x64, .f32⟩
  | .hbm, ⟨28, _⟩ => ⟨S256x64, .f32⟩
  | .hbm, ⟨29, _⟩ => ⟨S256x256, .f32⟩
  | .hbm, ⟨30, _⟩ => ⟨S64x256, .f32⟩
  | .hbm, ⟨31, _⟩ => ⟨S16x256, .f32⟩
  | .hbm, ⟨32, _⟩ => ⟨S64x256, .f32⟩
  | .hbm, ⟨33, _⟩ => ⟨S64x256, .f32⟩
  | .hbm, ⟨34, _⟩ => ⟨S64x256, .f32⟩
  | .hbm, ⟨35, _⟩ => ⟨S32x256, .f32⟩
  | .hbm, ⟨36, _⟩ => ⟨S112x256, .f32⟩
  | .hbm, ⟨37, _⟩ => ⟨S32x256, .bf16⟩
  | .hbm, ⟨38, _⟩ => ⟨S112x256, .bf16⟩
  | .hbm, ⟨39, _⟩ => ⟨S256x256, .bf16⟩
  | .hbm, ⟨40, _⟩ => ⟨S32768x256, .f32⟩
  | .local _ .vmem, ⟨0, _⟩ => ⟨S2048x19, .i32⟩
  | .local _ .vmem, ⟨1, _⟩ => ⟨S2048x19, .i32⟩
  | .local _ .vmem, ⟨2, _⟩ => ⟨S32x256, .bf16⟩
  | .local _ .vmem, ⟨3, _⟩ => ⟨S112x256, .bf16⟩
  | .local _ .vmem, ⟨4, _⟩ => ⟨S256x256, .bf16⟩
  | .local _ .vmem, ⟨5, _⟩ => ⟨S256, .f32⟩
  | .local _ .vmem, ⟨6, _⟩ => ⟨S256, .f32⟩
  | .local _ .vmem, ⟨7, _⟩ => ⟨S2048x256, .f32⟩
  | .local _ .vmem, ⟨8, _⟩ => ⟨S2048x256, .f32⟩
  | _, _ => ⟨S32768x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x19 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S112x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S32768_S32768x1_0 : S32768.BroadcastsInDim S32768x1 (![0] : Fin 1 → Fin S32768x1.rank)
  concatenates_S32768x1_S32768x1_S32768x1_S32768x3_d1 : Shape.Concatenates [S32768x1, S32768x1, S32768x1] S32768x3 1
  concatenates_S32768x8_S32768x8_S32768x3_S32768x19_d1 : Shape.Concatenates [S32768x8, S32768x8, S32768x3] S32768x19 1
  slices_S256x128_S256x64_0_0 : S256x128.Slices ![0, 0] S256x64
  slices_S256x128_S256x64_0_64 : S256x128.Slices ![0, 64] S256x64
  transposes_S256x64_S64x256_1_0 : S256x64.Transposes [1, 0] S64x256
  concatenates_S16x256_S16x256_S32x256_d0 : Shape.Concatenates [S16x256, S16x256] S32x256 0
  slices_S256x448_S256x64_0_0 : S256x448.Slices ![0, 0] S256x64
  slices_S256x448_S256x64_0_64 : S256x448.Slices ![0, 64] S256x64
  slices_S256x448_S256x64_0_128 : S256x448.Slices ![0, 128] S256x64
  slices_S256x448_S256x256_0_192 : S256x448.Slices ![0, 192] S256x256
  concatenates_S16x256_S64x256_S32x256_S112x256_d0 : Shape.Concatenates [S16x256, S64x256, S32x256] S112x256 0
  bitsLt_bf16_f32 : FTy.bits .bf16 < FTy.bits .f32
  inb_S2048x19_S2048x8_0_0 : ∀ a, (![0, 0] : Fin 2 → Nat) a + S2048x8.size a ≤ S2048x19.size a
  h_S2048x8 : 0 < S2048x8.numel
  shapeCasts_S2048x8_S2048x8 : S2048x8.ShapeCasts S2048x8
  inb_S2048x19_S2048x8_0_8 : ∀ a, (![0, 8] : Fin 2 → Nat) a + S2048x8.size a ≤ S2048x19.size a
  inb_S2048x19_S2048x3_0_16 : ∀ a, (![0, 16] : Fin 2 → Nat) a + S2048x3.size a ≤ S2048x19.size a
  h_S2048x3 : 0 < S2048x3.numel
  shapeCasts_S2048x3_S2048x3 : S2048x3.ShapeCasts S2048x3
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S112x256_S112x256_0_0 : ∀ a, (![0, 0] : Fin 2 → Nat) a + S112x256.size a ≤ S112x256.size a
  h_S112x256 : 0 < S112x256.numel
  shapeCasts_S112x256_S112x256 : S112x256.ShapeCasts S112x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  iota_S2048x32_d1_w32 : S2048x32.Iotas .tc 32 [1]
  iota_S2048x112_d1_w32 : S2048x112.Iotas .tc 32 [1]
  slices_S2048x8_o0_0_S2048x1 : S2048x8.Slices ![0, 0] S2048x1
  broadcasts_S2048x1_S2048x32 : S2048x1.Broadcasts S2048x32
  natLt_1_32 : 1 < 32
  slices_S2048x8_o0_1_S2048x1 : S2048x8.Slices ![0, 1] S2048x1
  slices_S2048x8_o0_2_S2048x1 : S2048x8.Slices ![0, 2] S2048x1
  slices_S2048x8_o0_3_S2048x1 : S2048x8.Slices ![0, 3] S2048x1
  slices_S2048x8_o0_4_S2048x1 : S2048x8.Slices ![0, 4] S2048x1
  slices_S2048x8_o0_5_S2048x1 : S2048x8.Slices ![0, 5] S2048x1
  slices_S2048x8_o0_6_S2048x1 : S2048x8.Slices ![0, 6] S2048x1
  slices_S2048x8_o0_7_S2048x1 : S2048x8.Slices ![0, 7] S2048x1
  shapeCasts_S256_S1x256 : S256.ShapeCasts S1x256
  broadcasts_S1x256_S2048x256 : S1x256.Broadcasts S2048x256
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  broadcasts_S2048x1_S2048x112 : S2048x1.Broadcasts S2048x112
  inb_S2048x256_S2048x256_0_0 : ∀ a, (![0, 0] : Fin 2 → Nat) a + S2048x256.size a ≤ S2048x256.size a
  h_S2048x256 : 0 < S2048x256.numel
  dot_S16x64_S64x256_S16x256_1_0_0_1_n_n_wf : DotDims.WF S16x64 S64x256 S16x256 [1] [0] [0] [1] [] []
  dot_S64x64_S64x256_S64x256_1_0_0_1_n_n_wf : DotDims.WF S64x64 S64x256 S64x256 [1] [0] [0] [1] [] []
  dot_S32x64_S64x256_S32x256_1_0_0_1_n_n_wf : DotDims.WF S32x64 S64x256 S32x256 [1] [0] [0] [1] [] []
  dot_S2048x32_S32x256_S2048x256_1_0_0_1_n_n_wf : DotDims.WF S2048x32 S32x256 S2048x256 [1] [0] [0] [1] [] []
  dot_S2048x112_S112x256_S2048x256_1_0_0_1_n_n_wf : DotDims.WF S2048x112 S112x256 S2048x256 [1] [0] [0] [1] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x19.size a ≤ S32768x19.size a
  hwx0_0 : ∀ i : grid0.Coords, EltTy.bits .i32 = 32 ∨ (Rect.block (s := S32768x19) S2048x19.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .bf16 = 32 ∨ (Rect.block (s := S32x256) S32x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S112x256.size a ≤ S112x256.size a
  hwx0_2 : ∀ i : grid0.Coords, EltTy.bits .bf16 = 32 ∨ (Rect.block (s := S112x256) S112x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S32768x256.size a
  hwx0_6 : ∀ i : grid0.Coords, EltTy.bits .f32 = 32 ∨ (Rect.block (s := S32768x256) S2048x256.size (cc0_transform_6 i) (hinb0_6 i)).WholeWords (EltTy.packing .f32)

variable [Facts₀]

def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf
def dot_S2048x112_S112x256_S2048x256_1_0_0_1_n_n : DotDims S2048x112 S112x256 S2048x256 where
  lhsContracting := [1]
  rhsContracting := [0]
  lhsNonContracting := [0]
  rhsNonContracting := [1]
  lhsBatch := []
  rhsBatch := []
  wf := dot_S2048x112_S112x256_S2048x256_1_0_0_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_v4) S2048x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S112x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x8 : Shape := ⟨2, ![32768, 8]⟩
abbrev S32768 : Shape := ⟨1, ![32768]⟩
abbrev S16x64 : Shape := ⟨2, ![16, 64]⟩
abbrev S64x64 : Shape := ⟨2, ![64, 64]⟩
abbrev S32x64 : Shape := ⟨2, ![32, 64]⟩
abbrev S256x128 : Shape := ⟨2, ![256, 128]⟩
abbrev S256 : Shape := ⟨1, ![256]⟩
abbrev S256x448 : Shape := ⟨2, ![256, 448]⟩
abbrev S_ : Shape := ⟨0, ![]⟩
abbrev S32768x8x1 : Shape := ⟨3, ![32768, 8, 1]⟩
abbrev S32768x8x64 : Shape := ⟨3, ![32768, 8, 64]⟩
abbrev S32768x8x128 : Shape := ⟨3, ![32768, 8, 128]⟩
abbrev S32768x8x256 : Shape := ⟨3, ![32768, 8, 256]⟩
abbrev S1x1x256 : Shape := ⟨3, ![1, 1, 256]⟩
abbrev S32768x256 : Shape := ⟨2, ![32768, 256]⟩
abbrev S32768x1 : Shape := ⟨2, ![32768, 1]⟩
abbrev S32768x64 : Shape := ⟨2, ![32768, 64]⟩
abbrev S32768x448 : Shape := ⟨2, ![32768, 448]⟩
abbrev S448x256 : Shape := ⟨2, ![448, 256]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S32768x8, .i32⟩
  | .hbm, ⟨1, _⟩ => ⟨S32768x8, .i32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S16x64, .f32⟩
  | .hbm, ⟨6, _⟩ => ⟨S16x64, .f32⟩
  | .hbm, ⟨7, _⟩ => ⟨S16x64, .f32⟩
  | .hbm, ⟨8, _⟩ => ⟨S64x64, .f32⟩
  | .hbm, ⟨9, _⟩ => ⟨S32x64, .f32⟩
  | .hbm, ⟨10, _⟩ => ⟨S256x128, .f32⟩
  | .hbm, ⟨11, _⟩ => ⟨S256, .f32⟩
  | .hbm, ⟨12, _⟩ => ⟨S256x448, .f32⟩
  | .hbm, ⟨13, _⟩ => ⟨S256, .f32⟩
  | .hbm, ⟨14, _⟩ => ⟨S_, .i32⟩
  | .hbm, ⟨15, _⟩ => ⟨S32768x8, .i32⟩
  | .hbm, ⟨16, _⟩ => ⟨S32768x8, .i1⟩
  | .hbm, ⟨17, _⟩ => ⟨S_, .i32⟩
  | .hbm, ⟨18, _⟩ => ⟨S32768x8, .i32⟩
  | .hbm, ⟨19, _⟩ => ⟨S32768x8, .i32⟩
  | .hbm, ⟨20, _⟩ => ⟨S32768x8, .i32⟩
  | .hbm, ⟨21, _⟩ => ⟨S32768x8x1, .i32⟩
  | .hbm, ⟨22, _⟩ => ⟨S32768x8x64, .f32⟩
  | .hbm, ⟨23, _⟩ => ⟨S_, .i32⟩
  | .hbm, ⟨24, _⟩ => ⟨S32768x8, .i32⟩
  | .hbm, ⟨25, _⟩ => ⟨S32768x8, .i1⟩
  | .hbm, ⟨26, _⟩ => ⟨S_, .i32⟩
  | .hbm, ⟨27, _⟩ => ⟨S32768x8, .i32⟩
  | .hbm, ⟨28, _⟩ => ⟨S32768x8, .i32⟩
  | .hbm, ⟨29, _⟩ => ⟨S32768x8, .i32⟩
  | .hbm, ⟨30, _⟩ => ⟨S32768x8x1, .i32⟩
  | .hbm, ⟨31, _⟩ => ⟨S32768x8x64, .f32⟩
  | .hbm, ⟨32, _⟩ => ⟨S32768x8x128, .f32⟩
  | .hbm, ⟨33, _⟩ => ⟨S32768x8x256, .f32⟩
  | .hbm, ⟨34, _⟩ => ⟨S1x1x256, .f32⟩
  | .hbm, ⟨35, _⟩ => ⟨S32768x8x256, .f32⟩
  | .hbm, ⟨36, _⟩ => ⟨S32768x8x256, .f32⟩
  | .hbm, ⟨37, _⟩ => ⟨S_, .f32⟩
  | .hbm, ⟨38, _⟩ => ⟨S32768x8x256, .f32⟩
  | .hbm, ⟨39, _⟩ => ⟨S32768x8x256, .f32⟩
  | .hbm, ⟨40, _⟩ => ⟨S_, .f32⟩
  | .hbm, ⟨41, _⟩ => ⟨S32768x256, .f32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S32768x64, .f32⟩
  | .hbm, ⟨51, _⟩ => ⟨S_, .i32⟩
  | .hbm, ⟨52, _⟩ => ⟨S32768, .i32⟩
  | .hbm, ⟨53, _⟩ => ⟨S32768, .i1⟩
  | .hbm, ⟨54, _⟩ => ⟨S_, .i32⟩
  | .hbm, ⟨55, _⟩ => ⟨S32768, .i32⟩
  | .hbm, ⟨56, _⟩ => ⟨S32768, .i32⟩
  | .hbm, ⟨57, _⟩ => ⟨S32768, .i32⟩
  | .hbm, ⟨58, _⟩ => ⟨S32768x1, .i32⟩
  | .hbm, ⟨59, _⟩ => ⟨S32768x64, .f32⟩
  | .hbm, ⟨60, _⟩ => ⟨S_, .i32⟩
  | .hbm, ⟨61, _⟩ => ⟨S32768, .i32⟩
  | .hbm, ⟨62, _⟩ => ⟨S32768, .i1⟩
  | .hbm, ⟨63, _⟩ => ⟨S_, .i32⟩
  | .hbm, ⟨64, _⟩ => ⟨S32768, .i32⟩
  | .hbm, ⟨65, _⟩ => ⟨S32768, .i32⟩
  | .hbm, ⟨66, _⟩ => ⟨S32768, .i32⟩
  | .hbm, ⟨67, _⟩ => ⟨S32768x1, .i32⟩
  | .hbm, ⟨68, _⟩ => ⟨S32768x64, .f32⟩
  | .hbm, ⟨69, _⟩ => ⟨S32768x448, .f32⟩
  | .hbm, ⟨70, _⟩ => ⟨S448x256, .f32⟩
  | .hbm, ⟨71, _⟩ => ⟨S32768x256, .f32⟩
  | .hbm, ⟨72, _⟩ => ⟨S1x256, .f32⟩
  | .hbm, ⟨73, _⟩ => ⟨S32768x256, .f32⟩
  | .hbm, ⟨74, _⟩ => ⟨S32768x256, .f32⟩
  | .hbm, ⟨75, _⟩ => ⟨S_, .f32⟩
  | .hbm, ⟨76, _⟩ => ⟨S32768x256, .f32⟩
  | .hbm, ⟨77, _⟩ => ⟨S32768x256, .f32⟩
  | _, _ => ⟨S32768x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  bcast_S_S32768x8 : S_.BroadcastsInDim S32768x8 (![] : Fin 0 → Fin S32768x8.rank)
  bcast_S32768x8_S32768x8x1_0_1 : S32768x8.BroadcastsInDim S32768x8x1 (![0, 1] : Fin 2 → Fin S32768x8x1.rank)
  concatenates_S32768x8x64_S32768x8x64_S32768x8x128_d2 : Shape.Concatenates [S32768x8x64, S32768x8x64] S32768x8x128 2
  bcast_S256_S1x1x256_2 : S256.BroadcastsInDim S1x1x256 (![2] : Fin 1 → Fin S1x1x256.rank)
  bcast_S1x1x256_S32768x8x256_0_1_2 : S1x1x256.BroadcastsInDim S32768x8x256 (![0, 1, 2] : Fin 3 → Fin S32768x8x256.rank)
  bcast_S_S32768x8x256 : S_.BroadcastsInDim S32768x8x256 (![] : Fin 0 → Fin S32768x8x256.rank)
  reducesTo_S32768x8x256_S32768x256_d1 : S32768x8x256.ReducesTo [1] S32768x256
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  concatenates_S32768x64_S32768x64_S32768x64_S32768x256_S32768x448_d1 : Shape.Concatenates [S32768x64, S32768x64, S32768x64, S32768x256] S32768x448 1
  transposes_S256x448_S448x256_1_0 : S256x448.Transposes [1, 0] S448x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  gather_S16x64_S32768x8x1_S32768x8x64_2_0_n_n_0_2_164_wf : GatherDims.WF S16x64 S32768x8x1 S32768x8x64 [2] [0] [] [0] [] 2 ![1, 64]
  dot_S32768x8x128_S256x128_S32768x8x256_2_1_01_0_n_n_wf : DotDims.WF S32768x8x128 S256x128 S32768x8x256 [2] [1] [0, 1] [0] [] []
  gather_S16x64_S32768x1_S32768x64_1_0_n_n_0_1_164_wf : GatherDims.WF S16x64 S32768x1 S32768x64 [1] [0] [] [0] [] 1 ![1, 64]
  gather_S64x64_S32768x1_S32768x64_1_0_n_n_0_1_164_wf : GatherDims.WF S64x64 S32768x1 S32768x64 [1] [0] [] [0] [] 1 ![1, 64]
  gather_S32x64_S32768x1_S32768x64_1_0_n_n_0_1_164_wf : GatherDims.WF S32x64 S32768x1 S32768x64 [1] [0] [] [0] [] 1 ![1, 64]
  dot_S32768x448_S448x256_S32768x256_1_0_0_1_n_n_wf : DotDims.WF S32768x448 S448x256 S32768x256 [1] [0] [0] [1] [] []

variable [Facts₀]

def gather_S16x64_S32768x8x1_S32768x8x64_2_0_n_n_0_2_164 : GatherDims S16x64 S32768x8x1 S32768x8x64 where
  offsetDims := [2]
  collapsedSliceDims := [0]
  operandBatchingDims := []
  startIndicesBatchingDims := []
  startIndexMap := [0]
  indexVectorDim := 2
  sliceSizes := ![1, 64]
  wf := gather_S16x64_S32768x8x1_S32768x8x64_2_0_n_n_0_2_164_wf
def dot_S32768x8x128_S256x128_S32768x8x256_2_1_01_0_n_n : DotDims S32768x8x128 S256x128 S32768x8x256 where
  lhsContracting := [2]
  rhsContracting := [1]
  lhsNonContracting := [0, 1]
  rhsNonContracting := [0]
  lhsBatch := []
  rhsBatch := []
  wf := dot_S32768x8x128_S256x128_S32768x8x256_2_1_01_0_n_n_wf
def gather_S16x64_S32768x1_S32768x64_1_0_n_n_0_1_164 : GatherDims S16x64 S32768x1 S32768x64 where
  offsetDims := [1]
  collapsedSliceDims := [0]
  operandBatchingDims := []
  startIndicesBatchingDims := []
  startIndexMap := [0]
  indexVectorDim := 1
  sliceSizes := ![1, 64]
  wf := gather_S16x64_S32768x1_S32768x64_1_0_n_n_0_1_164_wf
def gather_S64x64_S32768x1_S32768x64_1_0_n_n_0_1_164 : GatherDims S64x64 S32768x1 S32768x64 where
  offsetDims := [1]
  collapsedSliceDims := [0]
  operandBatchingDims := []
  startIndicesBatchingDims := []
  startIndexMap := [0]
  indexVectorDim := 1
  sliceSizes := ![1, 64]
  wf := gather_S64x64_S32768x1_S32768x64_1_0_n_n_0_1_164_wf
def gather_S32x64_S32768x1_S32768x64_1_0_n_n_0_1_164 : GatherDims S32x64 S32768x1 S32768x64 where
  offsetDims := [1]
  collapsedSliceDims := [0]
  operandBatchingDims := []
  startIndicesBatchingDims := []
  startIndexMap := [0]
  indexVectorDim := 1
  sliceSizes := ![1, 64]
  wf := gather_S32x64_S32768x1_S32768x64_1_0_n_n_0_1_164_wf
def dot_S32768x448_S448x256_S32768x256_1_0_0_1_n_n : DotDims S32768x448 S448x256 S32768x256 where
  lhsContracting := [1]
  rhsContracting := [0]
  lhsNonContracting := [0]
  rhsNonContracting := [1]
  lhsBatch := []
  rhsBatch := []
  wf := dot_S32768x448_S448x256_S32768x256_1_0_0_1_n_n_wf

class Facts : Prop extends Facts₀ where

variable [Facts]
-- ==== Proof.KBodyDefK.lean ====
/-
  The value the kernel stores at a grid point, as one function of the eight values its body loads: the three column
  groups of the row block's index array (affordance indices, material indices, and the task / object / state
  indices), the three stacked tables, and the two biases. pooledVal is the pooled part features (the running
  maximum over the eight parts, then bias and clamp); bodyVal is the stored block.
-/
import proofs.«423634_j39307540693438_3_alg».proof.Proof.Gen.Kernel.Skeleton

noncomputable section

namespace Cert.Kernel.Hand

open Idealize.ShloMosaic Idealize.ShloMosaic.TcCoe Cert.Kernel Cert.Kernel.Gen

variable {F : FTy → Type} [FloatOps F]

/-- The column index of each entry of a 2048 x 32 block. -/
abbrev iotaAM : IVec S2048x32 32 := iota .tc S2048x32 32 [1] iota_S2048x32_d1_w32
/-- The column index of each entry of a 2048 x 112 block. -/
abbrev iotaTOS : IVec S2048x112 32 := iota .tc S2048x112 32 [1] iota_S2048x112_d1_w32

/-- The pooled part features of the row block, from its affordance and material indices, the stacked part table
    and the part bias. -/
def pooledVal (v0 v2 : Vec F S2048x8 .i32) (v6 : Vec F S32x256 .bf16) (v12 : Vec F S256 .f32) : FVec F S2048x256 .f32 :=
  k0_pay13 (k0_pay2 v0) (k0_pay3 v2) (k0_pay5 v6) v12 iotaAM
    (k0_pay10 (k0_pay2 v0) (k0_pay3 v2) (k0_pay5 v6) iotaAM (k0_pay8 v0 v2 v6) (k0_pay9 v0 v2))
    (k0_pay11 (k0_pay2 v0) iotaAM) (k0_pay12 (k0_pay3 v2))

/-- The last stage: from the pooled features, the row indices, the stacked row table, the pooled layer and the
    object bias to the stored block. -/
def outVal (v4 : Vec F S2048x3 .i32) (v8 : Vec F S112x256 .bf16) (v10 : Vec F S256x256 .bf16) (v13 : Vec F S256 .f32)
    (v133 : FVec F S2048x256 .f32) : FVec F S2048x256 .f32 :=
  k0_pay1 (k0_pay6 v8) (k0_pay7 v10) v13 iotaTOS v133 (k0_pay14 (k0_pay4 v4)) (k0_pay15 (k0_pay4 v4) iotaTOS) k0_pay16

/-- The block the kernel stores, from the eight values it loads. -/
def bodyVal (v0 v2 : Vec F S2048x8 .i32) (v4 : Vec F S2048x3 .i32) (v6 : Vec F S32x256 .bf16) (v8 : Vec F S112x256 .bf16)
    (v10 : Vec F S256x256 .bf16) (v12 v13 : Vec F S256 .f32) : FVec F S2048x256 .f32 :=
  outVal v4 v8 v10 v13 (pooledVal v0 v2 v6 v12)

end Cert.Kernel.Hand

end
-- ==== Proof.FrameK.lean ====
/-
  The word-level kernel program runs to the end, faults nowhere and leaves its fourteen arguments unchanged.

  @main is twenty-six host operations, then one pipelined region of 16 grid points, then the return. At point t the
  region stages row block t of the merged index array (2048 x 19) and, once, the three stacked tables and the two
  biases; the body loads all of them, computes, and stores the whole 2048 x 256 output block, which is written back
  as row block t of the result. So after the body each input's staging buffer still holds its block, and the
  output's holds bodyVal of the loaded values; none of the fourteen arguments is written by a host operation or
  staged as an output, so each ends as launched. The proof states what every staging buffer holds after the body
  at each point, runs the body once at a symbolic point, and hands both to the one-region launch theorem.
-/
import proofs.«423634_j39307540693438_3_alg».proof.Proof.Gen.Kernel.Launch
import proofs.«423634_j39307540693438_3_alg».proof.Proof.Gen.Kernel.Skeleton
import proofs.«423634_j39307540693438_3_alg».proof.Proof.Gen.Kernel.Points
import proofs.«423634_j39307540693438_3_alg».proof.Proof.KBodyDefK
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the twenty-six host operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: a window not
    fetched at a point has not moved its block index since the point before, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the launch theorem's post gives the frame
    claim's post: the two biases are staged inputs, whose arrays end at their entry contents; every other argument
    is a buffer no window stages, which ends as the region found it; and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 4).trans (((dats 0 c).arrAt_in 4 rfl _).trans ((hA c 4).trans (V_main_arg11 m c))),
      ((h c).2 main_arg12 (Pipeline.mem_restRefs_of main_arg12 (by decide) (by decide))).trans (V_main_arg12 m c),
      ((h c).1 5).trans (((dats 0 c).arrAt_in 5 rfl _).trans ((hA c 5).trans (V_main_arg13 m c)))⟩) h

/-! ## The body's accesses -/

/-- The affordance columns 0..7 of the index block. -/
abbrev rAff : Rect S2048x19 := Rect.unit (s := S2048x19) ![0, 0] S2048x8.size inb_S2048x19_S2048x8_0_0
/-- The material columns 8..15 of the index block. -/
abbrev rMat : Rect S2048x19 := Rect.unit (s := S2048x19) ![0, 8] S2048x8.size inb_S2048x19_S2048x8_0_8
/-- The task, object and state columns 16..18 of the index block. -/
abbrev rCat : Rect S2048x19 := Rect.unit (s := S2048x19) ![0, 16] S2048x3.size inb_S2048x19_S2048x3_0_16
abbrev rAM : Rect S32x256 := Rect.unit (s := S32x256) ![0, 0] S32x256.size inb_S32x256_S32x256_0_0
abbrev rTOS : Rect S112x256 := Rect.unit (s := S112x256) ![0, 0] S112x256.size inb_S112x256_S112x256_0_0
abbrev rWq : Rect S256x256 := Rect.unit (s := S256x256) ![0, 0] S256x256.size inb_S256x256_S256x256_0_0
abbrev rB : Rect S256 := Rect.unit (s := S256) ![0] S256.size inb_S256_S256_0
abbrev rOut : Rect S2048x256 := Rect.unit (s := S2048x256) ![0, 0] S2048x256.size inb_S2048x256_S2048x256_0_0

/-! ## What the body leaves in the output window's buffer -/

/-- The output buffer after the body, from the input windows' blocks: its one store, of bodyVal of the loads. -/
def out0_6 (x0 : Vec F S2048x19 .i32) (x1 : Vec F S32x256 .bf16) (x2 : Vec F S112x256 .bf16) (x3 : Vec F S256x256 .bf16)
    (x4 x5 : Vec F S256 .f32) : Vec F S2048x256 .f32 :=
  View.canon [⟨rOut, bodyVal (View.ld x0 rAff) (View.ld x0 rMat) (View.ld x0 rCat) (View.ld x1 rAM) (View.ld x2 rTOS) (View.ld x3 rWq)
    (View.ld x4 rB) (View.ld x5 rB)⟩]

/-- The one store is of the whole block, so it covers it. -/
theorem cover0_6 (p0 : Vec F S2048x256 .f32) (y : S2048x256.Idx) :
    ∃ pc ∈ ([⟨rOut, p0⟩] : List (View.Piece (Elt F) S2048x256 .f32)), y ∈ pc.1.set :=
  View.cover_of_tiled [⟨rOut, p0⟩] S2048x256.size (by rfl) y

end Cert.Kernel.Hand

end
-- ==== Proof.FrameKRun.lean ====
/-
  The body of the word-level kernel at a symbolic grid point, and the run of the whole program.

  Handed its seven staging buffers — the six inputs at known contents, the output at anything — the body loads, computes
  and stores, leaving the inputs as they were and the output at the canonical contents of its one store (out0_6 of the
  inputs). With "after the body every input's buffer holds its block and the output's holds out0_6 of the blocks" as the
  proof data, the body's triple is the obligation at every point, and the one-region launch gives the run: the program
  terminates without fault, the result array ends at what the write-backs composed, every other buffer as the region
  found it.
-/
import proofs.«423634_j39307540693438_3_alg».proof.Proof.FrameK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging memrefs, the inputs' at contents x0 … x5 and the output's at anything, runs to the
    continuation with the inputs' as they were and the output's at out0_6 of them. -/
theorem sound_kernel (c : Dev nD) (E : Set ℕ) (i : grid0.Coords) (arg1 : Memref sig .tc .vmem S2048x19 .i32) (harg1 : arg1.IsWhole) (arg2 : Memref sig .tc .vmem S32x256 .bf16) (harg2 : arg2.IsWhole) (arg3 : Memref sig .tc .vmem S112x256 .bf16) (harg3 : arg3.IsWhole) (arg4 : Memref sig .tc .vmem S256x256 .bf16) (harg4 : arg4.IsWhole) (arg5 : Memref sig .tc .vmem S256 .f32) (harg5 : arg5.IsWhole) (arg6 : Memref sig .tc .vmem S256 .f32) (harg6 : arg6.IsWhole) (arg7 : Memref sig .tc .vmem S2048x256 .f32) (harg7 : arg7.IsWhole)
    (x0 : Vec F S2048x19 .i32) (x1 : Vec F S32x256 .bf16) (x2 : Vec F S112x256 .bf16) (x3 : Vec F S256x256 .bf16) (x4 x5 : Vec F S256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The arrays as the region finds them; after the body at point t each input's buffer at its block and the output's at
    out0_6 of the input blocks; the invariant is the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has the
    result array at what the write-backs composed and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without fault and every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Hand

end
-- ==== Proof.KBodyDef.lean ====
/-
  The value the kernel stores at a grid point, as one function of the eight values its body loads: the three column
  groups of the row block's index array (affordance indices, material indices, and the task / object / state
  indices), the three stacked tables, and the two biases. pooledVal is the pooled part features (the running
  maximum over the eight parts, then bias and clamp); bodyVal is the stored block.
-/
import proofs.«423634_j39307540693438_3_alg».proof.Proof.Gen.KernelIdeal.Skeleton

noncomputable section

namespace Cert.KernelIdeal.Hand

open Idealize.ShloMosaic Idealize.ShloMosaic.TcCoe Cert.KernelIdeal Cert.KernelIdeal.Gen

variable {F : FTy → Type} [FloatOps F]

/-- The column index of each entry of a 2048 x 32 block. -/
abbrev iotaAM : IVec S2048x32 32 := iota .tc S2048x32 32 [1] iota_S2048x32_d1_w32
/-- The column index of each entry of a 2048 x 112 block. -/
abbrev iotaTOS : IVec S2048x112 32 := iota .tc S2048x112 32 [1] iota_S2048x112_d1_w32

/-- The pooled part features of the row block, from its affordance and material indices, the stacked part table
    and the part bias. -/
def pooledVal (v0 v2 : Vec F S2048x8 .i32) (v6 : Vec F S32x256 .bf16) (v12 : Vec F S256 .f32) : FVec F S2048x256 .f32 :=
  k0_pay13 (k0_pay2 v0) (k0_pay3 v2) (k0_pay5 v6) v12 iotaAM
    (k0_pay10 (k0_pay2 v0) (k0_pay3 v2) (k0_pay5 v6) iotaAM (k0_pay8 v0 v2 v6) (k0_pay9 v0 v2))
    (k0_pay11 (k0_pay2 v0) iotaAM) (k0_pay12 (k0_pay3 v2))

/-- The last stage: from the pooled features, the row indices, the stacked row table, the pooled layer and the
    object bias to the stored block. -/
def outVal (v4 : Vec F S2048x3 .i32) (v8 : Vec F S112x256 .bf16) (v10 : Vec F S256x256 .bf16) (v13 : Vec F S256 .f32)
    (v133 : FVec F S2048x256 .f32) : FVec F S2048x256 .f32 :=
  k0_pay1 (k0_pay6 v8) (k0_pay7 v10) v13 iotaTOS v133 (k0_pay14 (k0_pay4 v4)) (k0_pay15 (k0_pay4 v4) iotaTOS) k0_pay16

/-- The block the kernel stores, from the eight values it loads. -/
def bodyVal (v0 v2 : Vec F S2048x8 .i32) (v4 : Vec F S2048x3 .i32) (v6 : Vec F S32x256 .bf16) (v8 : Vec F S112x256 .bf16)
    (v10 : Vec F S256x256 .bf16) (v12 v13 : Vec F S256 .f32) : FVec F S2048x256 .f32 :=
  outVal v4 v8 v10 v13 (pooledVal v0 v2 v6 v12)

end Cert.KernelIdeal.Hand

end
-- ==== Proof.FrameKI.lean ====
/-
  The idealized kernel program runs to the end, faults nowhere and leaves its fourteen arguments unchanged.

  @main is twenty-six host operations, then one pipelined region of 16 grid points, then the return. At point t the
  region stages row block t of the merged index array (2048 x 19) and, once, the three stacked tables and the two
  biases; the body loads all of them, computes, and stores the whole 2048 x 256 output block, which is written back
  as row block t of the result. So after the body each input's staging buffer still holds its block, and the
  output's holds bodyVal of the loaded values; none of the fourteen arguments is written by a host operation or
  staged as an output, so each ends as launched. The proof states what every staging buffer holds after the body
  at each point, runs the body once at a symbolic point, and hands both to the one-region launch theorem.
-/
import proofs.«423634_j39307540693438_3_alg».proof.Proof.Gen.KernelIdeal.Launch
import proofs.«423634_j39307540693438_3_alg».proof.Proof.Gen.KernelIdeal.Skeleton
import proofs.«423634_j39307540693438_3_alg».proof.Proof.Gen.KernelIdeal.Points
import proofs.«423634_j39307540693438_3_alg».proof.Proof.KBodyDef
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the twenty-six host operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: a window not
    fetched at a point has not moved its block index since the point before, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the launch theorem's post gives the frame
    claim's post: the two biases are staged inputs, whose arrays end at their entry contents; every other argument
    is a buffer no window stages, which ends as the region found it; and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 4).trans (((dats 0 c).arrAt_in 4 rfl _).trans ((hA c 4).trans (V_main_arg11 m c))),
      ((h c).2 main_arg12 (Pipeline.mem_restRefs_of main_arg12 (by decide) (by decide))).trans (V_main_arg12 m c),
      ((h c).1 5).trans (((dats 0 c).arrAt_in 5 rfl _).trans ((hA c 5).trans (V_main_arg13 m c)))⟩) h

/-! ## The body's accesses -/

/-- The affordance columns 0..7 of the index block. -/
abbrev rAff : Rect S2048x19 := Rect.unit (s := S2048x19) ![0, 0] S2048x8.size inb_S2048x19_S2048x8_0_0
/-- The material columns 8..15 of the index block. -/
abbrev rMat : Rect S2048x19 := Rect.unit (s := S2048x19) ![0, 8] S2048x8.size inb_S2048x19_S2048x8_0_8
/-- The task, object and state columns 16..18 of the index block. -/
abbrev rCat : Rect S2048x19 := Rect.unit (s := S2048x19) ![0, 16] S2048x3.size inb_S2048x19_S2048x3_0_16
abbrev rAM : Rect S32x256 := Rect.unit (s := S32x256) ![0, 0] S32x256.size inb_S32x256_S32x256_0_0
abbrev rTOS : Rect S112x256 := Rect.unit (s := S112x256) ![0, 0] S112x256.size inb_S112x256_S112x256_0_0
abbrev rWq : Rect S256x256 := Rect.unit (s := S256x256) ![0, 0] S256x256.size inb_S256x256_S256x256_0_0
abbrev rB : Rect S256 := Rect.unit (s := S256) ![0] S256.size inb_S256_S256_0
abbrev rOut : Rect S2048x256 := Rect.unit (s := S2048x256) ![0, 0] S2048x256.size inb_S2048x256_S2048x256_0_0

/-! ## What the body leaves in the output window's buffer -/

/-- The output buffer after the body, from the input windows' blocks: its one store, of bodyVal of the loads. -/
def out0_6 (x0 : Vec F S2048x19 .i32) (x1 : Vec F S32x256 .bf16) (x2 : Vec F S112x256 .bf16) (x3 : Vec F S256x256 .bf16)
    (x4 x5 : Vec F S256 .f32) : Vec F S2048x256 .f32 :=
  View.canon [⟨rOut, bodyVal (View.ld x0 rAff) (View.ld x0 rMat) (View.ld x0 rCat) (View.ld x1 rAM) (View.ld x2 rTOS) (View.ld x3 rWq)
    (View.ld x4 rB) (View.ld x5 rB)⟩]

/-- The one store is of the whole block, so it covers it. -/
theorem cover0_6 (p0 : Vec F S2048x256 .f32) (y : S2048x256.Idx) :
    ∃ pc ∈ ([⟨rOut, p0⟩] : List (View.Piece (Elt F) S2048x256 .f32)), y ∈ pc.1.set :=
  View.cover_of_tiled [⟨rOut, p0⟩] S2048x256.size (by rfl) y

end Cert.KernelIdeal.Hand

end
-- ==== Proof.FrameKIRun.lean ====
/-
  The body of the idealized kernel at a symbolic grid point, and the run of the whole program.

  Handed its seven staging buffers — the six inputs at known contents, the output at anything — the body loads, computes
  and stores, leaving the inputs as they were and the output at the canonical contents of its one store (out0_6 of the
  inputs). With "after the body every input's buffer holds its block and the output's holds out0_6 of the blocks" as the
  proof data, the body's triple is the obligation at every point, and the one-region launch gives the run: the program
  terminates without fault, the result array ends at what the write-backs composed, every other buffer as the region
  found it.
-/
import proofs.«423634_j39307540693438_3_alg».proof.Proof.FrameKI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging memrefs, the inputs' at contents x0 … x5 and the output's at anything, runs to the
    continuation with the inputs' as they were and the output's at out0_6 of them. -/
theorem sound_kernel (c : Dev nD) (E : Set ℕ) (i : grid0.Coords) (arg1 : Memref sig .tc .vmem S2048x19 .i32) (harg1 : arg1.IsWhole) (arg2 : Memref sig .tc .vmem S32x256 .bf16) (harg2 : arg2.IsWhole) (arg3 : Memref sig .tc .vmem S112x256 .bf16) (harg3 : arg3.IsWhole) (arg4 : Memref sig .tc .vmem S256x256 .bf16) (harg4 : arg4.IsWhole) (arg5 : Memref sig .tc .vmem S256 .f32) (harg5 : arg5.IsWhole) (arg6 : Memref sig .tc .vmem S256 .f32) (harg6 : arg6.IsWhole) (arg7 : Memref sig .tc .vmem S2048x256 .f32) (harg7 : arg7.IsWhole)
    (x0 : Vec F S2048x19 .i32) (x1 : Vec F S32x256 .bf16) (x2 : Vec F S112x256 .bf16) (x3 : Vec F S256x256 .bf16) (x4 x5 : Vec F S256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The arrays as the region finds them; after the body at point t each input's buffer at its block and the output's at
    out0_6 of the input blocks; the invariant is the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has the
    result array at what the write-backs composed and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without fault and every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Hand

end
-- ==== Proof.Spec.lean ====
/-
  The object encoder as two functions of its fourteen arguments, over the extended reals.

  Arguments, read by coordinates: per row b (32768 rows) and part p (8 parts) an affordance index aff b p and a
  material index mat b p; per row a task, an object and a state index; five embedding tables with 64 columns
  (affE, matE, taskE with 16 rows, objE with 64, stateE with 32); the part layer W_part (256 x 128) with bias
  b_part; the object layer W_obj (256 x 448) with bias b_obj.

  An index word w selects row (w mod n) of a table of n rows: for a word in range this is the row it names, and it
  keeps both functions total.

  Gr is the encoder as it is defined: concatenate the two looked-up embeddings of a part (128 columns), apply the
  part layer, add the bias, clamp at zero; take the maximum over the eight parts; concatenate the three looked-up
  row embeddings with that maximum (448 columns), apply the object layer, add the bias, clamp at zero.

  Gk is the same encoder with each table pushed through the slice of the layer that multiplies it:
  A = affE . W_part[:, 0:64]^T, M = matE . W_part[:, 64:128]^T, and T, O, S from W_obj's first three 64-column
  slices. A part's pre-activation is then A[aff] + M[mat]; bias and clamp are applied once, after the maximum
  over parts; and the object layer is T[task] + O[obj] + S[state] plus the pooled features times W_obj[:, 192:448]^T.

  They agree on every input (bridge_statement): a sum over a concatenated axis splits into the sums over its pieces,
  and x |-> max (x + b) 0 is monotone, so it commutes with a maximum.
-/
import Mathlib.Data.EReal.Basic
import Mathlib.Algebra.BigOperators.Fin

noncomputable section

namespace Cert.Spec

open scoped BigOperators

/-- The row an index word selects in a table of 16 rows. -/
def row16 (w : BitVec 32) : Fin 16 := ⟨w.toNat % 16, Nat.mod_lt _ (by decide)⟩
/-- The row an index word selects in a table of 64 rows. -/
def row64 (w : BitVec 32) : Fin 64 := ⟨w.toNat % 64, Nat.mod_lt _ (by decide)⟩
/-- The row an index word selects in a table of 32 rows. -/
def row32 (w : BitVec 32) : Fin 32 := ⟨w.toNat % 32, Nat.mod_lt _ (by decide)⟩

/-- Every index names a row of the table it indexes. -/
structure InRange (aff mat : Fin 32768 → Fin 8 → BitVec 32) (task obj state : Fin 32768 → BitVec 32) : Prop where
  aff : ∀ b p, (aff b p).toNat < 16
  mat : ∀ b p, (mat b p).toNat < 16
  task : ∀ b, (task b).toNat < 16
  obj : ∀ b, (obj b).toNat < 64
  state : ∀ b, (state b).toNat < 32

section

variable (aff mat : Fin 32768 → Fin 8 → BitVec 32) (task obj state : Fin 32768 → BitVec 32)
  (affE matE taskE : Fin 16 → Fin 64 → EReal) (objE : Fin 64 → Fin 64 → EReal) (stateE : Fin 32 → Fin 64 → EReal)
  (Wp : Fin 256 → Fin 128 → EReal) (bp : Fin 256 → EReal) (Wo : Fin 256 → Fin 448 → EReal) (bo : Fin 256 → EReal)

/-! ## The encoder with the tables pushed through the layers -/

/-- A table of V rows times the 64 columns of a layer W (256 x K) that start at column off:
    entry (v, o) is the sum over k < 64 of E v k * W o (off + k). -/
def lin64 {V K : Nat} (E : Fin V → Fin 64 → EReal) (W : Fin 256 → Fin K → EReal) (off : Nat) (h : off + 64 ≤ K)
    (v : Fin V) (o : Fin 256) : EReal :=
  ∑ k : Fin 64, E v k * W o ⟨off + k.val, by omega⟩

/-- A part's pre-activation: the affordance row of A plus the material row of M. -/
def partK (b : Fin 32768) (p : Fin 8) (o : Fin 256) : EReal :=
  lin64 affE Wp 0 (by decide) (row16 (aff b p)) o + lin64 matE Wp 64 (by decide) (row16 (mat b p)) o

/-- The running maximum over the eight parts, started at bottom, part 0 first. -/
def poolRawK (b : Fin 32768) (o : Fin 256) : EReal :=
  max (max (max (max (max (max (max (max ⊥ (partK aff mat affE matE Wp b 0 o)) (partK aff mat affE matE Wp b 1 o))
    (partK aff mat affE matE Wp b 2 o)) (partK aff mat affE matE Wp b 3 o)) (partK aff mat affE matE Wp b 4 o))
    (partK aff mat affE matE Wp b 5 o)) (partK aff mat affE matE Wp b 6 o)) (partK aff mat affE matE Wp b 7 o)

/-- The pooled part features: bias added and clamped at zero once, after the maximum. -/
def pooledK (b : Fin 32768) (o : Fin 256) : EReal :=
  max (poolRawK aff mat affE matE Wp b o + bp o) 0

/-- The three row lookups through their slices of the object layer. -/
def lookupK (b : Fin 32768) (o : Fin 256) : EReal :=
  lin64 taskE Wo 0 (by decide) (row16 (task b)) o + lin64 objE Wo 64 (by decide) (row64 (obj b)) o
    + lin64 stateE Wo 128 (by decide) (row32 (state b)) o

/-- The pooled features through the last 256 columns of the object layer. -/
def poolLinK (b : Fin 32768) (o : Fin 256) : EReal :=
  ∑ k : Fin 256, pooledK aff mat affE matE Wp bp b k * Wo o ⟨192 + k.val, by omega⟩

/-- The encoder, tables pushed through the layers. -/
def Gk (b : Fin 32768) (o : Fin 256) : EReal :=
  max (lookupK task obj state taskE objE stateE Wo b o + poolLinK aff mat affE matE Wp bp Wo b o + bo o) 0

/-! ## The encoder as defined -/

/-- A part's input: its affordance embedding then its material embedding, 128 columns. -/
def partIn (b : Fin 32768) (p : Fin 8) (j : Fin 128) : EReal :=
  if h : j.val < 64 then affE (row16 (aff b p)) ⟨j.val, h⟩ else matE (row16 (mat b p)) ⟨j.val - 64, by omega⟩

/-- A part's encoding: the part layer, the bias, the clamp at zero. -/
def encR (b : Fin 32768) (p : Fin 8) (k : Fin 256) : EReal :=
  max ((∑ j : Fin 128, partIn aff mat affE matE b p j * Wp k j) + bp k) 0

/-- The maximum of the eight parts' encodings, as a fold of max from bottom. -/
def poolR (b : Fin 32768) (k : Fin 256) : EReal :=
  Finset.univ.fold max ⊥ (fun p : Fin 8 => encR aff mat affE matE Wp bp b p k)

/-- The object layer's input: task, object and state embeddings, then the pooled part encoding, 448 columns. -/
def objIn (b : Fin 32768) (j : Fin 448) : EReal :=
  if h1 : j.val < 64 then taskE (row16 (task b)) ⟨j.val, h1⟩
  else if h2 : j.val < 128 then objE (row64 (obj b)) ⟨j.val - 64, by omega⟩
  else if h3 : j.val < 192 then stateE (row32 (state b)) ⟨j.val - 128, by omega⟩
  else poolR aff mat affE matE Wp bp b ⟨j.val - 192, by omega⟩

/-- The encoder as defined. -/
def Gr (b : Fin 32768) (o : Fin 256) : EReal :=
  max ((∑ j : Fin 448, objIn aff mat task obj state affE matE taskE objE stateE Wp bp b j * Wo o j) + bo o) 0

/-- What the bridge proves: the two forms are one function. -/
def bridge_statement : Prop :=
  ∀ (b : Fin 32768) (o : Fin 256),
    Gk aff mat task obj state affE matE taskE objE stateE Wp bp Wo bo b o
      = Gr aff mat task obj state affE matE taskE objE stateE Wp bp Wo bo b o

end

/-! ## One row of the encoder over stacked tables

The kernel is handed the tables already pushed through the layers and stacked: AM stacks A over M (32 rows), TOS stacks
T, O and S (112 rows), Wq is the object layer's last 256 columns. A row's value needs only that row's indices. -/

section

variable (affr matr : Fin 8 → BitVec 32) (t ob s : BitVec 32)
  (AM : Fin 32 → Fin 256 → EReal) (TOS : Fin 112 → Fin 256 → EReal) (Wq : Fin 256 → Fin 256 → EReal)
  (bp bo : Fin 256 → EReal)

/-- A part's pre-activation from the stacked table: row aff of the upper half plus row mat of the lower half. -/
def rowPart (p : Fin 8) (k : Fin 256) : EReal :=
  AM ⟨(affr p).toNat % 16, by omega⟩ k + AM ⟨16 + (matr p).toNat % 16, by omega⟩ k

/-- The running maximum over the eight parts, started at bottom, part 0 first. -/
def rowRaw (k : Fin 256) : EReal :=
  max (max (max (max (max (max (max (max ⊥ (rowPart affr matr AM 0 k)) (rowPart affr matr AM 1 k))
    (rowPart affr matr AM 2 k)) (rowPart affr matr AM 3 k)) (rowPart affr matr AM 4 k))
    (rowPart affr matr AM 5 k)) (rowPart affr matr AM 6 k)) (rowPart affr matr AM 7 k)

/-- The pooled part features of the row. -/
def rowPooled (k : Fin 256) : EReal :=
  max (rowRaw affr matr AM k + bp k) 0

/-- The last stage from ANY pooled features: the three stacked lookups, the pooled features through Wq, the bias, the
    clamp at zero. -/
def rowOut (pooled : Fin 256 → EReal) (o : Fin 256) : EReal :=
  max (TOS ⟨t.toNat % 16, by omega⟩ o + TOS ⟨16 + ob.toNat % 64, by omega⟩ o + TOS ⟨80 + s.toNat % 32, by omega⟩ o
    + (∑ k : Fin 256, pooled k * Wq o k) + bo o) 0

/-- The row's value: the last stage at the row's pooled part features. -/
def rowK (o : Fin 256) : EReal :=
  rowOut t ob s TOS Wq bo (rowPooled affr matr AM bp) o

end

section

variable (affE matE taskE : Fin 16 → Fin 64 → EReal) (objE : Fin 64 → Fin 64 → EReal) (stateE : Fin 32 → Fin 64 → EReal)
  (Wp : Fin 256 → Fin 128 → EReal) (Wo : Fin 256 → Fin 448 → EReal)

/-- A over M: 32 rows. -/
def AMtab (j : Fin 32) (o : Fin 256) : EReal :=
  if h : j.val < 16 then lin64 affE Wp 0 (by decide) ⟨j.val, h⟩ o
  else lin64 matE Wp 64 (by decide) ⟨j.val - 16, by omega⟩ o

/-- T over O over S: 112 rows. -/
def TOStab (j : Fin 112) (o : Fin 256) : EReal :=
  if h1 : j.val < 16 then lin64 taskE Wo 0 (by decide) ⟨j.val, h1⟩ o
  else if h2 : j.val < 80 then lin64 objE Wo 64 (by decide) ⟨j.val - 16, by omega⟩ o
  else lin64 stateE Wo 128 (by decide) ⟨j.val - 80, by omega⟩ o

/-- The object layer's last 256 columns. -/
def Wq (o k : Fin 256) : EReal := Wo o ⟨192 + k.val, by omega⟩

end

/-- What Gk is, row by row, over the stacked tables. -/
def Gk_rows_statement (aff mat : Fin 32768 → Fin 8 → BitVec 32) (task obj state : Fin 32768 → BitVec 32)
    (affE matE taskE : Fin 16 → Fin 64 → EReal) (objE : Fin 64 → Fin 64 → EReal) (stateE : Fin 32 → Fin 64 → EReal)
    (Wp : Fin 256 → Fin 128 → EReal) (bp : Fin 256 → EReal) (Wo : Fin 256 → Fin 448 → EReal) (bo : Fin 256 → EReal) : Prop :=
  ∀ (b : Fin 32768) (o : Fin 256),
    Gk aff mat task obj state affE matE taskE objE stateE Wp bp Wo bo b o
      = rowK (aff b) (mat b) (task b) (obj b) (state b) (AMtab affE matE Wp) (TOStab taskE objE stateE Wo) (Wq Wo) bp bo o

end Cert.Spec

end
-- ==== Proof.KPool.lean ====
/-
  The pooled part features of the kernel, read at one entry, are the row's pooled features over the stacked table.

  Per row r and part p the kernel builds a row of 32 entries: entry j is 1 when j is the affordance word of (r, p) or
  16 more than its material word, else 0. For words below 16 these are two distinct columns, one in each half, so the
  product of that row with the stacked 32 x 256 table is the sum of two table rows: row aff of the upper half and
  row mat of the lower half. The running maximum of the eight products from negative infinity, the bias row and the
  clamp at zero then read entry by entry as the maxima, the sum and the maximum of extended reals.
-/
import proofs.«423634_j39307540693438_3_alg».proof.Proof.KBodyDef
import proofs.«423634_j39307540693438_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Data.EReal.Basic

noncomputable section

namespace Cert.KernelIdeal.Hand

open scoped BigOperators
open Idealize.ShloMosaic Idealize.ShloMosaic.TcCoe Idealize.ShloMosaic.ValueIdx Cert.KernelIdeal Cert.KernelIdeal.Gen

/-- The word of a one-bit disjunction, widened to 32 bits and read signed, is 1 or 0. -/
theorem toInt_or_ofBool (b1 b2 : Bool) :
    ((BitVec.ofBool b1 ||| BitVec.ofBool b2).setWidth 32).toInt = if (b1 || b2) then 1 else 0 := by
  cases b1 <;> cases b2 <;> rfl

/-- A column number below 32 equals a word exactly when it is the word's value. -/
theorem ofNat_beq_iff (j : Fin 32) (a : BitVec 32) : (BitVec.ofNat 32 j.val == a) = decide (j.val = a.toNat) := by
  have hj : (BitVec.ofNat 32 j.val).toNat = j.val := by
    rw [BitVec.toNat_ofNat]; exact Nat.mod_eq_of_lt (by have := j.isLt; omega)
  by_cases h : j.val = a.toNat
  · rw [decide_eq_true h, beq_iff_eq]
    exact BitVec.eq_of_toNat_eq (hj.trans h)
  · rw [decide_eq_false h]
    rw [beq_eq_false_iff_ne]
    intro e
    exact h (hj.symm.trans (congrArg BitVec.toNat e))

/-- A word below 16 plus the word 16 has value 16 more. -/
theorem toNat_add16 (m : BitVec 32) (hm : m.toNat < 16) : (IntOp.addi m 16#32).toNat = 16 + m.toNat := by
  show (m + 16#32).toNat = _
  rw [BitVec.toNat_add]
  show (m.toNat + 16) % 2 ^ 32 = _
  omega

/-- The one-hot entry of column j for an affordance word a and a material word m, both below 16. -/
theorem hot_entry (a m : BitVec 32) (hm : m.toNat < 16) (j : Fin 32) :
    (FloatOps.sitofp (F := Ideal) .f32
        ((IntOp.ori (IntOp.cmpi .eq (BitVec.ofNat 32 j.val) a)
          (IntOp.cmpi .eq (BitVec.ofNat 32 j.val) (IntOp.addi m 16#32))).setWidth 32) : EReal)
      = if j.val = a.toNat ∨ j.val = 16 + m.toNat then 1 else 0 := by
  show (((((BitVec.ofBool (BitVec.ofNat 32 j.val == a) ||| BitVec.ofBool (BitVec.ofNat 32 j.val == IntOp.addi m 16#32)).setWidth 32).toInt : ℝ)) : EReal) = _
  rw [toInt_or_ofBool, ofNat_beq_iff, ofNat_beq_iff, toNat_add16 m hm]
  by_cases h1 : j.val = a.toNat
  · simp [h1]
  · by_cases h2 : j.val = 16 + m.toNat
    · simp [h2]
    · simp [h1, h2]

/-- A sum against a row that is 1 at two distinct columns and 0 elsewhere is the sum of the two entries. -/
theorem sum_hot (A M : Nat) (hA : A < 16) (hM : M < 16) (f : Fin 32 → EReal) :
    ∑ j : Fin 32, (if j.val = A ∨ j.val = 16 + M then (1 : EReal) else 0) * f j
      = f ⟨A, by omega⟩ + f ⟨16 + M, by omega⟩ := by
  have h : ∀ j : Fin 32, (if j.val = A ∨ j.val = 16 + M then (1 : EReal) else 0) * f j
      = (if j = (⟨A, by omega⟩ : Fin 32) then f j else 0) + (if j = (⟨16 + M, by omega⟩ : Fin 32) then f j else 0) := by
    intro j
    by_cases h1 : j.val = A
    · have e1 : j = (⟨A, by omega⟩ : Fin 32) := Fin.ext h1
      have e2 : ¬ j = (⟨16 + M, by omega⟩ : Fin 32) := fun e => by have := congrArg Fin.val e; simp at this; omega
      rw [if_pos (Or.inl h1), if_pos e1, if_neg e2, one_mul, add_zero]
    · by_cases h2 : j.val = 16 + M
      · have e1 : ¬ j = (⟨A, by omega⟩ : Fin 32) := fun e => h1 (congrArg Fin.val e)
        have e2 : j = (⟨16 + M, by omega⟩ : Fin 32) := Fin.ext h2
        rw [if_pos (Or.inr h2), if_neg e1, if_pos e2, one_mul, zero_add]
      · have e1 : ¬ j = (⟨A, by omega⟩ : Fin 32) := fun e => h1 (congrArg Fin.val e)
        have e2 : ¬ j = (⟨16 + M, by omega⟩ : Fin 32) := fun e => h2 (congrArg Fin.val e)
        rw [if_neg (not_or.mpr ⟨h1, h2⟩), if_neg e1, if_neg e2, zero_mul, add_zero]
  rw [Finset.sum_congr rfl (fun j _ => h j), Finset.sum_add_distrib]
  simp

/-- The left operand's row coordinate is the result's row. -/
theorem lhs_part_0 (i : S2048x256.Idx) (q : dot_S2048x32_S32x256_S2048x256_1_0_0_1_n_n.contr.Idx) :
    (dot_S2048x32_S32x256_S2048x256_1_0_0_1_n_n.lhsIdx i q 0).val = (i 0).val := by
  unfold DotDims.lhsIdx
  rw [dif_neg (show ¬(0 : Fin S2048x32.rank) ∈ dot_S2048x32_S32x256_S2048x256_1_0_0_1_n_n.lhsBatch by decide), dif_pos (show (0 : Fin S2048x32.rank) ∈ dot_S2048x32_S32x256_S2048x256_1_0_0_1_n_n.lhsNonContracting by decide)]
  rfl
/-- The left operand's column coordinate is the contraction position. -/
theorem lhs_part_1 (i : S2048x256.Idx) (q : dot_S2048x32_S32x256_S2048x256_1_0_0_1_n_n.contr.Idx) :
    (dot_S2048x32_S32x256_S2048x256_1_0_0_1_n_n.lhsIdx i q 1).val = (q ⟨0, by decide⟩).val :=
  dot_S2048x32_S32x256_S2048x256_1_0_0_1_n_n.lhsIdx_val_of_single rfl i q
/-- The right operand's row coordinate is the contraction position. -/
theorem rhs_part_0 (i : S2048x256.Idx) (q : dot_S2048x32_S32x256_S2048x256_1_0_0_1_n_n.contr.Idx) :
    (dot_S2048x32_S32x256_S2048x256_1_0_0_1_n_n.rhsIdx i q 0).val = (q ⟨0, by decide⟩).val :=
  dot_S2048x32_S32x256_S2048x256_1_0_0_1_n_n.rhsIdx_val_of_single rfl i q
/-- The right operand's column coordinate is the result's column. -/
theorem rhs_part_1 (i : S2048x256.Idx) (q : dot_S2048x32_S32x256_S2048x256_1_0_0_1_n_n.contr.Idx) :
    (dot_S2048x32_S32x256_S2048x256_1_0_0_1_n_n.rhsIdx i q 1).val = (i 1).val := by
  unfold DotDims.rhsIdx
  rw [dif_neg (show ¬(1 : Fin S32x256.rank) ∈ dot_S2048x32_S32x256_S2048x256_1_0_0_1_n_n.rhsBatch by decide), dif_pos (show (1 : Fin S32x256.rank) ∈ dot_S2048x32_S32x256_S2048x256_1_0_0_1_n_n.rhsNonContracting by decide)]
  rfl

/-- The product of a 2048 x 32 block and the 32 x 256 table into a zero accumulator, read at (r, k):
    the sum over the 32 columns. -/
theorem matmul_part_apply (L : FVec Ideal S2048x32 .bf16) (R : FVec Ideal S32x256 .bf16) (r : Fin 2048) (k : Fin 256) :
    matmul dot_S2048x32_S32x256_S2048x256_1_0_0_1_n_n none L R (constant S2048x256 .f32 0x00000000#32) (ix2 r k)
      = ∑ j : Fin 32, L (ix2 r j) * R (ix2 j k) := by
  simp only [matmul]
  rw [Ideal.matmul_constant_zero_apply, ← Equiv.sum_comp (ValueIdx.contrEquiv1 dot_S2048x32_S32x256_S2048x256_1_0_0_1_n_n 32 rfl rfl).symm]
  refine Finset.sum_congr rfl fun j _ => ?_
  have hj := ValueIdx.contrEquiv1_symm_val dot_S2048x32_S32x256_S2048x256_1_0_0_1_n_n 32 rfl rfl j
  have el : dot_S2048x32_S32x256_S2048x256_1_0_0_1_n_n.lhsIdx (ix2 r k) ((ValueIdx.contrEquiv1 dot_S2048x32_S32x256_S2048x256_1_0_0_1_n_n 32 rfl rfl).symm j) = ix2 r j := funext fun a => Fin.ext (by
    match a with
    | ⟨0, _⟩ => exact lhs_part_0 _ _
    | ⟨1, _⟩ => exact (lhs_part_1 _ _).trans hj)
  have er : dot_S2048x32_S32x256_S2048x256_1_0_0_1_n_n.rhsIdx (ix2 r k) ((ValueIdx.contrEquiv1 dot_S2048x32_S32x256_S2048x256_1_0_0_1_n_n 32 rfl rfl).symm j) = ix2 j k := funext fun a => Fin.ext (by
    match a with
    | ⟨0, _⟩ => exact (rhs_part_0 _ _).trans hj
    | ⟨1, _⟩ => exact rhs_part_1 _ _)
  rw [el, er]

/-- A 2048 x 1 column broadcast over 32 columns reads, at (r, j), the column at r. -/
theorem bcastCol_apply {α : Type} (x : S2048x1.Idx → α) (r : Fin 2048) (j : Fin 32) :
    broadcastTo S2048x32 x broadcasts_S2048x1_S2048x32 (ix2 r j) = x (ix2 r (0 : Fin 1)) := by
  refine broadcastTo_apply x _ (ix2 r j) (ix2 r (0 : Fin 1)) fun ax => ?_
  match ax with
  | ⟨0, _⟩ => rfl
  | ⟨1, _⟩ => rfl

/-- The one-hot block of the part column o, as the kernel builds it from the two index blocks. -/
def hotBlock (v1 v3 : IVec S2048x8 32) (o : Nat) (h : S2048x8.Slices ![0, o] S2048x1) : IVec S2048x32 32 :=
  extui 32 (ori (cmpi .eq iotaAM (broadcastTo S2048x32 (extractStridedSlice S2048x1 ![0, o] v1 h) broadcasts_S2048x1_S2048x32))
    (cmpi .eq iotaAM (broadcastTo S2048x32 (addi (extractStridedSlice S2048x1 ![0, o] v3 h) (broadcast S2048x1 16#32))
      broadcasts_S2048x1_S2048x32))) natLt_1_32

/-- The one-hot block read at (r, j): the comparison of j with the two index words of row r, part p. -/
theorem hotBlock_apply (v1 v3 : IVec S2048x8 32) (o : Nat) (h : S2048x8.Slices ![0, o] S2048x1) (p : Fin 8) (hp : p.val = o)
    (r : Fin 2048) (j : Fin 32) :
    hotBlock v1 v3 o h (ix2 r j)
      = (IntOp.ori (IntOp.cmpi .eq (BitVec.ofNat 32 j.val) (v1 (ix2 r p)))
          (IntOp.cmpi .eq (BitVec.ofNat 32 j.val) (IntOp.addi (v3 (ix2 r p)) 16#32))).setWidth 32 := by
  have hi : iotaAM (ix2 r j) = BitVec.ofNat 32 j.val :=
    iota_single_apply .tc S2048x32 32 1 iota_S2048x32_d1_w32 (ix2 r j)
  have s1 : extractStridedSlice S2048x1 ![0, o] v1 h (ix2 r (0 : Fin 1)) = v1 (ix2 r p) :=
    slice2_axis1_apply o v1 h r (0 : Fin 1) p (by rw [hp]; rfl)
  have s3 : extractStridedSlice S2048x1 ![0, o] v3 h (ix2 r (0 : Fin 1)) = v3 (ix2 r p) :=
    slice2_axis1_apply o v3 h r (0 : Fin 1) p (by rw [hp]; rfl)
  show (IntOp.ori (IntOp.cmpi .eq (iotaAM (ix2 r j))
        (broadcastTo S2048x32 (extractStridedSlice S2048x1 ![0, o] v1 h) broadcasts_S2048x1_S2048x32 (ix2 r j)))
      (IntOp.cmpi .eq (iotaAM (ix2 r j))
        (broadcastTo S2048x32 (addi (extractStridedSlice S2048x1 ![0, o] v3 h) (broadcast S2048x1 16#32))
          broadcasts_S2048x1_S2048x32 (ix2 r j)))).setWidth 32 = _
  rw [hi, bcastCol_apply, bcastCol_apply, s1]
  show (IntOp.ori _ (IntOp.cmpi .eq _ (IntOp.addi (extractStridedSlice S2048x1 ![0, o] v3 h (ix2 r (0 : Fin 1))) 16#32))).setWidth 32 = _
  rw [s3]

variable {F : FTy → Type} [FloatOps F]

/-- One part's product: the one-hot block of part column o times the stacked table, into a zero accumulator. -/
def partProd (v1 v3 : IVec S2048x8 32) (v7 : FVec F S32x256 .bf16) (o : Nat) (h : S2048x8.Slices ![0, o] S2048x1) :
    FVec F S2048x256 .f32 :=
  matmul dot_S2048x32_S32x256_S2048x256_1_0_0_1_n_n none
    (truncf .bf16 (sitofp .f32 (hotBlock v1 v3 o h)) bitsLt_bf16_f32) v7 (constant S2048x256 .f32 0x00000000#32)

/-- One part's product read at (r, k), for index words below 16: the affordance row of the upper half of the
    table plus the material row of its lower half. -/
theorem partProd_apply (v1 v3 : IVec S2048x8 32) (v7 : FVec Ideal S32x256 .bf16) (o : Nat) (h : S2048x8.Slices ![0, o] S2048x1)
    (p : Fin 8) (hp : p.val = o) (r : Fin 2048) (k : Fin 256)
    (h1 : (v1 (ix2 r p)).toNat < 16) (h3 : (v3 (ix2 r p)).toNat < 16) :
    partProd (F := Ideal) v1 v3 v7 o h (ix2 r k)
      = Cert.Spec.rowPart (fun q => v1 (ix2 r q)) (fun q => v3 (ix2 r q)) (fun j c => v7 (ix2 j c)) p k := by
  unfold partProd
  rw [matmul_part_apply]
  have e : ∀ j : Fin 32,
      (truncf .bf16 (sitofp (F := Ideal) .f32 (hotBlock v1 v3 o h)) bitsLt_bf16_f32 : FVec Ideal S2048x32 .bf16) (ix2 r j)
        = if j.val = (v1 (ix2 r p)).toNat ∨ j.val = 16 + (v3 (ix2 r p)).toNat then (1 : EReal) else 0 := by
    intro j
    show (FloatOps.sitofp (F := Ideal) .f32 (hotBlock v1 v3 o h (ix2 r j)) : EReal) = _
    rw [hotBlock_apply v1 v3 o h p hp r j]
    exact hot_entry _ _ h3 j
  rw [Finset.sum_congr rfl (fun j _ => by rw [e j])]
  rw [sum_hot _ _ h1 h3 (fun j => v7 (ix2 j k))]
  unfold Cert.Spec.rowPart
  have a1 : (⟨(v1 (ix2 r p)).toNat, by omega⟩ : Fin 32) = ⟨(v1 (ix2 r p)).toNat % 16, by omega⟩ :=
    Fin.ext (Nat.mod_eq_of_lt h1).symm
  have a3 : (⟨16 + (v3 (ix2 r p)).toNat, by omega⟩ : Fin 32) = ⟨16 + (v3 (ix2 r p)).toNat % 16, by omega⟩ :=
    Fin.ext (by show 16 + _ = 16 + _ % 16; rw [Nat.mod_eq_of_lt h3])
  rw [a1, a3]

/-- The bit pattern of negative infinity is the bottom of the extended reals. -/
theorem ofBits_neg_inf_f32 : Ideal.ofBits .f32 0xFF800000#32 = ⊥ := by simp [Ideal.ofBits, Ideal.ieee]

/-- The bias row broadcast over the block reads, at (r, k), the bias at k. -/
theorem bias_apply {α : Type} (b : S256.Idx → α) (r : Fin 2048) (k : Fin 256) :
    broadcastTo S2048x256 (shapeCast S1x256 b shapeCasts_S256_S1x256) broadcasts_S1x256_S2048x256 (ix2 r k) = b (ix1 k) :=
  (broadcastTo_1b_ab_apply _ _ r k).trans (shapeCast_a_1a_apply b _ (0 : Fin 1) k)

/-- The pooled part features as the kernel composes them: the running maximum of the eight parts' products from
    negative infinity, then the bias and the clamp at zero. -/
theorem pooledVal_eq (v0 v2 : Vec F S2048x8 .i32) (v6 : Vec F S32x256 .bf16) (v12 : Vec F S256 .f32) :
    pooledVal v0 v2 v6 v12
      = maximumf (addf (maximumf (maximumf (maximumf (maximumf (maximumf (maximumf (maximumf (maximumf
          (broadcast S2048x256 (Scalar.ofBits .f32 0xFF800000#32))
          (partProd v0 v2 v6 0 slices_S2048x8_o0_0_S2048x1)) (partProd v0 v2 v6 1 slices_S2048x8_o0_1_S2048x1))
          (partProd v0 v2 v6 2 slices_S2048x8_o0_2_S2048x1)) (partProd v0 v2 v6 3 slices_S2048x8_o0_3_S2048x1))
          (partProd v0 v2 v6 4 slices_S2048x8_o0_4_S2048x1)) (partProd v0 v2 v6 5 slices_S2048x8_o0_5_S2048x1))
          (partProd v0 v2 v6 6 slices_S2048x8_o0_6_S2048x1)) (partProd v0 v2 v6 7 slices_S2048x8_o0_7_S2048x1))
          (broadcastTo S2048x256 (shapeCast S1x256 v12 shapeCasts_S256_S1x256) broadcasts_S1x256_S2048x256))
        (broadcast S2048x256 (Scalar.ofBits .f32 0x00000000#32)) := by
  unfold pooledVal k0_pay13 k0_pay10 k0_pay8 k0_pay9 k0_pay11 k0_pay12 k0_pay2 k0_pay3 k0_pay5
  simp only [shapeCast_self]
  rfl

/-- The pooled part features at (r, k), for index words below 16: the row's pooled features over the stacked table
    and the bias, at column k. -/
theorem pooledVal_apply (v0 v2 : Vec Ideal S2048x8 .i32) (v6 : Vec Ideal S32x256 .bf16) (v12 : Vec Ideal S256 .f32)
    (h0 : ∀ (r : Fin 2048) (p : Fin 8), (v0 (ix2 r p)).toNat < 16) (h2 : ∀ (r : Fin 2048) (p : Fin 8), (v2 (ix2 r p)).toNat < 16)
    (r : Fin 2048) (k : Fin 256) :
    pooledVal (F := Ideal) v0 v2 v6 v12 (ix2 r k)
      = Cert.Spec.rowPooled (fun p => v0 (ix2 r p)) (fun p => v2 (ix2 r p)) (fun j k => v6 (ix2 j k)) (fun k => v12 (ix1 k)) k := by
  rw [pooledVal_eq]
  show max (max (max (max (max (max (max (max (max (Ideal.ofBits .f32 0xFF800000#32)
      (partProd (F := Ideal) v0 v2 v6 0 slices_S2048x8_o0_0_S2048x1 (ix2 r k)))
      (partProd (F := Ideal) v0 v2 v6 1 slices_S2048x8_o0_1_S2048x1 (ix2 r k)))
      (partProd (F := Ideal) v0 v2 v6 2 slices_S2048x8_o0_2_S2048x1 (ix2 r k)))
      (partProd (F := Ideal) v0 v2 v6 3 slices_S2048x8_o0_3_S2048x1 (ix2 r k)))
      (partProd (F := Ideal) v0 v2 v6 4 slices_S2048x8_o0_4_S2048x1 (ix2 r k)))
      (partProd (F := Ideal) v0 v2 v6 5 slices_S2048x8_o0_5_S2048x1 (ix2 r k)))
      (partProd (F := Ideal) v0 v2 v6 6 slices_S2048x8_o0_6_S2048x1 (ix2 r k)))
      (partProd (F := Ideal) v0 v2 v6 7 slices_S2048x8_o0_7_S2048x1 (ix2 r k))
      + broadcastTo S2048x256 (shapeCast S1x256 v12 shapeCasts_S256_S1x256) broadcasts_S1x256_S2048x256 (ix2 r k))
      (Ideal.ofBits .f32 0x00000000#32) = _
  rw [partProd_apply v0 v2 v6 0 _ 0 rfl r k (h0 r 0) (h2 r 0), partProd_apply v0 v2 v6 1 _ 1 rfl r k (h0 r 1) (h2 r 1),
    partProd_apply v0 v2 v6 2 _ 2 rfl r k (h0 r 2) (h2 r 2), partProd_apply v0 v2 v6 3 _ 3 rfl r k (h0 r 3) (h2 r 3),
    partProd_apply v0 v2 v6 4 _ 4 rfl r k (h0 r 4) (h2 r 4), partProd_apply v0 v2 v6 5 _ 5 rfl r k (h0 r 5) (h2 r 5),
    partProd_apply v0 v2 v6 6 _ 6 rfl r k (h0 r 6) (h2 r 6), partProd_apply v0 v2 v6 7 _ 7 rfl r k (h0 r 7) (h2 r 7),
    bias_apply, ofBits_neg_inf_f32, Ideal.ofBits_zero_f32]
  rfl

end Cert.KernelIdeal.Hand

end
-- ==== Proof.KOut.lean ====
/-
  The last stage of the kernel read at one entry of the stored block.

  Per row r of the 2048-row block the kernel builds a row of 112 columns whose column j is 1 exactly when j is the
  row's task index, or its object index plus 16, or its state index plus 16 plus 64, and 0 elsewhere; it multiplies
  that row into the stacked 112 x 256 table, adds the pooled features times the 256 x 256 layer (both summed along
  their second axis), adds the bias row and clamps at zero.

  With the task index below 16, the object index below 64 and the state index below 32 the three hot columns are
  t < 16 <= 16 + ob < 80 <= 80 + s < 112: distinct, and the word additions do not wrap. Over the extended reals
  0 * x = 0 and 1 * x = x for every x, so the product of the one-hot row with the table is the sum of the three
  selected table rows. Hence the entry (r, o) is Cert.Spec.rowOut at the row's three indices, the table, the layer,
  the bias and the row's pooled features (outVal_apply).
-/
import proofs.«423634_j39307540693438_3_alg».proof.Proof.KBodyDef
import proofs.«423634_j39307540693438_3_alg».proof.Proof.Spec
import Idealize.ShloMosaic.Lib.Pipeline.Value
import Idealize.ShloMosaic.Lib.ValueIdx
import Idealize.ShloMosaic.PureOps.Ideal.Laws
import Mathlib.Data.EReal.Basic
import Mathlib.Algebra.BigOperators.Fin

noncomputable section

namespace Cert.KernelIdeal.Hand

open Idealize.ShloMosaic Idealize.ShloMosaic.TcCoe Idealize.ShloMosaic.ValueIdx Cert.KernelIdeal Cert.KernelIdeal.Gen
open scoped BigOperators

/-! The steps below are stated in their own namespace; the entry read itself, outVal_apply, is in Cert.KernelIdeal.Hand. -/
namespace KOut

/-! ## The two contractions read at an entry -/

theorem lhsT_0 (i : S2048x256.Idx) (q : dot_S2048x112_S112x256_S2048x256_1_0_0_1_n_n.contr.Idx) :
    (dot_S2048x112_S112x256_S2048x256_1_0_0_1_n_n.lhsIdx i q 0).val = (i 0).val := by
  unfold DotDims.lhsIdx
  rw [dif_neg (show ¬(0 : Fin S2048x112.rank) ∈ dot_S2048x112_S112x256_S2048x256_1_0_0_1_n_n.lhsBatch by decide), dif_pos (show (0 : Fin S2048x112.rank) ∈ dot_S2048x112_S112x256_S2048x256_1_0_0_1_n_n.lhsNonContracting by decide)]
  rfl
theorem lhsT_1 (i : S2048x256.Idx) (q : dot_S2048x112_S112x256_S2048x256_1_0_0_1_n_n.contr.Idx) :
    (dot_S2048x112_S112x256_S2048x256_1_0_0_1_n_n.lhsIdx i q 1).val = (q ⟨0, by decide⟩).val :=
  dot_S2048x112_S112x256_S2048x256_1_0_0_1_n_n.lhsIdx_val_of_single rfl i q
theorem rhsT_0 (i : S2048x256.Idx) (q : dot_S2048x112_S112x256_S2048x256_1_0_0_1_n_n.contr.Idx) :
    (dot_S2048x112_S112x256_S2048x256_1_0_0_1_n_n.rhsIdx i q 0).val = (q ⟨0, by decide⟩).val :=
  dot_S2048x112_S112x256_S2048x256_1_0_0_1_n_n.rhsIdx_val_of_single rfl i q
theorem rhsT_1 (i : S2048x256.Idx) (q : dot_S2048x112_S112x256_S2048x256_1_0_0_1_n_n.contr.Idx) :
    (dot_S2048x112_S112x256_S2048x256_1_0_0_1_n_n.rhsIdx i q 1).val = (i 1).val := by
  unfold DotDims.rhsIdx
  rw [dif_neg (show ¬(1 : Fin S112x256.rank) ∈ dot_S2048x112_S112x256_S2048x256_1_0_0_1_n_n.rhsBatch by decide), dif_pos (show (1 : Fin S112x256.rank) ∈ dot_S2048x112_S112x256_S2048x256_1_0_0_1_n_n.rhsNonContracting by decide)]
  rfl

/-- The product with the stacked table at (r, o): the sum over the 112 columns of the row. -/
theorem matmulT_apply (x : FVec Ideal S2048x112 .bf16) (y : FVec Ideal S112x256 .bf16) (r : Fin 2048) (o : Fin 256) :
    matmul dot_S2048x112_S112x256_S2048x256_1_0_0_1_n_n none x y (constant S2048x256 .f32 0x00000000#32) (ix2 r o)
      = ∑ k : Fin 112, x (ix2 r k) * y (ix2 k o) := by
  simp only [matmul]
  rw [Ideal.matmul_constant_zero_apply, ← Equiv.sum_comp (ValueIdx.contrEquiv1 dot_S2048x112_S112x256_S2048x256_1_0_0_1_n_n 112 rfl rfl).symm]
  refine Finset.sum_congr rfl fun k _ => ?_
  have hk := ValueIdx.contrEquiv1_symm_val dot_S2048x112_S112x256_S2048x256_1_0_0_1_n_n 112 rfl rfl k
  have el : dot_S2048x112_S112x256_S2048x256_1_0_0_1_n_n.lhsIdx (ix2 r o) ((ValueIdx.contrEquiv1 dot_S2048x112_S112x256_S2048x256_1_0_0_1_n_n 112 rfl rfl).symm k) = ix2 r k := funext fun a => Fin.ext (by
    match a with
    | ⟨0, _⟩ => exact lhsT_0 _ _
    | ⟨1, _⟩ => exact (lhsT_1 _ _).trans hk)
  have er : dot_S2048x112_S112x256_S2048x256_1_0_0_1_n_n.rhsIdx (ix2 r o) ((ValueIdx.contrEquiv1 dot_S2048x112_S112x256_S2048x256_1_0_0_1_n_n 112 rfl rfl).symm k) = ix2 k o := funext fun a => Fin.ext (by
    match a with
    | ⟨0, _⟩ => exact (rhsT_0 _ _).trans hk
    | ⟨1, _⟩ => exact rhsT_1 _ _)
  rw [el, er]

theorem lhsW_0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem lhsW_1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
theorem rhsW_0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rhsW_1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q

/-- The product with the pooled layer at (r, o): both operands are summed along their second axis. -/
theorem matmulW_apply (x : FVec Ideal S2048x256 .bf16) (y : FVec Ideal S256x256 .bf16) (r : Fin 2048) (o : Fin 256) :
    matmul dot_S2048x256_S256x256_S2048x256_1_1_0_0_n_n none x y (constant S2048x256 .f32 0x00000000#32) (ix2 r o)
      = ∑ k : Fin 256, x (ix2 r k) * y (ix2 o k) := by
  simp only [matmul]
  rw [Ideal.matmul_constant_zero_apply, ← Equiv.sum_comp (ValueIdx.contrEquiv1 dot_S2048x256_S256x256_S2048x256_1_1_0_0_n_n 256 rfl rfl).symm]
  refine Finset.sum_congr rfl fun k _ => ?_
  have hk := ValueIdx.contrEquiv1_symm_val dot_S2048x256_S256x256_S2048x256_1_1_0_0_n_n 256 rfl rfl k
  have el : dot_S2048x256_S256x256_S2048x256_1_1_0_0_n_n.lhsIdx (ix2 r o) ((ValueIdx.contrEquiv1 dot_S2048x256_S256x256_S2048x256_1_1_0_0_n_n 256 rfl rfl).symm k) = ix2 r k := funext fun a => Fin.ext (by
    match a with
    | ⟨0, _⟩ => exact lhsW_0 _ _
    | ⟨1, _⟩ => exact (lhsW_1 _ _).trans hk)
  have er : dot_S2048x256_S256x256_S2048x256_1_1_0_0_n_n.rhsIdx (ix2 r o) ((ValueIdx.contrEquiv1 dot_S2048x256_S256x256_S2048x256_1_1_0_0_n_n 256 rfl rfl).symm k) = ix2 o k := funext fun a => Fin.ext (by
    match a with
    | ⟨0, _⟩ => exact rhsW_0 _ _
    | ⟨1, _⟩ => exact (rhsW_1 _ _).trans hk)
  rw [el, er]

/-! ## The one-hot row -/

/-- Three one-bit conditions joined by or, widened to a word and read as a signed integer: 1 if one holds, else 0. -/
theorem hotBits_toInt (b1 b2 b3 : Bool) :
    (((BitVec.ofBool b1 ||| BitVec.ofBool b2) ||| BitVec.ofBool b3).setWidth 32).toInt = if (b1 || (b2 || b3)) = true then 1 else 0 := by
  cases b1 <;> cases b2 <;> cases b3 <;> decide

/-- A column number below 112 is the task word exactly when it is its value. -/
theorem col_eq_iff (j : Fin 112) (w : BitVec 32) : (BitVec.ofNat 32 j.val == w) = decide (j.val = w.toNat) := by
  have hj := j.isLt
  rw [Bool.eq_iff_iff, beq_iff_eq, decide_eq_true_iff, ← BitVec.toNat_inj, BitVec.toNat_ofNat]
  constructor <;> intro h <;> omega

/-- The object word moved up by 16 has value 16 + ob when ob is below 64. -/
theorem toNat_add16 (w : BitVec 32) (h : w.toNat < 64) : (IntOp.addi w 16#32).toNat = 16 + w.toNat := by
  unfold IntOp.addi
  rw [BitVec.toNat_add]
  simp only [BitVec.toNat_ofNat]
  omega

/-- The state word moved up by 16 and then by 64 has value 80 + s when s is below 32. -/
theorem toNat_add16_add64 (w : BitVec 32) (h : w.toNat < 32) : (IntOp.addi (IntOp.addi w 16#32) 64#32).toNat = 80 + w.toNat := by
  unfold IntOp.addi
  rw [BitVec.toNat_add, BitVec.toNat_add]
  simp only [BitVec.toNat_ofNat]
  omega

/-- The entry of the one-hot row at column j, at the extended reals. -/
theorem hot_entry (j : Fin 112) (t ob s : BitVec 32) (ho : ob.toNat < 64) (hs : s.toNat < 32) :
    (FloatOps.sitofp (F := Ideal) .f32
        ((IntOp.ori (IntOp.ori (IntOp.cmpi .eq (BitVec.ofNat 32 j.val) t) (IntOp.cmpi .eq (BitVec.ofNat 32 j.val) (IntOp.addi ob 16#32)))
          (IntOp.cmpi .eq (BitVec.ofNat 32 j.val) (IntOp.addi (IntOp.addi s 16#32) 64#32))).setWidth 32) : Ideal .f32)
      = if j.val = t.toNat ∨ j.val = 16 + ob.toNat ∨ j.val = 80 + s.toNat then (1 : EReal) else 0 := by
  show (((BitVec.toInt (((BitVec.ofBool (BitVec.ofNat 32 j.val == t) ||| BitVec.ofBool (BitVec.ofNat 32 j.val == IntOp.addi ob 16#32))
      ||| BitVec.ofBool (BitVec.ofNat 32 j.val == IntOp.addi (IntOp.addi s 16#32) 64#32)).setWidth 32) : ℤ) : ℝ) : EReal) = _
  rw [hotBits_toInt, col_eq_iff, col_eq_iff, col_eq_iff, toNat_add16 ob ho, toNat_add16_add64 s hs]
  by_cases h : j.val = t.toNat ∨ j.val = 16 + ob.toNat ∨ j.val = 80 + s.toNat
  · rw [if_pos h, if_pos (by simpa using h)]; simp
  · rw [if_neg h, if_neg (by simpa using h)]; simp

/-- A one-hot row with three distinct hot columns picks three entries: the sum of the products is their sum. -/
theorem sum_hot (a b c : Nat) (ha : a < 16) (hb : b < 64) (hc : c < 32) (f : Fin 112 → EReal) :
    ∑ j : Fin 112, (if j.val = a ∨ j.val = 16 + b ∨ j.val = 80 + c then (1 : EReal) else 0) * f j
      = f ⟨a % 16, by omega⟩ + f ⟨16 + b % 64, by omega⟩ + f ⟨80 + c % 32, by omega⟩ := by
  have e : ∀ j : Fin 112, (if j.val = a ∨ j.val = 16 + b ∨ j.val = 80 + c then (1 : EReal) else 0) * f j
      = if j.val = a ∨ j.val = 16 + b ∨ j.val = 80 + c then f j else 0 := fun j => by
    split_ifs <;> simp
  rw [Finset.sum_congr rfl fun j _ => e j, ← Finset.sum_filter]
  have hs : Finset.univ.filter (fun j : Fin 112 => j.val = a ∨ j.val = 16 + b ∨ j.val = 80 + c)
      = {(⟨a % 16, by omega⟩ : Fin 112), ⟨16 + b % 64, by omega⟩, ⟨80 + c % 32, by omega⟩} := by
    ext j
    simp only [Finset.mem_filter, Finset.mem_univ, true_and, Finset.mem_insert, Finset.mem_singleton, Fin.ext_iff]
    rw [Nat.mod_eq_of_lt ha, Nat.mod_eq_of_lt hb, Nat.mod_eq_of_lt hc]
  rw [hs, Finset.sum_insert, Finset.sum_pair, add_assoc]
  · intro h; have := congrArg Fin.val h; simp only at this; omega
  · simp only [Finset.mem_insert, Finset.mem_singleton, Fin.ext_iff]; omega

/-! ## The layout steps read at an entry -/

/-- A column broadcast along the 112 columns reads the column's entry of the row. -/
theorem bcastCol_apply {α : Type} (x : S2048x1.Idx → α) (r : Fin 2048) (k : Fin 112) :
    broadcastTo S2048x112 x broadcasts_S2048x1_S2048x112 (ix2 r k) = x (ix2 r (0 : Fin 1)) :=
  broadcastTo_apply x _ (ix2 r k) (ix2 r (0 : Fin 1)) fun a => match a with
    | ⟨0, _⟩ => rfl
    | ⟨1, _⟩ => rfl

/-- Column 0 of the index block. -/
theorem slice0_apply {α : Type} (x : S2048x3.Idx → α) (r : Fin 2048) :
    extractStridedSlice S2048x1 ![0, 0] x slices_S2048x3_o0_0_S2048x1 (ix2 r (0 : Fin 1)) = x (ix2 r (0 : Fin 3)) :=
  extractStridedSlice_apply _ x _ (ix2 r (0 : Fin 1)) (ix2 r (0 : Fin 3)) fun a => match a with
    | ⟨0, _⟩ => by show r.val = 0 + r.val; omega
    | ⟨1, _⟩ => rfl
/-- Column 1 of the index block. -/
theorem slice1_apply {α : Type} (x : S2048x3.Idx → α) (r : Fin 2048) :
    extractStridedSlice S2048x1 ![0, 1] x slices_S2048x3_o0_1_S2048x1 (ix2 r (0 : Fin 1)) = x (ix2 r (1 : Fin 3)) :=
  extractStridedSlice_apply _ x _ (ix2 r (0 : Fin 1)) (ix2 r (1 : Fin 3)) fun a => match a with
    | ⟨0, _⟩ => by show r.val = 0 + r.val; omega
    | ⟨1, _⟩ => rfl
/-- Column 2 of the index block. -/
theorem slice2_apply {α : Type} (x : S2048x3.Idx → α) (r : Fin 2048) :
    extractStridedSlice S2048x1 ![0, 2] x slices_S2048x3_o0_2_S2048x1 (ix2 r (0 : Fin 1)) = x (ix2 r (2 : Fin 3)) :=
  extractStridedSlice_apply _ x _ (ix2 r (0 : Fin 1)) (ix2 r (2 : Fin 3)) fun a => match a with
    | ⟨0, _⟩ => by show r.val = 0 + r.val; omega
    | ⟨1, _⟩ => rfl

/-- The bias as a row, broadcast down the 2048 rows, reads the bias at the column. -/
theorem biasRow_apply {α : Type} (b : S256.Idx → α) (r : Fin 2048) (o : Fin 256) :
    broadcastTo S2048x256 (shapeCast S1x256 b shapeCasts_S256_S1x256) broadcasts_S1x256_S2048x256 (ix2 r o) = b (ix1 o) := by
  refine (broadcastTo_apply _ _ (ix2 r o) (ix2 (0 : Fin 1) o) fun a => match a with
    | ⟨0, _⟩ => rfl
    | ⟨1, _⟩ => rfl).trans ?_
  refine shapeCast_apply b _ (ix2 (0 : Fin 1) o) (ix1 o) ?_
  rw [Shape.rowMajor_val_one, Shape.rowMajor_val_two]
  show o.val = 0 * 256 + o.val
  omega

/-- The entry of the one-hot rows the kernel builds, at row r and column k. -/
theorem hotRow_apply (v4 : Vec Ideal S2048x3 .i32) (ho : ∀ r : Fin 2048, (v4 (ix2 r (1 : Fin 3))).toNat < 64)
    (hs : ∀ r : Fin 2048, (v4 (ix2 r (2 : Fin 3))).toNat < 32) (r : Fin 2048) (k : Fin 112) :
    (truncf (F := Ideal) FTy.bf16
              (sitofp FTy.f32
                (extui 32
                  (ori
                    (ori
                      (cmpi CmpIPredicate.eq iotaTOS
                        (broadcastTo S2048x112 (extractStridedSlice S2048x1 ![0, 0] v4 slices_S2048x3_o0_0_S2048x1)
                          broadcasts_S2048x1_S2048x112))
                      (cmpi CmpIPredicate.eq iotaTOS
                        (broadcastTo S2048x112
                          (addi (extractStridedSlice S2048x1 ![0, 1] v4 slices_S2048x3_o0_1_S2048x1)
                            (broadcast S2048x1 16#32))
                          broadcasts_S2048x1_S2048x112)))
                    (cmpi CmpIPredicate.eq iotaTOS
                      (broadcastTo S2048x112
                        (addi
                          (addi (extractStridedSlice S2048x1 ![0, 2] v4 slices_S2048x3_o0_2_S2048x1)
                            (broadcast S2048x1 16#32))
                          (broadcast S2048x1 64#32))
                        broadcasts_S2048x1_S2048x112)))
                  natLt_1_32))
              bitsLt_bf16_f32) (ix2 r k)
      = if k.val = (v4 (ix2 r (0 : Fin 3))).toNat ∨ k.val = 16 + (v4 (ix2 r (1 : Fin 3))).toNat
            ∨ k.val = 80 + (v4 (ix2 r (2 : Fin 3))).toNat then (1 : EReal) else 0 := by
  have hi : iotaTOS (ix2 r k) = BitVec.ofNat 32 k.val :=
    iota_single_apply .tc S2048x112 32 1 iota_S2048x112_d1_w32 (ix2 r k)
  simp only [truncf, sitofp, extui, ori, cmpi, bcastCol_apply, addi, slice0_apply, slice1_apply, slice2_apply, broadcast_apply, hi]
  exact hot_entry k _ _ _ (ho r) (hs r)

end KOut

open KOut

/-! ## The last stage at an entry -/

/-- The stored block at row r and column o is the row's last stage over the stacked table, the pooled layer and the
    bias, at the row's three indices and its pooled features. -/
theorem outVal_apply (v4 : Vec Ideal S2048x3 .i32) (v8 : Vec Ideal S112x256 .bf16) (v10 : Vec Ideal S256x256 .bf16) (v13 : Vec Ideal S256 .f32)
    (v133 : FVec Ideal S2048x256 .f32)
    (ht : ∀ r : Fin 2048, (v4 (ix2 r (0 : Fin 3))).toNat < 16) (ho : ∀ r : Fin 2048, (v4 (ix2 r (1 : Fin 3))).toNat < 64)
    (hs : ∀ r : Fin 2048, (v4 (ix2 r (2 : Fin 3))).toNat < 32) (r : Fin 2048) (o : Fin 256) :
    outVal (F := Ideal) v4 v8 v10 v13 v133 (ix2 r o)
      = Cert.Spec.rowOut (v4 (ix2 r (0 : Fin 3))) (v4 (ix2 r (1 : Fin 3))) (v4 (ix2 r (2 : Fin 3)))
          (fun j o => v8 (ix2 j o)) (fun o k => v10 (ix2 o k)) (fun o => v13 (ix1 o)) (fun k => v133 (ix2 r k)) o := by
  unfold outVal k0_pay1 k0_pay14 k0_pay15 k0_pay16 k0_pay4 k0_pay6 k0_pay7
  simp only [shapeCast_self]
  rw [maximumf_apply, addf_apply, addf_apply, matmulT_apply, matmulW_apply, broadcast_apply, biasRow_apply]
  simp only [hotRow_apply v4 ho hs r]
  rw [sum_hot _ _ _ (ht r) (ho r) (hs r) (fun k => v8 (ix2 k o))]
  unfold Cert.Spec.rowOut
  rw [Ideal.ofBits_def, Ideal.ofBits_zero_f32]
  rfl

end Cert.KernelIdeal.Hand

end
-- ==== Proof.Bridge.lean ====
/-
  The two forms of the object encoder are one function, and the pushed-through form read row by row from the stacked
  tables.

  bridge: a sum over a concatenated axis is the sum of the sums over its pieces, so the part layer on
  [affordance | material] is A[aff] + M[mat], and the object layer on [task | object | state | pooled] is
  T[task] + O[obj] + S[state] plus the pooled features times the layer's last 256 columns. The map
  x |-> max (x + c) 0 is monotone on the extended reals, so it commutes with a binary maximum; the running maximum
  over the eight parts starts at bottom, which the first part absorbs, on both sides. Nothing here uses
  distributivity or finiteness.

  Gk_rows: row w mod 16 of the upper half of the stacked part table is row (row16 w) of A, row 16 + w mod 16 is row
  (row16 w) of M, and likewise for the three blocks of the stacked row table; the object layer's last 256 columns are
  Wq by definition.
-/
import proofs.«423634_j39307540693438_3_alg».proof.Proof.Spec
import Mathlib.Data.EReal.Basic
import Mathlib.Algebra.BigOperators.Fin
import Mathlib.Data.Finset.Fold
import Mathlib.Data.Fintype.Basic
import Mathlib.Order.MinMax
import Mathlib.Order.BoundedOrder.Lattice

noncomputable section

open scoped BigOperators

namespace Cert.Bridge

open Cert.Spec

/-- A sum over an axis of length a + b is the sum over its first a places plus the sum over its last b places. -/
theorem sum_split {n : Nat} (a b : Nat) (h : a + b = n) (f : Fin n → EReal) :
    ∑ j : Fin n, f j
      = (∑ i : Fin a, f ⟨i.val, by omega⟩) + ∑ i : Fin b, f ⟨a + i.val, by omega⟩ := by
  subst h
  exact Fin.sum_univ_add f

/-- The clamp after a shift is monotone. -/
theorem clamp_mono (c : EReal) : Monotone (fun x : EReal => max (x + c) 0) := by
  intro x y h
  exact max_le_max (add_le_add h le_rfl) le_rfl

/-- A fold of max from bottom over eight places is the left-nested maximum started at bottom. -/
theorem fold8 (g : Fin 8 → EReal) :
    Finset.univ.fold max ⊥ g
      = max (max (max (max (max (max (max (max ⊥ (g 0)) (g 1)) (g 2)) (g 3)) (g 4)) (g 5)) (g 6)) (g 7) := by
  simp [Fin.univ_succ, Finset.fold_cons, Finset.fold_map, max_assoc]

/-- The clamp after a shift, applied to the left-nested maximum of eight values started at bottom, is the
    left-nested maximum started at bottom of the clamped shifted values: bottom is absorbed by the first value. -/
theorem clamp_nested (c x0 x1 x2 x3 x4 x5 x6 x7 : EReal) :
    max (max (max (max (max (max (max (max (max ⊥ x0) x1) x2) x3) x4) x5) x6) x7 + c) 0
      = max (max (max (max (max (max (max (max ⊥ (max (x0 + c) 0)) (max (x1 + c) 0)) (max (x2 + c) 0))
          (max (x3 + c) 0)) (max (x4 + c) 0)) (max (x5 + c) 0)) (max (x6 + c) 0)) (max (x7 + c) 0) := by
  have hm : ∀ a b : EReal, max (max a b + c) 0 = max (max (a + c) 0) (max (b + c) 0) :=
    fun a b => (clamp_mono c).map_max
  rw [hm, hm, hm, hm, hm, hm, hm, bot_sup_eq, bot_sup_eq]

section

variable (aff mat : Fin 32768 → Fin 8 → BitVec 32) (task obj state : Fin 32768 → BitVec 32)
  (affE matE taskE : Fin 16 → Fin 64 → EReal) (objE : Fin 64 → Fin 64 → EReal) (stateE : Fin 32 → Fin 64 → EReal)
  (Wp : Fin 256 → Fin 128 → EReal) (bp : Fin 256 → EReal) (Wo : Fin 256 → Fin 448 → EReal) (bo : Fin 256 → EReal)

/-- The part layer on the concatenated embeddings is the affordance half plus the material half. -/
theorem part_sum (b : Fin 32768) (p : Fin 8) (k : Fin 256) :
    (∑ j : Fin 128, partIn aff mat affE matE b p j * Wp k j) = partK aff mat affE matE Wp b p k := by
  rw [sum_split 64 64 rfl]
  unfold partK lin64
  refine congrArg₂ (· + ·) ?_ ?_
  · refine Finset.sum_congr rfl (fun i _ => ?_)
    have h : ((⟨i.val, by omega⟩ : Fin 128)).val < 64 := i.isLt
    rw [partIn, dif_pos h]
    congr 2
    exact Fin.ext (Nat.zero_add _).symm
  · refine Finset.sum_congr rfl (fun i _ => ?_)
    have h : ¬ ((⟨64 + i.val, by omega⟩ : Fin 128)).val < 64 := by simp
    rw [partIn, dif_neg h]
    congr 2
    exact Fin.ext (by simp)

/-- A part's encoding is the clamp after the bias of its pre-activation. -/
theorem encR_eq (b : Fin 32768) (p : Fin 8) (k : Fin 256) :
    encR aff mat affE matE Wp bp b p k = max (partK aff mat affE matE Wp b p k + bp k) 0 := by
  rw [encR, part_sum]

/-- The maximum of the eight encodings is the clamp after the bias of the maximum of the eight pre-activations. -/
theorem poolR_eq (b : Fin 32768) (k : Fin 256) :
    poolR aff mat affE matE Wp bp b k = pooledK aff mat affE matE Wp bp b k := by
  rw [poolR, fold8, pooledK, poolRawK, clamp_nested]
  simp only [encR_eq]

/-- Columns 0..63 of the object layer's input hold the task embedding. -/
theorem objIn_task (b : Fin 32768) (i : Fin 64) :
    objIn aff mat task obj state affE matE taskE objE stateE Wp bp b ⟨i.val, by omega⟩
      = taskE (row16 (task b)) i := by
  have h : ((⟨i.val, by omega⟩ : Fin 448)).val < 64 := i.isLt
  rw [objIn, dif_pos h]

/-- Columns 64..127 hold the object embedding. -/
theorem objIn_obj (b : Fin 32768) (i : Fin 64) :
    objIn aff mat task obj state affE matE taskE objE stateE Wp bp b ⟨64 + i.val, by omega⟩
      = objE (row64 (obj b)) i := by
  have h1 : ¬ ((⟨64 + i.val, by omega⟩ : Fin 448)).val < 64 := by simp
  have h2 : ((⟨64 + i.val, by omega⟩ : Fin 448)).val < 128 := by simp; omega
  rw [objIn, dif_neg h1, dif_pos h2]
  congr 1
  exact Fin.ext (by simp)

/-- Columns 128..191 hold the state embedding. -/
theorem objIn_state (b : Fin 32768) (i : Fin 64) :
    objIn aff mat task obj state affE matE taskE objE stateE Wp bp b ⟨128 + i.val, by omega⟩
      = stateE (row32 (state b)) i := by
  have h1 : ¬ ((⟨128 + i.val, by omega⟩ : Fin 448)).val < 64 := by simp; omega
  have h2 : ¬ ((⟨128 + i.val, by omega⟩ : Fin 448)).val < 128 := by simp
  have h3 : ((⟨128 + i.val, by omega⟩ : Fin 448)).val < 192 := by simp; omega
  rw [objIn, dif_neg h1, dif_neg h2, dif_pos h3]
  congr 1
  exact Fin.ext (by simp)

/-- Columns 192..447 hold the pooled part encoding. -/
theorem objIn_pool (b : Fin 32768) (i : Fin 256) :
    objIn aff mat task obj state affE matE taskE objE stateE Wp bp b ⟨192 + i.val, by omega⟩
      = pooledK aff mat affE matE Wp bp b i := by
  have h1 : ¬ ((⟨192 + i.val, by omega⟩ : Fin 448)).val < 64 := by simp; omega
  have h2 : ¬ ((⟨192 + i.val, by omega⟩ : Fin 448)).val < 128 := by simp; omega
  have h3 : ¬ ((⟨192 + i.val, by omega⟩ : Fin 448)).val < 192 := by simp
  rw [objIn, dif_neg h1, dif_neg h2, dif_neg h3, ← poolR_eq]
  congr 1
  exact Fin.ext (by simp)

/-- The object layer on the concatenated input is the three lookups plus the pooled features' share. -/
theorem obj_sum (b : Fin 32768) (o : Fin 256) :
    (∑ j : Fin 448, objIn aff mat task obj state affE matE taskE objE stateE Wp bp b j * Wo o j)
      = lookupK task obj state taskE objE stateE Wo b o + poolLinK aff mat affE matE Wp bp Wo b o := by
  rw [sum_split 192 256 rfl, sum_split 128 64 rfl, sum_split 64 64 rfl]
  unfold lookupK poolLinK lin64
  refine congrArg₂ (· + ·) (congrArg₂ (· + ·) (congrArg₂ (· + ·) ?_ ?_) ?_) ?_
  · refine Finset.sum_congr rfl (fun i _ => ?_)
    refine congrArg₂ (· * ·) (objIn_task aff mat task obj state affE matE taskE objE stateE Wp bp b i) ?_
    exact congrArg (Wo o) (Fin.ext (Nat.zero_add _).symm)
  · refine Finset.sum_congr rfl (fun i _ => ?_)
    exact congrArg₂ (· * ·) (objIn_obj aff mat task obj state affE matE taskE objE stateE Wp bp b i) rfl
  · refine Finset.sum_congr rfl (fun i _ => ?_)
    exact congrArg₂ (· * ·) (objIn_state aff mat task obj state affE matE taskE objE stateE Wp bp b i) rfl
  · refine Finset.sum_congr rfl (fun i _ => ?_)
    exact congrArg₂ (· * ·) (objIn_pool aff mat task obj state affE matE taskE objE stateE Wp bp b i) rfl

end

/-- The encoder with the tables pushed through the layers is the encoder as defined. -/
theorem bridge (aff mat : Fin 32768 → Fin 8 → BitVec 32) (task obj state : Fin 32768 → BitVec 32)
    (affE matE taskE : Fin 16 → Fin 64 → EReal) (objE : Fin 64 → Fin 64 → EReal) (stateE : Fin 32 → Fin 64 → EReal)
    (Wp : Fin 256 → Fin 128 → EReal) (bp : Fin 256 → EReal) (Wo : Fin 256 → Fin 448 → EReal) (bo : Fin 256 → EReal) :
    Cert.Spec.bridge_statement aff mat task obj state affE matE taskE objE stateE Wp bp Wo bo := by
  intro b o
  rw [Gk, Gr, obj_sum]

section

variable (affE matE taskE : Fin 16 → Fin 64 → EReal) (objE : Fin 64 → Fin 64 → EReal) (stateE : Fin 32 → Fin 64 → EReal)
  (Wp : Fin 256 → Fin 128 → EReal) (Wo : Fin 256 → Fin 448 → EReal)

/-- The upper half of the stacked part table is A. -/
theorem AMtab_aff (w : BitVec 32) (h : w.toNat % 16 < 32) (o : Fin 256) :
    AMtab affE matE Wp ⟨w.toNat % 16, h⟩ o = lin64 affE Wp 0 (by decide) (row16 w) o := by
  have h1 : ((⟨w.toNat % 16, h⟩ : Fin 32)).val < 16 := Nat.mod_lt _ (by decide)
  rw [AMtab, dif_pos h1]
  rfl

/-- The lower half of the stacked part table is M. -/
theorem AMtab_mat (w : BitVec 32) (h : 16 + w.toNat % 16 < 32) (o : Fin 256) :
    AMtab affE matE Wp ⟨16 + w.toNat % 16, h⟩ o = lin64 matE Wp 64 (by decide) (row16 w) o := by
  have h1 : ¬ ((⟨16 + w.toNat % 16, h⟩ : Fin 32)).val < 16 := by simp
  rw [AMtab, dif_neg h1]
  congr 1
  exact Fin.ext (by simp [row16])

/-- The first block of the stacked row table is T. -/
theorem TOStab_task (w : BitVec 32) (h : w.toNat % 16 < 112) (o : Fin 256) :
    TOStab taskE objE stateE Wo ⟨w.toNat % 16, h⟩ o = lin64 taskE Wo 0 (by decide) (row16 w) o := by
  have h1 : ((⟨w.toNat % 16, h⟩ : Fin 112)).val < 16 := Nat.mod_lt _ (by decide)
  rw [TOStab, dif_pos h1]
  rfl

/-- The second block of the stacked row table is O. -/
theorem TOStab_obj (w : BitVec 32) (h : 16 + w.toNat % 64 < 112) (o : Fin 256) :
    TOStab taskE objE stateE Wo ⟨16 + w.toNat % 64, h⟩ o = lin64 objE Wo 64 (by decide) (row64 w) o := by
  have h1 : ¬ ((⟨16 + w.toNat % 64, h⟩ : Fin 112)).val < 16 := by simp
  have h2 : ((⟨16 + w.toNat % 64, h⟩ : Fin 112)).val < 80 := by
    have := Nat.mod_lt w.toNat (show 64 > 0 by decide)
    show 16 + w.toNat % 64 < 80
    omega
  rw [TOStab, dif_neg h1, dif_pos h2]
  congr 1
  exact Fin.ext (by simp [row64])

/-- The third block of the stacked row table is S. -/
theorem TOStab_state (w : BitVec 32) (h : 80 + w.toNat % 32 < 112) (o : Fin 256) :
    TOStab taskE objE stateE Wo ⟨80 + w.toNat % 32, h⟩ o = lin64 stateE Wo 128 (by decide) (row32 w) o := by
  have h1 : ¬ ((⟨80 + w.toNat % 32, h⟩ : Fin 112)).val < 16 := by
    show ¬ (80 + w.toNat % 32 < 16)
    omega
  have h2 : ¬ ((⟨80 + w.toNat % 32, h⟩ : Fin 112)).val < 80 := by simp
  rw [TOStab, dif_neg h1, dif_neg h2]
  congr 1
  exact Fin.ext (by simp [row32])

end

section

variable (aff mat : Fin 32768 → Fin 8 → BitVec 32) (task obj state : Fin 32768 → BitVec 32)
  (affE matE taskE : Fin 16 → Fin 64 → EReal) (objE : Fin 64 → Fin 64 → EReal) (stateE : Fin 32 → Fin 64 → EReal)
  (Wp : Fin 256 → Fin 128 → EReal) (bp : Fin 256 → EReal) (Wo : Fin 256 → Fin 448 → EReal) (bo : Fin 256 → EReal)

/-- A part's pre-activation read from the stacked table. -/
theorem rowPart_eq (b : Fin 32768) (p : Fin 8) (k : Fin 256) :
    rowPart (aff b) (mat b) (AMtab affE matE Wp) p k = partK aff mat affE matE Wp b p k := by
  rw [rowPart, partK, AMtab_aff, AMtab_mat]

/-- The pooled part features read from the stacked table. -/
theorem rowPooled_eq (b : Fin 32768) (k : Fin 256) :
    rowPooled (aff b) (mat b) (AMtab affE matE Wp) bp k = pooledK aff mat affE matE Wp bp b k := by
  rw [rowPooled, rowRaw, pooledK, poolRawK]
  simp only [rowPart_eq]

end

/-- The encoder with the tables pushed through the layers, read row by row from the stacked tables. -/
theorem Gk_rows (aff mat : Fin 32768 → Fin 8 → BitVec 32) (task obj state : Fin 32768 → BitVec 32)
    (affE matE taskE : Fin 16 → Fin 64 → EReal) (objE : Fin 64 → Fin 64 → EReal) (stateE : Fin 32 → Fin 64 → EReal)
    (Wp : Fin 256 → Fin 128 → EReal) (bp : Fin 256 → EReal) (Wo : Fin 256 → Fin 448 → EReal) (bo : Fin 256 → EReal) :
    Cert.Spec.Gk_rows_statement aff mat task obj state affE matE taskE objE stateE Wp bp Wo bo := by
  intro b o
  rw [Gk, rowK, rowOut, lookupK, poolLinK, TOStab_task, TOStab_obj, TOStab_state]
  simp only [rowPooled_eq, Wq]

end Cert.Bridge

end
-- ==== Proof.LibNary3.lean ====
/-
  A StableHLO operation over a literal family of THREE references (a concatenation of three operands): its result
  with each operand's contents at its own reference, so that the operands' contents can be rewritten further. Under
  the family's binder, fun k => F (![x, a, b] k), the reference is no literal and no result lemma applies to it; with
  the three contents listed one by one each is a result at a literal reference again. The three-reference case of the
  library's four-reference lemma, in its two forms: for rewriting, and with the result reference un-indexed for simp.
-/
import Idealize.ShloMosaic.Lib.StableHlo.Run

noncomputable section

namespace Idealize.ShloMosaic.StableHlo

open Idealize.SL.Sem

variable {τ : Topo} {sig : RefSig} {Val : EltTy → Type}

/-- An operation over the literal family of three references x, a, b: its result is its function at the three
    references' contents, listed one by one. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, the result reference un-indexed, for simp. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KHost.lean ====
/-
  What the host operations before the kernel leave in the four arrays the kernel's windows stage, over the extended
  reals, read at an index.

  The index array (32768 x 19) is the concatenation along the columns of the affordance indices (columns 0 to 7), the
  material indices (columns 8 to 15) and the task, object and state indices, each broadcast to one column (columns 16,
  17, 18). The stacked part table (32 x 256) is A over M, where A is the affordance table times the transposed first 64
  columns of the part layer and M the material table times its transposed last 64 columns; the stacked row table
  (112 x 256) is T over O over S, the task, object and state tables times the transposed first three 64-column slices
  of the object layer; the pooled layer (256 x 256) is the object layer's columns from 192 on. A product of a table
  with a transposed slice, read at (v, o), is the sum over k < 64 of the table at (v, k) times the layer at
  (o, off + k); the narrowing of the three float arrays to the shorter format is the identity on the extended reals.

-/
import proofs.«423634_j39307540693438_3_alg».proof.Proof.Gen.KernelIdeal.Launch
import proofs.«423634_j39307540693438_3_alg».proof.Proof.Spec
import proofs.«423634_j39307540693438_3_alg».proof.Proof.LibNary3
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ) (c : Dev nD)

/-- Core c's TensorCore buffers after the host operations. -/
abbrev hostV (c : Dev nD) (b : Ref sig .tc) : Buf (Elt Ideal) ((c : Thread nD τ).loc b) :=
  StableHlo.after (hostOps0 (F := Ideal)) (fun b => m (c, b)) b

/-- The host operations' results at a reference in one pass, three-piece concatenations included. -/
macro "host_results" : tactic =>
  `(tactic| (simp (disch := decide) only [Idealize.ShloMosaic.StableHlo.after_cons, Idealize.ShloMosaic.StableHlo.after_nil,
      Idealize.ShloMosaic.StableHlo.unary_result', Idealize.ShloMosaic.StableHlo.binary_result',
      Idealize.ShloMosaic.StableHlo.nary3_result', Idealize.ShloMosaic.StableHlo.unary_result_ne',
      Idealize.ShloMosaic.StableHlo.binary_result_ne', Idealize.ShloMosaic.StableHlo.nary_result_ne']))

/-- A rows-by-64 times 64-by-256 product over the extended reals, read at (v, o): the sum over the contraction index. -/
theorem dot64_apply {V : Nat} (d : DotDims ⟨2, ![V, 64]⟩ ⟨2, ![64, 256]⟩ ⟨2, ![V, 256]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![V, 64]⟩ .f32) (r : FVec Ideal ⟨2, ![64, 256]⟩ .f32) (v : Fin V) (o : Fin 256) :
    (Host.dotGeneral d none l r : FVec Ideal ⟨2, ![V, 256]⟩ .f32) (ix2 v o) = ∑ k : Fin 64, l (ix2 v k) * r (ix2 k o) := by
  have hr : d.contr.rank = 1 := by rw [d.rank_contr, hlc]; rfl
  have hs : d.contr.size ⟨0, by omega⟩ = 64 := by
    have h := d.size_contr 0 (by rw [hlc]; exact Nat.one_pos)
    rw [h]; simp only [hlc]; rfl
  have key : ∀ (j : (⟨2, ![V, 256]⟩ : Shape).Idx) (p q : Nat) (hp : p < 2) (hq : q < 2), p = q → (j ⟨p, hp⟩).val = (j ⟨q, hq⟩).val :=
    fun j p q hp hq h => by subst h; rfl
  simp only [Host.dotGeneral]
  rw [Ideal.dotGeneral_apply, ← Equiv.sum_comp (contrEquiv1 d 64 hr hs).symm]
  refine Finset.sum_congr rfl fun k _ => ?_
  have hk := contrEquiv1_symm_val d 64 hr hs k
  have el : d.lhsIdx (ix2 v o) ((contrEquiv1 d 64 hr hs).symm k) = ix2 v k := funext fun a => Fin.ext (by
    match a with
    | ⟨0, _⟩ =>
      show (d.lhsIdx (ix2 v o) ((contrEquiv1 d 64 hr hs).symm k) 0).val = v.val
      unfold DotDims.lhsIdx
      rw [dif_neg (by rw [hlb]; exact List.not_mem_nil), dif_pos (by rw [hln]; exact List.mem_singleton.mpr rfl)]
      simp only [Fin.val_cast]
      exact key (ix2 v o) _ 0 _ (by decide) (by simp [hlb, hln])
    | ⟨1, _⟩ => exact (d.lhsIdx_val_of_single hlc _ _).trans hk)
  have er : d.rhsIdx (ix2 v o) ((contrEquiv1 d 64 hr hs).symm k) = ix2 k o := funext fun a => Fin.ext (by
    match a with
    | ⟨0, _⟩ => exact (d.rhsIdx_val_of_single hrc _ _).trans hk
    | ⟨1, _⟩ =>
      show (d.rhsIdx (ix2 v o) ((contrEquiv1 d 64 hr hs).symm k) 1).val = o.val
      unfold DotDims.rhsIdx
      rw [dif_neg (by rw [hrb]; exact List.not_mem_nil), dif_pos (by rw [hrn]; exact List.mem_singleton.mpr rfl)]
      simp only [Fin.val_cast]
      exact key (ix2 v o) _ 1 _ (by decide) (by simp [hlb, hln, hrn]))
  rw [el, er]

/-- A table times the transposed 64-column slice of a layer that starts at column off, read at (v, o). -/
theorem tab_apply {V K : Nat} (d : DotDims ⟨2, ![V, 64]⟩ ⟨2, ![64, 256]⟩ ⟨2, ![V, 256]⟩)
    (hlc : d.lhsContracting = [1]) (hrc : d.rhsContracting = [0]) (hln : d.lhsNonContracting = [0])
    (hrn : d.rhsNonContracting = [1]) (hlb : d.lhsBatch = []) (hrb : d.rhsBatch = [])
    (E : FVec Ideal ⟨2, ![V, 64]⟩ .f32) (W : FVec Ideal ⟨2, ![256, K]⟩ .f32) (off : Nat) (hoff : off + 64 ≤ K)
    (hS : (⟨2, ![256, K]⟩ : Shape).Slices ![0, off] S256x64) (hT : S256x64.Transposes [1, 0] S64x256)
    (v : Fin V) (o : Fin 256) :
    (Host.dotGeneral d none E (transpose S64x256 [1, 0] (extractStridedSlice S256x64 ![0, off] W hS) hT) : FVec Ideal ⟨2, ![V, 256]⟩ .f32) (ix2 v o)
      = Cert.Spec.lin64 (fun v k => E (ix2 v k)) (fun o j => W (ix2 o j)) off hoff v o := by
  rw [dot64_apply d hlc hrc hln hrn hlb hrb]
  unfold Cert.Spec.lin64
  refine Finset.sum_congr rfl fun k _ => ?_
  rw [transpose_ix2_apply, slice2_axis1_eq]

/-- The pooled layer's array: the object layer's columns from 192 on. -/
theorem host_Wq_e : (hostV m c main_v25 : S256x256.Idx → EReal)
    = (truncf (F := Ideal) .bf16 (extractStridedSlice S256x256 ![0, 192] (m ((c.tc : Thread nD τ).loc main_arg12) : S256x448.Idx → EReal) slices_S256x448_S256x256_0_192 : FVec Ideal S256x256 .f32) bitsLt_bf16_f32 : FVec Ideal S256x256 .bf16) := by
  show StableHlo.after hostOps0 (fun b => m (c, b)) (Proc.devRef .tc main_v25) = _
  host_results <;> rfl

theorem host_Wq (o k : Fin 256) : (hostV m c main_v25 : S256x256.Idx → EReal) (ix2 o k)
    = Cert.Spec.Wq (fun o j => (m ((c.tc : Thread nD τ).loc main_arg12) : S256x448.Idx → EReal) (ix2 o j)) o k := by
  rw [host_Wq_e]
  show extractStridedSlice S256x256 ![0, 192] (m ((c.tc : Thread nD τ).loc main_arg12) : S256x448.Idx → EReal) slices_S256x448_S256x256_0_192 (ix2 o k) = _
  rw [slice2_axis1_eq]
  rfl
/-- The stacked part table as the host operations compute it. -/
theorem host_AM_e : (hostV m c main_v23 : S32x256.Idx → EReal)
    = (truncf (F := Ideal) .bf16 (concatenate S32x256 0
        [⟨S16x256, (Host.dotGeneral (F := Ideal) (φ₁ := .f32) (φ₂ := .f32) dot_S16x64_S64x256_S16x256_1_0_0_1_n_n none (m ((c.tc : Thread nD τ).loc main_arg5) : FVec Ideal S16x64 .f32)
            (transpose S64x256 [1, 0] (extractStridedSlice S256x64 ![0, 0] (m ((c.tc : Thread nD τ).loc main_arg10) : FVec Ideal S256x128 .f32) slices_S256x128_S256x64_0_0) transposes_S256x64_S64x256_1_0) : FVec Ideal S16x256 .f32)⟩,
         ⟨S16x256, (Host.dotGeneral (F := Ideal) (φ₁ := .f32) (φ₂ := .f32) dot_S16x64_S64x256_S16x256_1_0_0_1_n_n none (m ((c.tc : Thread nD τ).loc main_arg6) : FVec Ideal S16x64 .f32)
            (transpose S64x256 [1, 0] (extractStridedSlice S256x64 ![0, 64] (m ((c.tc : Thread nD τ).loc main_arg10) : FVec Ideal S256x128 .f32) slices_S256x128_S256x64_0_64) transposes_S256x64_S64x256_1_0) : FVec Ideal S16x256 .f32)⟩]
        concatenates_S16x256_S16x256_S32x256_d0 : FVec Ideal S32x256 .f32) bitsLt_bf16_f32 : FVec Ideal S32x256 .bf16) := by
  show StableHlo.after hostOps0 (fun b => m (c, b)) (Proc.devRef .tc main_v23) = _
  host_results <;> rfl

theorem host_AM (j : Fin 32) (o : Fin 256) : (hostV m c main_v23 : S32x256.Idx → EReal) (ix2 j o)
    = Cert.Spec.AMtab (fun v k => (m ((c.tc : Thread nD τ).loc main_arg5) : S16x64.Idx → EReal) (ix2 v k))
        (fun v k => (m ((c.tc : Thread nD τ).loc main_arg6) : S16x64.Idx → EReal) (ix2 v k))
        (fun o j => (m ((c.tc : Thread nD τ).loc main_arg10) : S256x128.Idx → EReal) (ix2 o j)) j o := by
  rw [host_AM_e]
  unfold Cert.Spec.AMtab
  by_cases h : j.val < 16
  · rw [dif_pos h]
    refine (concatenate_pair_apply_left (s₁ := S16x256) (s₂ := S16x256) (0 : Fin 2) _ _ concatenates_S16x256_S16x256_S32x256_d0 (ix2 j o) rfl (ix2 ⟨j.val, h⟩ o)
      (fun b => match b with | ⟨0, _⟩ => rfl | ⟨1, _⟩ => rfl)).trans ?_
    exact tab_apply _ rfl rfl rfl rfl rfl rfl _ _ 0 (by decide) _ _ _ o
  · rw [dif_neg h]
    refine (concatenate_pair_apply_right (s₁ := S16x256) (s₂ := S16x256) (0 : Fin 2) _ _ concatenates_S16x256_S16x256_S32x256_d0 (ix2 j o) rfl rfl (ix2 ⟨j.val - 16, by omega⟩ o)
      (fun b hb => match b, hb with | ⟨0, _⟩, hb => absurd rfl hb | ⟨1, _⟩, _ => rfl) (by show j.val - 16 + 16 = j.val; omega)).trans ?_
    exact tab_apply _ rfl rfl rfl rfl rfl rfl _ _ 64 (by decide) _ _ _ o
/-- The three row tables pushed through their slices of the object layer, as the pieces of the stacked table. -/
abbrev tosPieces : List ((s : Shape) × (s.Idx → EReal)) :=
  [⟨S16x256, (Host.dotGeneral (F := Ideal) (φ₁ := .f32) (φ₂ := .f32) dot_S16x64_S64x256_S16x256_1_0_0_1_n_n none (m ((c.tc : Thread nD τ).loc main_arg7) : FVec Ideal S16x64 .f32)
            (transpose S64x256 [1, 0] (extractStridedSlice S256x64 ![0, 0] (m ((c.tc : Thread nD τ).loc main_arg12) : FVec Ideal S256x448 .f32) slices_S256x448_S256x64_0_0) transposes_S256x64_S64x256_1_0))⟩,
   ⟨S64x256, (Host.dotGeneral (F := Ideal) (φ₁ := .f32) (φ₂ := .f32) dot_S64x64_S64x256_S64x256_1_0_0_1_n_n none (m ((c.tc : Thread nD τ).loc main_arg8) : FVec Ideal S64x64 .f32)
            (transpose S64x256 [1, 0] (extractStridedSlice S256x64 ![0, 64] (m ((c.tc : Thread nD τ).loc main_arg12) : FVec Ideal S256x448 .f32) slices_S256x448_S256x64_0_64) transposes_S256x64_S64x256_1_0))⟩,
   ⟨S32x256, (Host.dotGeneral (F := Ideal) (φ₁ := .f32) (φ₂ := .f32) dot_S32x64_S64x256_S32x256_1_0_0_1_n_n none (m ((c.tc : Thread nD τ).loc main_arg9) : FVec Ideal S32x64 .f32)
            (transpose S64x256 [1, 0] (extractStridedSlice S256x64 ![0, 128] (m ((c.tc : Thread nD τ).loc main_arg12) : FVec Ideal S256x448 .f32) slices_S256x448_S256x64_0_128) transposes_S256x64_S64x256_1_0))⟩]

/-- The stacked row table as the host operations compute it. -/
theorem host_TOS_e : (hostV m c main_v24 : S112x256.Idx → EReal)
    = (truncf (F := Ideal) .bf16 (concatenate S112x256 0 (tosPieces m c)
        concatenates_S16x256_S64x256_S32x256_S112x256_d0 : FVec Ideal S112x256 .f32) bitsLt_bf16_f32 : FVec Ideal S112x256 .bf16) := by
  show StableHlo.after hostOps0 (fun b => m (c, b)) (Proc.devRef .tc main_v24) = _
  host_results <;> rfl

theorem host_TOS (j : Fin 112) (o : Fin 256) : (hostV m c main_v24 : S112x256.Idx → EReal) (ix2 j o)
    = Cert.Spec.TOStab (fun v k => (m ((c.tc : Thread nD τ).loc main_arg7) : FVec Ideal S16x64 .f32) (ix2 v k))
        (fun v k => (m ((c.tc : Thread nD τ).loc main_arg8) : FVec Ideal S64x64 .f32) (ix2 v k))
        (fun v k => (m ((c.tc : Thread nD τ).loc main_arg9) : FVec Ideal S32x64 .f32) (ix2 v k))
        (fun o j => (m ((c.tc : Thread nD τ).loc main_arg12) : FVec Ideal S256x448 .f32) (ix2 o j)) j o := by
  rw [host_TOS_e]
  unfold Cert.Spec.TOStab
  by_cases h1 : j.val < 16
  · rw [dif_pos h1]
    refine (concatenate_apply_piece (t := S112x256) (0 : Fin 2) (tosPieces m c) concatenates_S16x256_S64x256_S32x256_S112x256_d0 (ix2 j o)
      0 (by show (0 : ℕ) < 3; decide) S16x256 _ rfl rfl 0 rfl (ix2 ⟨j.val, h1⟩ o)
      (fun b hb => match b, hb with | ⟨0, _⟩, hb => absurd rfl hb | ⟨1, _⟩, _ => rfl) (by show 0 + j.val = j.val; omega)).trans ?_
    exact tab_apply _ rfl rfl rfl rfl rfl rfl _ _ 0 (by decide) _ _ _ o
  · rw [dif_neg h1]
    by_cases h2 : j.val < 80
    · rw [dif_pos h2]
      refine (concatenate_apply_piece (t := S112x256) (0 : Fin 2) (tosPieces m c) concatenates_S16x256_S64x256_S32x256_S112x256_d0 (ix2 j o)
        1 (by show (1 : ℕ) < 3; decide) S64x256 _ rfl rfl 16 rfl (ix2 ⟨j.val - 16, by omega⟩ o)
        (fun b hb => match b, hb with | ⟨0, _⟩, hb => absurd rfl hb | ⟨1, _⟩, _ => rfl) (by show 16 + (j.val - 16) = j.val; omega)).trans ?_
      exact tab_apply _ rfl rfl rfl rfl rfl rfl _ _ 64 (by decide) _ _ _ o
    · rw [dif_neg h2]
      refine (concatenate_apply_piece (t := S112x256) (0 : Fin 2) (tosPieces m c) concatenates_S16x256_S64x256_S32x256_S112x256_d0 (ix2 j o)
        2 (by show (2 : ℕ) < 3; decide) S32x256 _ rfl rfl 80 rfl (ix2 ⟨j.val - 80, by omega⟩ o)
        (fun b hb => match b, hb with | ⟨0, _⟩, hb => absurd rfl hb | ⟨1, _⟩, _ => rfl) (by show 80 + (j.val - 80) = j.val; omega)).trans ?_
      exact tab_apply _ rfl rfl rfl rfl rfl rfl _ _ 128 (by decide) _ _ _ o

/-- The three row-index vectors, each as one column. -/
abbrev rowPieces : List ((s : Shape) × (s.Idx → BitVec 32)) :=
  [⟨S32768x1, (broadcastInDim S32768x1 ![0] bcast_S32768_S32768x1_0 (m ((c.tc : Thread nD τ).loc main_arg2) : IVec S32768 32) : IVec S32768x1 32)⟩, ⟨S32768x1, (broadcastInDim S32768x1 ![0] bcast_S32768_S32768x1_0 (m ((c.tc : Thread nD τ).loc main_arg3) : IVec S32768 32) : IVec S32768x1 32)⟩, ⟨S32768x1, (broadcastInDim S32768x1 ![0] bcast_S32768_S32768x1_0 (m ((c.tc : Thread nD τ).loc main_arg4) : IVec S32768 32) : IVec S32768x1 32)⟩]

/-- The three row-index vectors as the columns of one array. -/
abbrev rowIdx3 : IVec S32768x3 32 :=
  concatenate S32768x3 1 (rowPieces m c) concatenates_S32768x1_S32768x1_S32768x1_S32768x3_d1

/-- The affordance columns, the material columns, the three row-index columns. -/
abbrev idxPieces : List ((s : Shape) × (s.Idx → BitVec 32)) :=
  [⟨S32768x8, (m ((c.tc : Thread nD τ).loc main_arg0) : IVec S32768x8 32)⟩, ⟨S32768x8, (m ((c.tc : Thread nD τ).loc main_arg1) : IVec S32768x8 32)⟩, ⟨S32768x3, rowIdx3 m c⟩]

/-- The index array as the host operations compute it. -/
theorem host_idx_e : (hostV m c main_v4 : S32768x19.Idx → BitVec 32)
    = (concatenate S32768x19 1 (idxPieces m c) concatenates_S32768x8_S32768x8_S32768x3_S32768x19_d1 : IVec S32768x19 32) := by
  show StableHlo.after hostOps0 (fun b => m (c, b)) (Proc.devRef .tc main_v4) = _
  host_results <;> rfl

theorem host_idx_aff (b : Fin 32768) (p : Fin 8) : (hostV m c main_v4 : S32768x19.Idx → BitVec 32) (ix2 b ⟨p.val, by omega⟩)
    = (m ((c.tc : Thread nD τ).loc main_arg0) : IVec S32768x8 32) (ix2 b p) := by
  rw [host_idx_e]
  exact concatenate_apply_piece (t := S32768x19) (1 : Fin 2) (idxPieces m c) concatenates_S32768x8_S32768x8_S32768x3_S32768x19_d1
    (ix2 b (⟨p.val, by omega⟩ : Fin 19))
    0 (by show (0 : ℕ) < 3; decide) S32768x8 _ rfl rfl 0 rfl (ix2 b p)
    (fun a ha => match a, ha with | ⟨0, _⟩, _ => rfl | ⟨1, _⟩, ha => absurd rfl ha) (by show 0 + p.val = p.val; omega)

theorem host_idx_mat (b : Fin 32768) (p : Fin 8) : (hostV m c main_v4 : S32768x19.Idx → BitVec 32) (ix2 b ⟨8 + p.val, by omega⟩)
    = (m ((c.tc : Thread nD τ).loc main_arg1) : IVec S32768x8 32) (ix2 b p) := by
  rw [host_idx_e]
  exact concatenate_apply_piece (t := S32768x19) (1 : Fin 2) (idxPieces m c) concatenates_S32768x8_S32768x8_S32768x3_S32768x19_d1
    (ix2 b (⟨8 + p.val, by omega⟩ : Fin 19))
    1 (by show (1 : ℕ) < 3; decide) S32768x8 _ rfl rfl 8 rfl (ix2 b p)
    (fun a ha => match a, ha with | ⟨0, _⟩, _ => rfl | ⟨1, _⟩, ha => absurd rfl ha) rfl

/-- Row-index column q of the index array is column q of the three row-index columns. -/
theorem host_idx_row (b : Fin 32768) (q : Fin 3) :
    (hostV m c main_v4 : S32768x19.Idx → BitVec 32) (ix2 b ⟨16 + q.val, by omega⟩) = rowIdx3 m c (ix2 b q) := by
  rw [host_idx_e]
  exact concatenate_apply_piece (t := S32768x19) (1 : Fin 2) (idxPieces m c) concatenates_S32768x8_S32768x8_S32768x3_S32768x19_d1
    (ix2 b (⟨16 + q.val, by omega⟩ : Fin 19))
    2 (by show (2 : ℕ) < 3; decide) S32768x3 _ rfl rfl 16 rfl (ix2 b q)
    (fun a ha => match a, ha with | ⟨0, _⟩, _ => rfl | ⟨1, _⟩, ha => absurd rfl ha) rfl

/-- A vector broadcast to one column, read at row b, is the vector at b. -/
theorem col_apply (x : IVec S32768 32) (b : Fin 32768) :
    (broadcastInDim S32768x1 ![0] bcast_S32768_S32768x1_0 x : IVec S32768x1 32) (ix2 b (0 : Fin 1)) = x (ix1 b) :=
  broadcastInDim_apply _ bcast_S32768_S32768x1_0 x (ix2 b (0 : Fin 1)) (ix1 b) (fun a => match a with
    | ⟨0, _⟩ => by show b.val = if (32768 : Nat) = 1 then 0 else b.val; rw [if_neg (by decide)])

theorem host_idx_task (b : Fin 32768) : (hostV m c main_v4 : S32768x19.Idx → BitVec 32) (ix2 b ⟨16, by omega⟩)
    = (m ((c.tc : Thread nD τ).loc main_arg2) : IVec S32768 32) (ix1 b) := by
  refine (host_idx_row m c b 0).trans ?_
  refine (concatenate_apply_piece (t := S32768x3) (1 : Fin 2) (rowPieces m c) concatenates_S32768x1_S32768x1_S32768x1_S32768x3_d1 (ix2 b (0 : Fin 3))
    0 (by show (0 : ℕ) < 3; decide) S32768x1 _ rfl rfl 0 rfl (ix2 b (0 : Fin 1))
    (fun a ha => match a, ha with | ⟨0, _⟩, _ => rfl | ⟨1, _⟩, ha => absurd rfl ha) rfl).trans ?_
  exact col_apply _ b

theorem host_idx_obj (b : Fin 32768) : (hostV m c main_v4 : S32768x19.Idx → BitVec 32) (ix2 b ⟨17, by omega⟩)
    = (m ((c.tc : Thread nD τ).loc main_arg3) : IVec S32768 32) (ix1 b) := by
  refine (host_idx_row m c b 1).trans ?_
  refine (concatenate_apply_piece (t := S32768x3) (1 : Fin 2) (rowPieces m c) concatenates_S32768x1_S32768x1_S32768x1_S32768x3_d1 (ix2 b (1 : Fin 3))
    1 (by show (1 : ℕ) < 3; decide) S32768x1 _ rfl rfl 1 rfl (ix2 b (0 : Fin 1))
    (fun a ha => match a, ha with | ⟨0, _⟩, _ => rfl | ⟨1, _⟩, ha => absurd rfl ha) rfl).trans ?_
  exact col_apply _ b

theorem host_idx_state (b : Fin 32768) : (hostV m c main_v4 : S32768x19.Idx → BitVec 32) (ix2 b ⟨18, by omega⟩)
    = (m ((c.tc : Thread nD τ).loc main_arg4) : IVec S32768 32) (ix1 b) := by
  refine (host_idx_row m c b 2).trans ?_
  refine (concatenate_apply_piece (t := S32768x3) (1 : Fin 2) (rowPieces m c) concatenates_S32768x1_S32768x1_S32768x1_S32768x3_d1 (ix2 b (2 : Fin 3))
    2 (by show (2 : ℕ) < 3; decide) S32768x1 _ rfl rfl 2 rfl (ix2 b (0 : Fin 1))
    (fun a ha => match a, ha with | ⟨0, _⟩, _ => rfl | ⟨1, _⟩, ha => absurd rfl ha) rfl).trans ?_
  exact col_apply _ b

end Cert.KernelIdeal.Hand

end
-- ==== Proof.KernelValue.lean ====
/-
  The value of the idealized kernel program's run: the result array as the object encoder of the fourteen arguments.

  The body at a grid point stores, at row r and column o of its 2048 x 256 block, the row value rowK of row r of the
  staged index block over the staged tables and biases (the last stage at the row's pooled part features). The index
  block at point t is rows 2048 t .. 2048 t + 2047 of the merged index array and every table and bias is staged whole,
  so what point t writes back is row block t of ONE function Gv of the arrays the region finds: Gv at (b, o) is rowK of
  row b of the index array. The sixteen row blocks tile the 32768 rows, so the result array ends at Gv. The host
  operations before the region make the index array's columns the five index arguments, the stacked tables the embedding
  tables through their slices of the two layers, and leave the biases as launched; read row by row from the stacked
  tables the encoder with the tables pushed through the layers is rowK, so the result array ends at that encoder of the
  arguments, at every row and column, and every argument ends as launched.
-/
import proofs.«423634_j39307540693438_3_alg».proof.Proof.FrameKIRun
import proofs.«423634_j39307540693438_3_alg».proof.Proof.KPool
import proofs.«423634_j39307540693438_3_alg».proof.Proof.KOut
import proofs.«423634_j39307540693438_3_alg».proof.Proof.Bridge
import proofs.«423634_j39307540693438_3_alg».proof.Proof.KHost
import proofs.«423634_j39307540693438_3_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The stored block, entry by entry -/

theorem off00 : (![0, 0] : Fin 2 → Nat) = fun _ => 0 := funext fun a => by fin_cases a <;> rfl
theorem off0 : (![0] : Fin 1 → Nat) = fun _ => 0 := funext fun a => by fin_cases a; rfl

/-- The stored block at row r, column o, is the row's value over the loaded tables: the last stage at the row's
    pooled part features. -/
theorem bodyVal_apply (v0 v2 : Vec Ideal S2048x8 .i32) (v4 : Vec Ideal S2048x3 .i32) (v6 : Vec Ideal S32x256 .bf16)
    (v8 : Vec Ideal S112x256 .bf16) (v10 : Vec Ideal S256x256 .bf16) (v12 v13 : Vec Ideal S256 .f32)
    (h0 : ∀ (r : Fin 2048) (p : Fin 8), (v0 (ix2 r p)).toNat < 16)
    (h2 : ∀ (r : Fin 2048) (p : Fin 8), (v2 (ix2 r p)).toNat < 16)
    (ht : ∀ r : Fin 2048, (v4 (ix2 r (0 : Fin 3))).toNat < 16)
    (ho : ∀ r : Fin 2048, (v4 (ix2 r (1 : Fin 3))).toNat < 64)
    (hs : ∀ r : Fin 2048, (v4 (ix2 r (2 : Fin 3))).toNat < 32)
    (r : Fin 2048) (o : Fin 256) :
    bodyVal (F := Ideal) v0 v2 v4 v6 v8 v10 v12 v13 (ix2 r o)
      = Cert.Spec.rowK (fun p => v0 (ix2 r p)) (fun p => v2 (ix2 r p)) (v4 (ix2 r (0 : Fin 3))) (v4 (ix2 r (1 : Fin 3)))
          (v4 (ix2 r (2 : Fin 3))) (fun j k => v6 (ix2 j k)) (fun j o => v8 (ix2 j o)) (fun o k => v10 (ix2 o k))
          (fun k => v12 (ix1 k)) (fun o => v13 (ix1 o)) o := by
  unfold bodyVal
  rw [outVal_apply v4 v8 v10 v13 _ ht ho hs r o]
  unfold Cert.Spec.rowK
  exact congrArg (fun f => Cert.Spec.rowOut _ _ _ _ _ _ f o) (funext fun k => pooledVal_apply v0 v2 v6 v12 h0 h2 r k)

/-- The same over the six staged blocks the body loads from: the three column groups are columns 0..7, 8..15 and
    16..18 of the index block, the tables and biases are loaded whole. -/
theorem bodyVal_blocks (X0 : Vec Ideal S2048x19 .i32) (X1 : Vec Ideal S32x256 .bf16) (X2 : Vec Ideal S112x256 .bf16)
    (X3 : Vec Ideal S256x256 .bf16) (X4 X5 : Vec Ideal S256 .f32)
    (h0 : ∀ (r : Fin 2048) (p : Fin 8), (X0 (ix2 r (⟨p.val, by omega⟩ : Fin 19))).toNat < 16)
    (h2 : ∀ (r : Fin 2048) (p : Fin 8), (X0 (ix2 r (⟨8 + p.val, by omega⟩ : Fin 19))).toNat < 16)
    (ht : ∀ r : Fin 2048, (X0 (ix2 r (⟨16, by omega⟩ : Fin 19))).toNat < 16)
    (ho : ∀ r : Fin 2048, (X0 (ix2 r (⟨17, by omega⟩ : Fin 19))).toNat < 64)
    (hs : ∀ r : Fin 2048, (X0 (ix2 r (⟨18, by omega⟩ : Fin 19))).toNat < 32)
    (r : Fin 2048) (o : Fin 256) :
    bodyVal (F := Ideal) (View.ld X0 rAff) (View.ld X0 rMat) (View.ld X0 rCat) (View.ld X1 rAM) (View.ld X2 rTOS)
        (View.ld X3 rWq) (View.ld X4 rB) (View.ld X5 rB) (ix2 r o)
      = Cert.Spec.rowK (fun p => X0 (ix2 r (⟨p.val, by omega⟩ : Fin 19))) (fun p => X0 (ix2 r (⟨8 + p.val, by omega⟩ : Fin 19)))
          (X0 (ix2 r (⟨16, by omega⟩ : Fin 19))) (X0 (ix2 r (⟨17, by omega⟩ : Fin 19))) (X0 (ix2 r (⟨18, by omega⟩ : Fin 19)))
          (fun j k => X1 (ix2 j k)) (fun j o => X2 (ix2 j o)) (fun o k => X3 (ix2 o k))
          (fun k => X4 (ix1 k)) (fun o => X5 (ix1 o)) o := by
  have eA : ∀ (r : Fin 2048) (p : Fin 8), View.ld X0 rAff (ix2 r p) = X0 (ix2 r (⟨p.val, by omega⟩ : Fin 19)) := fun r p =>
    congrArg X0 (funext fun a => Fin.ext (by
      match a with
      | ⟨0, _⟩ => show 0 + 1 * r.val = r.val; omega
      | ⟨1, _⟩ => show 0 + 1 * p.val = p.val; omega))
  have eM : ∀ (r : Fin 2048) (p : Fin 8), View.ld X0 rMat (ix2 r p) = X0 (ix2 r (⟨8 + p.val, by omega⟩ : Fin 19)) := fun r p =>
    congrArg X0 (funext fun a => Fin.ext (by
      match a with
      | ⟨0, _⟩ => show 0 + 1 * r.val = r.val; omega
      | ⟨1, _⟩ => show 8 + 1 * p.val = 8 + p.val; omega))
  have eC : ∀ (r : Fin 2048) (q : Fin 3), View.ld X0 rCat (ix2 r q) = X0 (ix2 r (⟨16 + q.val, by omega⟩ : Fin 19)) := fun r q =>
    congrArg X0 (funext fun a => Fin.ext (by
      match a with
      | ⟨0, _⟩ => show 0 + 1 * r.val = r.val; omega
      | ⟨1, _⟩ => show 16 + 1 * q.val = 16 + q.val; omega))
  rw [bodyVal_apply _ _ _ _ _ _ _ _ (fun r p => by rw [eA]; exact h0 r p) (fun r p => by rw [eM]; exact h2 r p)
    (fun r => by rw [eC]; exact ht r) (fun r => by rw [eC]; exact ho r) (fun r => by rw [eC]; exact hs r) r o]
  have e1 : View.ld X1 rAM = X1 := View.ld_unit_zero off00 _ X1
  have e2 : View.ld X2 rTOS = X2 := View.ld_unit_zero off00 _ X2
  have e3 : View.ld X3 rWq = X3 := View.ld_unit_zero off00 _ X3
  have e4 : View.ld X4 rB = X4 := View.ld_unit_zero off0 _ X4
  have e5 : View.ld X5 rB = X5 := View.ld_unit_zero off0 _ X5
  rw [e1, e2, e3, e4, e5]
  simp only [eA, eM, eC]
  rfl

/-! ## The result array as one function of the arrays the region finds -/

/-- The row's value at row b, column o, over the merged index array (columns 0..7 affordance, 8..15 material,
    16 task, 17 object, 18 state), the three stacked tables and the two biases. -/
def GvAt (idx : S32768x19.Idx → BitVec 32) (am : S32x256.Idx → EReal) (tos : S112x256.Idx → EReal)
    (wq : S256x256.Idx → EReal) (bp bo : S256.Idx → EReal) (b : Fin 32768) (o : Fin 256) : EReal :=
  Cert.Spec.rowK (fun p => idx (ix2 b (⟨p.val, by omega⟩ : Fin 19))) (fun p => idx (ix2 b (⟨8 + p.val, by omega⟩ : Fin 19)))
    (idx (ix2 b (⟨16, by omega⟩ : Fin 19))) (idx (ix2 b (⟨17, by omega⟩ : Fin 19))) (idx (ix2 b (⟨18, by omega⟩ : Fin 19)))
    (fun j k => am (ix2 j k)) (fun j o => tos (ix2 j o)) (fun o k => wq (ix2 o k)) (fun k => bp (ix1 k)) (fun o => bo (ix1 o)) o

/-- The whole result array: every row's value. -/
def Gv (idx : S32768x19.Idx → BitVec 32) (am : S32x256.Idx → EReal) (tos : S112x256.Idx → EReal)
    (wq : S256x256.Idx → EReal) (bp bo : S256.Idx → EReal) : S32768x256.Idx → EReal :=
  fun i => GvAt idx am tos wq bp bo (i 0) (i 1)

/-- The merged index array as the region finds it. -/
abbrev idxArr (c : Dev nD) : S32768x19.Idx → BitVec 32 := V m c main_v4
/-- The stacked part table as the region finds it. -/
abbrev amArr (c : Dev nD) : S32x256.Idx → EReal := V m c main_v23
/-- The stacked row table as the region finds it. -/
abbrev tosArr (c : Dev nD) : S112x256.Idx → EReal := V m c main_v24
/-- The pooled layer as the region finds it. -/
abbrev wqArr (c : Dev nD) : S256x256.Idx → EReal := V m c main_v25
/-- The part bias as the region finds it. -/
abbrev bpArr (c : Dev nD) : S256.Idx → EReal := V m c main_arg11
/-- The object bias as the region finds it. -/
abbrev boArr (c : Dev nD) : S256.Idx → EReal := V m c main_arg13

/-! ## The blocks of the windows -/

/-- The printed index maps, decided over the grid: the index array's and the result's block at point t is row block
    t, column block 0; every table and bias is staged at block 0. -/
theorem block_index : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 :=
  (by decide +kernel : ∀ t : Fin grid0.N, _)

/-- Row r of the index block at point t is row 2048 t + r of the index array. -/
theorem idx_block_apply (c : Dev nD) (t : Fin cfg0.N) (r : Fin 2048) (q : Fin 19) (b : Fin 32768)
    (hb : b.val = 2048 * t.val + r.val) :
    (iblk m c 0 t : Vec Ideal S2048x19 .i32) (ix2 r q) = idxArr m c (ix2 b q) := by
  obtain ⟨i00, i01, -⟩ := block_index t
  unfold iblk
  rw [View.read_apply]
  show V m c main_v4 _ = V m c main_v4 _
  congr 1
  funext a
  apply Fin.ext
  match a with
  | ⟨0, _⟩ => show win0_0.index t (0 : Fin 2) * 2048 + 1 * r.val = b.val; rw [i00, hb]; omega
  | ⟨1, _⟩ => show win0_0.index t (1 : Fin 2) * 19 + 1 * q.val = q.val; rw [i01]; omega

/-- The stacked part table's block is the table. -/
theorem am_block (c : Dev nD) (t : Fin cfg0.N) : (iblk m c 1 t : Vec Ideal S32x256 .bf16) = amArr m c := by
  obtain ⟨-, -, -, -, i0, i1, -⟩ := block_index t
  funext x
  unfold iblk
  rw [View.read_apply]
  show V m c main_v23 _ = V m c main_v23 x
  congr 1
  funext a
  apply Fin.ext
  match a with
  | ⟨0, _⟩ => show win0_1.index t (0 : Fin 2) * 32 + 1 * (x 0).val = (x 0).val; rw [i0]; omega
  | ⟨1, _⟩ => show win0_1.index t (1 : Fin 2) * 256 + 1 * (x 1).val = (x 1).val; rw [i1]; omega

/-- The stacked row table's block is the table. -/
theorem tos_block (c : Dev nD) (t : Fin cfg0.N) : (iblk m c 2 t : Vec Ideal S112x256 .bf16) = tosArr m c := by
  obtain ⟨-, -, -, -, -, -, i0, i1, -⟩ := block_index t
  funext x
  unfold iblk
  rw [View.read_apply]
  show V m c main_v24 _ = V m c main_v24 x
  congr 1
  funext a
  apply Fin.ext
  match a with
  | ⟨0, _⟩ => show win0_2.index t (0 : Fin 2) * 112 + 1 * (x 0).val = (x 0).val; rw [i0]; omega
  | ⟨1, _⟩ => show win0_2.index t (1 : Fin 2) * 256 + 1 * (x 1).val = (x 1).val; rw [i1]; omega

/-- The pooled layer's block is the layer. -/
theorem wq_block (c : Dev nD) (t : Fin cfg0.N) : (iblk m c 3 t : Vec Ideal S256x256 .bf16) = wqArr m c := by
  obtain ⟨-, -, -, -, -, -, -, -, i0, i1, -⟩ := block_index t
  funext x
  unfold iblk
  rw [View.read_apply]
  show V m c main_v25 _ = V m c main_v25 x
  congr 1
  funext a
  apply Fin.ext
  match a with
  | ⟨0, _⟩ => show win0_3.index t (0 : Fin 2) * 256 + 1 * (x 0).val = (x 0).val; rw [i0]; omega
  | ⟨1, _⟩ => show win0_3.index t (1 : Fin 2) * 256 + 1 * (x 1).val = (x 1).val; rw [i1]; omega

/-- The part bias's block is the bias. -/
theorem bp_block (c : Dev nD) (t : Fin cfg0.N) : (iblk m c 4 t : Vec Ideal S256 .f32) = bpArr m c := by
  obtain ⟨-, -, -, -, -, -, -, -, -, -, i0, -⟩ := block_index t
  funext x
  unfold iblk
  rw [View.read_apply]
  show V m c main_arg11 _ = V m c main_arg11 x
  congr 1
  funext a
  apply Fin.ext
  match a with
  | ⟨0, _⟩ => show win0_4.index t (0 : Fin 1) * 256 + 1 * (x 0).val = (x 0).val; rw [i0]; omega

/-- The object bias's block is the bias. -/
theorem bo_block (c : Dev nD) (t : Fin cfg0.N) : (iblk m c 5 t : Vec Ideal S256 .f32) = boArr m c := by
  obtain ⟨-, -, -, -, -, -, -, -, -, -, -, i0⟩ := block_index t
  funext x
  unfold iblk
  rw [View.read_apply]
  show V m c main_arg13 _ = V m c main_arg13 x
  congr 1
  funext a
  apply Fin.ext
  match a with
  | ⟨0, _⟩ => show win0_5.index t (0 : Fin 1) * 256 + 1 * (x 0).val = (x 0).val; rw [i0]; omega

/-! ## What each point writes back, and the array after the run -/

/-- Every index of the merged index array names a row of the table it indexes. -/
structure IdxInRange (idx : S32768x19.Idx → BitVec 32) : Prop where
  aff : ∀ (b : Fin 32768) (p : Fin 8), (idx (ix2 b (⟨p.val, by omega⟩ : Fin 19))).toNat < 16
  mat : ∀ (b : Fin 32768) (p : Fin 8), (idx (ix2 b (⟨8 + p.val, by omega⟩ : Fin 19))).toNat < 16
  task : ∀ b : Fin 32768, (idx (ix2 b (⟨16, by omega⟩ : Fin 19))).toNat < 16
  obj : ∀ b : Fin 32768, (idx (ix2 b (⟨17, by omega⟩ : Fin 19))).toNat < 64
  state : ∀ b : Fin 32768, (idx (ix2 b (⟨18, by omega⟩ : Fin 19))).toNat < 32

/-- Point t writes back row block t of the row values over the arrays the region finds. -/
theorem flushed_eq (c : Dev nD) (hI : IdxInRange (idxArr m c)) (t : Fin cfg0.N) :
    (dats m 0 c).flushed 6 t = ((cfg0.win 6).blk t).view.read (Elt Ideal)
      (Gv (idxArr m c) (amArr m c) (tosArr m c) (wqArr m c) (bpArr m c) (boArr m c)) := by
  show (cfg0.win 6).cut (grid0.coords t) ((dats m 0 c).after 6 t) = _
  rw [after0_6]
  unfold out0_6
  rw [View.canon_unit_zero off00]
  obtain ⟨-, -, i60, i61, -⟩ := block_index t
  have hN : cfg0.N = 16 := N_0
  funext j
  obtain ⟨r, o, rfl⟩ : ∃ (r : Fin 2048) (o : Fin 256), j = ix2 r o := ⟨j 0, j 1, eq_ix2 j⟩
  have hlt : 2048 * t.val + r.val < 32768 := by have := t.isLt; have := r.isLt; omega
  have he : ((cfg0.win 6).blk t).view.emb (ix2 r o) = (ix2 (⟨2048 * t.val + r.val, hlt⟩ : Fin 32768) o : S32768x256.Idx) := by
    funext a
    apply Fin.ext
    match a with
    | ⟨0, _⟩ => show win0_6.index t (0 : Fin 2) * 2048 + 1 * r.val = 2048 * t.val + r.val; rw [i60]; omega
    | ⟨1, _⟩ => show win0_6.index t (1 : Fin 2) * 256 + 1 * o.val = o.val; rw [i61]; omega
  have hx : ∀ (r : Fin 2048) (q : Fin 19), (iblk m c 0 t : Vec Ideal S2048x19 .i32) (ix2 r q)
      = idxArr m c (ix2 (⟨2048 * t.val + r.val, by have := t.isLt; have := r.isLt; omega⟩ : Fin 32768) q) :=
    fun r q => idx_block_apply m c t r q _ rfl
  show bodyVal (F := Ideal) (View.ld (iblk m c 0 t : Vec Ideal S2048x19 .i32) rAff) (View.ld (iblk m c 0 t : Vec Ideal S2048x19 .i32) rMat)
      (View.ld (iblk m c 0 t : Vec Ideal S2048x19 .i32) rCat) (View.ld (iblk m c 1 t : Vec Ideal S32x256 .bf16) rAM)
      (View.ld (iblk m c 2 t : Vec Ideal S112x256 .bf16) rTOS) (View.ld (iblk m c 3 t : Vec Ideal S256x256 .bf16) rWq)
      (View.ld (iblk m c 4 t : Vec Ideal S256 .f32) rB) (View.ld (iblk m c 5 t : Vec Ideal S256 .f32) rB) (ix2 r o)
    = Gv (idxArr m c) (amArr m c) (tosArr m c) (wqArr m c) (bpArr m c) (boArr m c) (((cfg0.win 6).blk t).view.emb (ix2 r o))
  rw [he]
  refine (bodyVal_blocks (iblk m c 0 t : Vec Ideal S2048x19 .i32) (iblk m c 1 t : Vec Ideal S32x256 .bf16)
    (iblk m c 2 t : Vec Ideal S112x256 .bf16) (iblk m c 3 t : Vec Ideal S256x256 .bf16) (iblk m c 4 t : Vec Ideal S256 .f32)
    (iblk m c 5 t : Vec Ideal S256 .f32) (fun r p => by rw [hx]; exact hI.aff _ p) (fun r p => by rw [hx]; exact hI.mat _ p)
    (fun r => by rw [hx]; exact hI.task _) (fun r => by rw [hx]; exact hI.obj _) (fun r => by rw [hx]; exact hI.state _) r o).trans ?_
  rw [am_block, tos_block, wq_block, bp_block, bo_block]
  simp only [hx]
  rfl

/-- An index of the result array is in point t's block iff each coordinate is in the block's range on its axis. -/
theorem mem_block6 (t : Fin cfg0.N) (i : S32768x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v26).slice (win0_6.rect t)).set ↔ _
  rw [View.set_slice_whole, Rect.mem_set_unit]
  exact Iff.rfl

/-- The sixteen row blocks tile the result array: row b is in block b / 2048. -/
theorem cover6 (i : S32768x256.Idx) : ∃ t : Fin cfg0.N, (cfg0.win 6).flush t = true ∧ i ∈ ((cfg0.win 6).blk t).view.set := by
  have hN : cfg0.N = 16 := N_0
  have hi0 : (i 0).val < 32768 := (i 0).isLt
  have hi1 : (i 1).val < 256 := (i 1).isLt
  refine ⟨⟨(i 0).val / 2048, by rw [hN]; omega⟩, flush0_6 _, ?_⟩
  obtain ⟨-, -, i60, i61, -⟩ := block_index ⟨(i 0).val / 2048, by rw [hN]; omega⟩
  rw [mem_block6]
  intro a
  match a with
  | ⟨0, _⟩ =>
    show win0_6.index _ (0 : Fin 2) * 2048 ≤ (i 0).val ∧ (i 0).val < win0_6.index _ (0 : Fin 2) * 2048 + 2048
    rw [i60]; show (i 0).val / 2048 * 2048 ≤ (i 0).val ∧ (i 0).val < (i 0).val / 2048 * 2048 + 2048; omega
  | ⟨1, _⟩ =>
    show win0_6.index _ (1 : Fin 2) * 256 ≤ (i 1).val ∧ (i 1).val < win0_6.index _ (1 : Fin 2) * 256 + 256
    rw [i61]; omega

/-- The result array after the run: every row's value over the arrays the region finds. -/
theorem final6 (c : Dev nD) (hI : IdxInRange (idxArr m c)) :
    (dats m 0 c).arrAt 6 cfg0.N = Gv (idxArr m c) (amArr m c) (tosArr m c) (wqArr m c) (bpArr m c) (boArr m c) :=
  (dats m 0 c).arrAt_eq_of_cover 6 _ (fun t _ => flushed_eq m c hI t) cover6

/-! ## The arrays the region finds, from the arguments -/

/-- What the region finds in a buffer is what the host operations left there. -/
theorem V_eq_hostV (c : Dev nD) (b : Ref sig .tc) : V m c b = hostV m c b := rfl

/-- Indices in range in the arguments are in range in the merged index array. -/
theorem idx_in_range (c : Dev nD) (hR : Cert.Spec.InRange
      (fun b p => (m ((c.tc : Thread nD τ).loc main_arg0) : IVec S32768x8 32) (ix2 b p))
      (fun b p => (m ((c.tc : Thread nD τ).loc main_arg1) : IVec S32768x8 32) (ix2 b p))
      (fun b => (m ((c.tc : Thread nD τ).loc main_arg2) : IVec S32768 32) (ix1 b))
      (fun b => (m ((c.tc : Thread nD τ).loc main_arg3) : IVec S32768 32) (ix1 b))
      (fun b => (m ((c.tc : Thread nD τ).loc main_arg4) : IVec S32768 32) (ix1 b))) : IdxInRange (idxArr m c) where
  aff b p := by
    show ((hostV m c main_v4 : S32768x19.Idx → BitVec 32) (ix2 b (⟨p.val, by omega⟩ : Fin 19))).toNat < 16
    rw [host_idx_aff]; exact hR.aff b p
  mat b p := by
    show ((hostV m c main_v4 : S32768x19.Idx → BitVec 32) (ix2 b (⟨8 + p.val, by omega⟩ : Fin 19))).toNat < 16
    rw [host_idx_mat]; exact hR.mat b p
  task b := by
    show ((hostV m c main_v4 : S32768x19.Idx → BitVec 32) (ix2 b (⟨16, by omega⟩ : Fin 19))).toNat < 16
    rw [host_idx_task]; exact hR.task b
  obj b := by
    show ((hostV m c main_v4 : S32768x19.Idx → BitVec 32) (ix2 b (⟨17, by omega⟩ : Fin 19))).toNat < 64
    rw [host_idx_obj]; exact hR.obj b
  state b := by
    show ((hostV m c main_v4 : S32768x19.Idx → BitVec 32) (ix2 b (⟨18, by omega⟩ : Fin 19))).toNat < 32
    rw [host_idx_state]; exact hR.state b

/-- The row values over the arrays the region finds are the encoder with the tables pushed through the layers, of the
    arguments: the index array's columns are the index arguments, the stacked tables are the embedding tables through
    their slices of the layers, the biases are the bias arguments. -/
theorem Gv_args (c : Dev nD) (b : Fin 32768) (o : Fin 256) :
    GvAt (idxArr m c) (amArr m c) (tosArr m c) (wqArr m c) (bpArr m c) (boArr m c) b o
      = Cert.Spec.Gk
          (fun b p => (m ((c.tc : Thread nD τ).loc main_arg0) : IVec S32768x8 32) (ix2 b p))
          (fun b p => (m ((c.tc : Thread nD τ).loc main_arg1) : IVec S32768x8 32) (ix2 b p))
          (fun b => (m ((c.tc : Thread nD τ).loc main_arg2) : IVec S32768 32) (ix1 b))
          (fun b => (m ((c.tc : Thread nD τ).loc main_arg3) : IVec S32768 32) (ix1 b))
          (fun b => (m ((c.tc : Thread nD τ).loc main_arg4) : IVec S32768 32) (ix1 b))
          (fun v k => (m ((c.tc : Thread nD τ).loc main_arg5) : S16x64.Idx → EReal) (ix2 v k))
          (fun v k => (m ((c.tc : Thread nD τ).loc main_arg6) : S16x64.Idx → EReal) (ix2 v k))
          (fun v k => (m ((c.tc : Thread nD τ).loc main_arg7) : S16x64.Idx → EReal) (ix2 v k))
          (fun v k => (m ((c.tc : Thread nD τ).loc main_arg8) : S64x64.Idx → EReal) (ix2 v k))
          (fun v k => (m ((c.tc : Thread nD τ).loc main_arg9) : S32x64.Idx → EReal) (ix2 v k))
          (fun o j => (m ((c.tc : Thread nD τ).loc main_arg10) : S256x128.Idx → EReal) (ix2 o j))
          (fun o => (m ((c.tc : Thread nD τ).loc main_arg11) : S256.Idx → EReal) (ix1 o))
          (fun o j => (m ((c.tc : Thread nD τ).loc main_arg12) : S256x448.Idx → EReal) (ix2 o j))
          (fun o => (m ((c.tc : Thread nD τ).loc main_arg13) : S256.Idx → EReal) (ix1 o))
          b o := by
  refine Eq.trans ?_ (Cert.Bridge.Gk_rows _ _ _ _ _ _ _ _ _ _ _ _ _ _ b o).symm
  unfold GvAt
  have eA : (fun p : Fin 8 => idxArr m c (ix2 b (⟨p.val, by omega⟩ : Fin 19)))
      = (fun p => (m ((c.tc : Thread nD τ).loc main_arg0) : IVec S32768x8 32) (ix2 b p)) := funext fun p => host_idx_aff m c b p
  have eM : (fun p : Fin 8 => idxArr m c (ix2 b (⟨8 + p.val, by omega⟩ : Fin 19)))
      = (fun p => (m ((c.tc : Thread nD τ).loc main_arg1) : IVec S32768x8 32) (ix2 b p)) := funext fun p => host_idx_mat m c b p
  have eT : idxArr m c (ix2 b (⟨16, by omega⟩ : Fin 19)) = (m ((c.tc : Thread nD τ).loc main_arg2) : IVec S32768 32) (ix1 b) := host_idx_task m c b
  have eO : idxArr m c (ix2 b (⟨17, by omega⟩ : Fin 19)) = (m ((c.tc : Thread nD τ).loc main_arg3) : IVec S32768 32) (ix1 b) := host_idx_obj m c b
  have eS : idxArr m c (ix2 b (⟨18, by omega⟩ : Fin 19)) = (m ((c.tc : Thread nD τ).loc main_arg4) : IVec S32768 32) (ix1 b) := host_idx_state m c b
  have eAM : (fun (j : Fin 32) (k : Fin 256) => amArr m c (ix2 j k))
      = Cert.Spec.AMtab (fun v k => (m ((c.tc : Thread nD τ).loc main_arg5) : S16x64.Idx → EReal) (ix2 v k)) (fun v k => (m ((c.tc : Thread nD τ).loc main_arg6) : S16x64.Idx → EReal) (ix2 v k))
          (fun o j => (m ((c.tc : Thread nD τ).loc main_arg10) : S256x128.Idx → EReal) (ix2 o j)) := funext fun j => funext fun k => host_AM m c j k
  have eTOS : (fun (j : Fin 112) (o : Fin 256) => tosArr m c (ix2 j o))
      = Cert.Spec.TOStab (fun v k => (m ((c.tc : Thread nD τ).loc main_arg7) : S16x64.Idx → EReal) (ix2 v k)) (fun v k => (m ((c.tc : Thread nD τ).loc main_arg8) : S64x64.Idx → EReal) (ix2 v k))
          (fun v k => (m ((c.tc : Thread nD τ).loc main_arg9) : S32x64.Idx → EReal) (ix2 v k)) (fun o j => (m ((c.tc : Thread nD τ).loc main_arg12) : S256x448.Idx → EReal) (ix2 o j)) :=
    funext fun j => funext fun o => host_TOS m c j o
  have eWq : (fun (o k : Fin 256) => wqArr m c (ix2 o k))
      = Cert.Spec.Wq (fun o j => (m ((c.tc : Thread nD τ).loc main_arg12) : S256x448.Idx → EReal) (ix2 o j)) := funext fun o => funext fun k => host_Wq m c o k
  have eBp : (fun k : Fin 256 => bpArr m c (ix1 k)) = (fun o => (m ((c.tc : Thread nD τ).loc main_arg11) : S256.Idx → EReal) (ix1 o)) :=
    funext fun k => congrFun (V_main_arg11 m c) (ix1 k)
  have eBo : (fun o : Fin 256 => boArr m c (ix1 o)) = (fun o => (m ((c.tc : Thread nD τ).loc main_arg13) : S256.Idx → EReal) (ix1 o)) :=
    funext fun o => congrFun (V_main_arg13 m c) (ix1 o)
  rw [eA, eM, eT, eO, eS, eAM, eTOS, eWq, eBp, eBo]

/-! ## The run, read -/

/-- The run of the idealized kernel program, read: when every index names a row of its table, the result array ends at
    the encoder with the tables pushed through the layers, at every row and column, and every argument as launched. -/
theorem kernel_value
    (hR : ∀ c : Dev nD, Cert.Spec.InRange
      (fun b p => (m ((c.tc : Thread nD τ).loc main_arg0) : IVec S32768x8 32) (ix2 b p))
      (fun b p => (m ((c.tc : Thread nD τ).loc main_arg1) : IVec S32768x8 32) (ix2 b p))
      (fun b => (m ((c.tc : Thread nD τ).loc main_arg2) : IVec S32768 32) (ix1 b))
      (fun b => (m ((c.tc : Thread nD τ).loc main_arg3) : IVec S32768 32) (ix1 b))
      (fun b => (m ((c.tc : Thread nD τ).loc main_arg4) : IVec S32768 32) (ix1 b))) :
    θ_run defs (onTc (τ := τ) (main (F := Ideal))) ⟨m, fun _ => 0, ρ⟩ (fun r => ∀ c : Dev nD,
      (r.2.mem ((c.tc : Thread nD τ).loc main_v26) : S32768x256.Idx → EReal) = (fun i => Cert.Spec.Gk
          (fun b p => (m ((c.tc : Thread nD τ).loc main_arg0) : IVec S32768x8 32) (ix2 b p))
          (fun b p => (m ((c.tc : Thread nD τ).loc main_arg1) : IVec S32768x8 32) (ix2 b p))
          (fun b => (m ((c.tc : Thread nD τ).loc main_arg2) : IVec S32768 32) (ix1 b))
          (fun b => (m ((c.tc : Thread nD τ).loc main_arg3) : IVec S32768 32) (ix1 b))
          (fun b => (m ((c.tc : Thread nD τ).loc main_arg4) : IVec S32768 32) (ix1 b))
          (fun v k => (m ((c.tc : Thread nD τ).loc main_arg5) : S16x64.Idx → EReal) (ix2 v k))
          (fun v k => (m ((c.tc : Thread nD τ).loc main_arg6) : S16x64.Idx → EReal) (ix2 v k))
          (fun v k => (m ((c.tc : Thread nD τ).loc main_arg7) : S16x64.Idx → EReal) (ix2 v k))
          (fun v k => (m ((c.tc : Thread nD τ).loc main_arg8) : S64x64.Idx → EReal) (ix2 v k))
          (fun v k => (m ((c.tc : Thread nD τ).loc main_arg9) : S32x64.Idx → EReal) (ix2 v k))
          (fun o j => (m ((c.tc : Thread nD τ).loc main_arg10) : S256x128.Idx → EReal) (ix2 o j))
          (fun o => (m ((c.tc : Thread nD τ).loc main_arg11) : S256.Idx → EReal) (ix1 o))
          (fun o j => (m ((c.tc : Thread nD τ).loc main_arg12) : S256x448.Idx → EReal) (ix2 o j))
          (fun o => (m ((c.tc : Thread nD τ).loc main_arg13) : S256.Idx → EReal) (ix1 o))
          (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1 6).trans ((final6 m c (idx_in_range m c (hR c))).trans
        (funext fun i => Gv_args m c (i 0) (i 1))),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 4).trans (((dats m 0 c).arrAt_in 4 rfl _).trans ((A_eq m c 4).trans (V_main_arg11 m c))),
      ((h c).2 main_arg12 (Pipeline.mem_restRefs_of main_arg12 (by decide) (by decide))).trans (V_main_arg12 m c),
      ((h c).1 5).trans (((dats m 0 c).arrAt_in 5 rfl _).trans ((A_eq m c 5).trans (V_main_arg13 m c)))⟩)
    (run_main m ρ)

end Cert.KernelIdeal.Hand

end
-- ==== Proof.LibGatherRows3.lean ====
/-
  jax's gather of table rows at a two-dimensional array of indices, read at an index, for any extents.
  The table[idx] of an N x D table at an R x P array of start indices (carried as R x P x 1) is, at (r, p, j),
  the table's entry (idx r p, j) with the start index read signed and clamped into the table's rows.
-/
import Idealize.ShloMosaic.PureOps
import Idealize.ShloMosaic.Lib.ValueIdx

noncomputable section

namespace Cert.LibGatherRows3

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx] with a two-dimensional index array: operand N x D, start indices
    R x P x 1, result R x P x D; the row axis is collapsed and indexed, the column axis is the offset axis
    (the result's last axis), whole rows are sliced. -/
abbrev rowTake3Dims (N D R P : Nat)
    (wf : GatherDims.WF ⟨2, ![N, D]⟩ ⟨3, ![R, P, 1]⟩ ⟨3, ![R, P, D]⟩ [2] [0] [] [0] [] 2 ![1, D]) :
    GatherDims ⟨2, ![N, D]⟩ ⟨3, ![R, P, 1]⟩ ⟨3, ![R, P, D]⟩ where
  offsetDims := [2]
  collapsedSliceDims := [0]
  operandBatchingDims := []
  startIndicesBatchingDims := []
  startIndexMap := [0]
  indexVectorDim := 2
  sliceSizes := ![1, D]
  wf := wf

/-- The gathered rows read at (r, p, j): the table at the clamped start index of position (r, p), column j. -/
theorem gather_rows3_apply {N D R P w : Nat} (hN : 0 < N)
    (wf : GatherDims.WF ⟨2, ![N, D]⟩ ⟨3, ![R, P, 1]⟩ ⟨3, ![R, P, D]⟩ [2] [0] [] [0] [] 2 ![1, D])
    (x : (⟨2, ![N, D]⟩ : Shape).Idx → α) (idx : IVec ⟨3, ![R, P, 1]⟩ w) (r : Fin R) (p : Fin P) (j : Fin D) :
    Host.gather (rowTake3Dims N D R P wf) x idx (ix3 r p j)
      = x (ix2 (⟨min (idx (ix3 r p (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of position (r, p), clamped to N - 1 (rows minus the slice size 1)
    show (rowTake3Dims N D R P wf).start (ix3 r p j) idx 0 + (rowTake3Dims N D R P wf).batchCoord (ix3 r p j) 0
      + (rowTake3Dims N D R P wf).offCoord (ix3 r p j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake3Dims N D R P wf).startIndexMap from List.mem_singleton.mpr rfl)]
    -- the start index is read at (r, p, 0): r and p from the result's batch axes 0 and 1, and component 0 on the
    -- index vector's axis 2
    have hsi : (rowTake3Dims N D R P wf).siIdx (ix3 r p j)
        ⟨List.idxOf (0 : Fin 2) (rowTake3Dims N D R P wf).startIndexMap,
          List.idxOf_lt_length_iff.2 (List.mem_singleton.mpr rfl)⟩ = ix3 r p (0 : Fin 1) := by
      funext b; refine Fin.ext ?_
      match b with
      | ⟨0, _⟩ => rfl
      | ⟨1, _⟩ => rfl
      | ⟨2, _⟩ => rfl
    rw [hsi]
    rfl
  | ⟨1, _⟩ =>
    -- axis 1, the table's columns: the offset axis. It is not in the start index map, so the start is 0; no batching
    -- axes; it is the only kept operand axis, paired with the result's offset axis 2, whose coordinate is j
    show (rowTake3Dims N D R P wf).start (ix3 r p j) idx 1 + (rowTake3Dims N D R P wf).batchCoord (ix3 r p j) 1
      + (rowTake3Dims N D R P wf).offCoord (ix3 r p j) 1 = j.val
    rw [GatherDims.batchCoord_eq_zero _ _ _ List.not_mem_nil]
    unfold GatherDims.start
    rw [dif_neg (show (1 : Fin 2) ∉ (rowTake3Dims N D R P wf).startIndexMap from one_notMem_zero)]
    unfold GatherDims.offCoord
    rw [dif_pos (show (1 : Fin 2) ∈ (rowTake3Dims N D R P wf).sKept from
      (GatherDims.mem_sKept _ _).mpr ⟨one_notMem_zero, List.not_mem_nil⟩)]
    simp only [Nat.zero_add]
    rfl

end Cert.LibGatherRows3

end
-- ==== Proof.RefPool.lean ====
/-
  The reference's part pool read at an index: the maximum over the eight parts of a part's encoding, the part's
  input being its two looked-up embedding rows laid side by side.
-/
import proofs.«423634_j39307540693438_3_alg».proof.Proof.RefRead
import proofs.«423634_j39307540693438_3_alg».proof.Proof.LibGatherRows3
import proofs.«423634_j39307540693438_3_alg».proof.Proof.Spec
import Idealize.ShloMosaic.PureOps.Reduce
import Idealize.ShloMosaic.PureOps.Ideal.Laws
import Idealize.ShloMosaic.Lib.Pipeline.Value
import Idealize.ShloMosaic.Lib.ValueIdx

noncomputable section
namespace Cert.ReferenceIdeal.RefValue
open Cert.ReferenceIdeal Cert.ReferenceIdeal.Gen Cert.ReferenceIdeal.ReadP Idealize.ShloMosaic Idealize.ShloMosaic.ValueIdx

namespace Pool

/-! ## Index words in range -/

/-- A word below 64 is not negative as a signed word. -/
theorem slt_zero_of_small (w : BitVec 32) (h : w.toNat < 64) : IntOp.cmpi .slt w 0#32 = 0#1 := by
  unfold IntOp.cmpi
  have hs : w.slt 0#32 = false := by
    simp only [BitVec.slt, BitVec.toInt_eq_toNat_cond]
    simp
    omega
  show BitVec.ofBool (w.slt 0#32) = 0#1
  rw [hs]; rfl

/-- A word below 64 read signed is its number. -/
theorem toInt_toNat_of_small (w : BitVec 32) (h : w.toNat < 64) : w.toInt.toNat = w.toNat := by
  rw [BitVec.toInt_eq_toNat_of_lt (by omega)]
  exact Int.toNat_natCast _

/-- The wrap of a negative index leaves an index in range alone. -/
theorem wrap_of_small (w c : BitVec 32) (h : w.toNat < 64) :
    Scalar.select (IntOp.cmpi .slt w 0#32) (IntOp.addi w c) w = w := by
  rw [slt_zero_of_small w h]; exact select_zero _ _

/-- The clamped row of a word below 16 in a table of 16 rows is the row the word names. -/
theorem clampRow16 (w : BitVec 32) (h : w.toNat < 16) (hlt : min w.toInt.toNat (16 - 1) < 16) :
    (⟨min w.toInt.toNat (16 - 1), hlt⟩ : Fin 16) = Cert.Spec.row16 w := by
  refine Fin.ext ?_
  show min w.toInt.toNat (16 - 1) = w.toNat % 16
  rw [toInt_toNat_of_small w (by omega)]
  omega

/-- A table of 16 rows read at the clamped row of a word that is a word below 16: the row that word names. -/
theorem row16_read (x : (⟨S16x64, .f32⟩ : BufTy).Contents (Elt Ideal)) (w w' : BitVec 32) (e : w = w') (h : w'.toNat < 16)
    (j : Fin 64) (hlt : min w.toInt.toNat (16 - 1) < 16) :
    x (ix2 (⟨min w.toInt.toNat (16 - 1), hlt⟩ : Fin 16) j) = x (ix2 (Cert.Spec.row16 w') j) := by
  subst e
  rw [clampRow16 _ h]

/-! ## The maximum over the parts -/

/-- Dropping axis 1 of a 32768 x 8 x 256 array leaves a 32768 x 256 one. -/
theorem reduces_d1 : S32768x8x256.Reduces [1] S32768x256 := by decide

/-- The pattern of minus infinity denotes bottom. -/
theorem ofBits_negInf_f32 : Ideal.ofBits .f32 0xFF800000#32 = ⊥ := by simp [Ideal.ofBits, Ideal.ieee]

/-- The index (b, k) with the part p inserted on the dropped axis is (b, p, k). -/
theorem lift_d1 (b : Fin 32768) (k : Fin 256) (p : Fin 8) : reduces_d1.lift (ix2 b k) p = ix3 b p k := by
  funext a
  match a with
  | ⟨0, _⟩ => rfl
  | ⟨1, _⟩ => rfl
  | ⟨2, _⟩ => rfl

/-- The reduce over the parts' axis at (b, k): the fold of max from bottom over the eight parts of the clamped stage at (b, p, k). -/
theorem v20_fold (x0 x1 : (⟨S32768x8, .i32⟩ : BufTy).Contents (Elt Ideal)) (x5 x6 : (⟨S16x64, .f32⟩ : BufTy).Contents (Elt Ideal))
    (x10 : (⟨S256x128, .f32⟩ : BufTy).Contents (Elt Ideal)) (x11 : (⟨S256, .f32⟩ : BufTy).Contents (Elt Ideal))
    (b : Fin 32768) (k : Fin 256) :
    ReadP.val_main_v20 (F := Ideal) x0 x1 x5 x6 x10 x11 (ix2 b k)
      = Finset.univ.fold max ⊥ (fun p : Fin 8 => ReadP.val_main_v19 (F := Ideal) x0 x1 x5 x6 x10 x11 (ix3 b p k)) := by
  unfold ReadP.val_main_v20
  rw [Host.reduce_eq_fold_single FloatOps.maximumf _ _ reducesTo_S32768x8x256_S32768x256_d1 reduces_d1 h_S_ (ix2 b k)]
  show (Finset.univ : Finset (Fin 8)).fold max (Ideal.ofBits .f32 0xFF800000#32)
      (fun p : Fin 8 => ReadP.val_main_v19 (F := Ideal) x0 x1 x5 x6 x10 x11 (reduces_d1.lift (ix2 b k) p)) = _
  rw [ofBits_negInf_f32]
  simp only [lift_d1]

/-! ## A part's encoding -/

/-- The bias broadcast twice reads the bias at the last coordinate. -/
theorem idx17 (b : Fin 32768) (p : Fin 8) (k : Fin 256) : idx_main_v16 (idx_main_v17 (ix3 b p k)) = ix1 k := by
  funext a
  match a with
  | ⟨0, _⟩ => rfl

/-- The broadcast bias at (b, p, k) is the bias at k. -/
theorem v17_at (x11 : (⟨S256, .f32⟩ : BufTy).Contents (Elt Ideal)) (b : Fin 32768) (p : Fin 8) (k : Fin 256) :
    ReadP.val_main_v17 (F := Ideal) x11 (ix3 b p k) = x11 (ix1 k) := by
  rw [val_main_v17_apply, val_main_v16_apply, idx17]

/-- The left operand of the part layer's product is read at (b, p, j). -/
theorem lidx15 (b : Fin 32768) (p : Fin 8) (k : Fin 256) (j : Fin 128) : lidx_main_v15 (ix3 b p k) j = ix3 b p j := by
  funext a
  match a with
  | ⟨0, _⟩ => rfl
  | ⟨1, _⟩ => rfl
  | ⟨2, _⟩ => rfl

/-- The right operand of the part layer's product is read at (k, j). -/
theorem ridx15 (b : Fin 32768) (p : Fin 8) (k : Fin 256) (j : Fin 128) : ridx_main_v15 (ix3 b p k) j = ix2 k j := by
  funext a
  match a with
  | ⟨0, _⟩ => rfl
  | ⟨1, _⟩ => rfl

/-- The clamp's constant is zero everywhere. -/
theorem relu0_at (i : S32768x8x256.Idx) : ReadP.val_main_call0_v0 (F := Ideal) i = 0 := by
  rw [val_main_call0_v0_apply, val_main_call0_cst_apply]
  exact Ideal.ofBits_zero_f32

/-! ## A part's input -/

/-- The concatenation on the last axis at (b, p, j): the first array at column j below 64, the second at column j - 64 from 64 on. -/
theorem v14_at (x0 x1 : (⟨S32768x8, .i32⟩ : BufTy).Contents (Elt Ideal)) (x5 x6 : (⟨S16x64, .f32⟩ : BufTy).Contents (Elt Ideal))
    (b : Fin 32768) (p : Fin 8) (j : Fin 128) :
    ReadP.val_main_v14 (F := Ideal) x0 x1 x5 x6 (ix3 b p j)
      = if h : j.val < 64 then ReadP.val_main_v6 (F := Ideal) x0 x5 (ix3 b p (⟨j.val, h⟩ : Fin 64))
        else ReadP.val_main_v13 (F := Ideal) x1 x6 (ix3 b p (⟨j.val - 64, by omega⟩ : Fin 64)) := by
  unfold ReadP.val_main_v14
  by_cases h : j.val < 64
  · rw [dif_pos h]
    exact concatenate_pair_apply_left _ _ _ concatenates_S32768x8x64_S32768x8x64_S32768x8x128_d2 (ix3 b p j) rfl
      (ix3 b p (⟨j.val, h⟩ : Fin 64)) (fun a => match a with | ⟨0, _⟩ => rfl | ⟨1, _⟩ => rfl | ⟨2, _⟩ => rfl)
  · rw [dif_neg h]
    exact concatenate_pair_apply_right _ _ _ concatenates_S32768x8x64_S32768x8x64_S32768x8x128_d2 (ix3 b p j) rfl rfl
      (ix3 b p (⟨j.val - 64, by omega⟩ : Fin 64))
      (fun a ha => match a, ha with
        | ⟨0, _⟩, _ => rfl
        | ⟨1, _⟩, _ => rfl
        | ⟨2, _⟩, ha => absurd rfl ha)
      (by show j.val - 64 + 64 = j.val; omega)

/-- The program's dimension numbers of the gather at a 32768 x 8 index array are those of table[idx]. -/
theorem gdims_eq : gather_S16x64_S32768x8x1_S32768x8x64_2_0_n_n_0_2_164
    = Cert.LibGatherRows3.rowTake3Dims 16 64 32768 8 gather_S16x64_S32768x8x1_S32768x8x64_2_0_n_n_0_2_164_wf := rfl

/-- The index array carried as 32768 x 8 x 1 reads the 32768 x 8 one at (b, p). -/
theorem idx5 (b : Fin 32768) (p : Fin 8) : idx_main_v5 (ix3 b p (0 : Fin 1)) = ix2 b p := by
  funext a
  match a with
  | ⟨0, _⟩ => rfl
  | ⟨1, _⟩ => rfl

/-- The wrapped affordance index is the index itself, which is in range. -/
theorem v4_at (x0 : (⟨S32768x8, .i32⟩ : BufTy).Contents (Elt Ideal)) (h0 : ∀ (b : Fin 32768) (p : Fin 8), (x0 (ix2 b p)).toNat < 16)
    (b : Fin 32768) (p : Fin 8) : ReadP.val_main_v4 (F := Ideal) x0 (ix2 b p) = x0 (ix2 b p) := by
  rw [val_main_v4_apply, val_main_v1_apply, val_main_v3_apply, val_main_v0_apply, val_main_c_apply]
  exact wrap_of_small _ _ (by have := h0 b p; omega)

/-- The wrapped material index is the index itself, which is in range. -/
theorem v11_at (x1 : (⟨S32768x8, .i32⟩ : BufTy).Contents (Elt Ideal)) (h1 : ∀ (b : Fin 32768) (p : Fin 8), (x1 (ix2 b p)).toNat < 16)
    (b : Fin 32768) (p : Fin 8) : ReadP.val_main_v11 (F := Ideal) x1 (ix2 b p) = x1 (ix2 b p) := by
  rw [val_main_v11_apply, val_main_v8_apply, val_main_v10_apply, val_main_v7_apply, val_main_c_1_apply]
  exact wrap_of_small _ _ (by have := h1 b p; omega)

/-- The gathered affordance rows at (b, p, j): the table at the row the index names, column j. -/
theorem v6_at (x0 : (⟨S32768x8, .i32⟩ : BufTy).Contents (Elt Ideal)) (x5 : (⟨S16x64, .f32⟩ : BufTy).Contents (Elt Ideal))
    (h0 : ∀ (b : Fin 32768) (p : Fin 8), (x0 (ix2 b p)).toNat < 16) (b : Fin 32768) (p : Fin 8) (j : Fin 64) :
    ReadP.val_main_v6 (F := Ideal) x0 x5 (ix3 b p j) = x5 (ix2 (Cert.Spec.row16 (x0 (ix2 b p))) j) := by
  unfold ReadP.val_main_v6
  rw [gdims_eq, Cert.LibGatherRows3.gather_rows3_apply (by decide)]
  exact row16_read x5 _ _ (by rw [val_main_v5_apply, idx5, v4_at x0 h0]) (h0 b p) j _

/-- The gathered material rows at (b, p, j): the table at the row the index names, column j. -/
theorem v13_at (x1 : (⟨S32768x8, .i32⟩ : BufTy).Contents (Elt Ideal)) (x6 : (⟨S16x64, .f32⟩ : BufTy).Contents (Elt Ideal))
    (h1 : ∀ (b : Fin 32768) (p : Fin 8), (x1 (ix2 b p)).toNat < 16) (b : Fin 32768) (p : Fin 8) (j : Fin 64) :
    ReadP.val_main_v13 (F := Ideal) x1 x6 (ix3 b p j) = x6 (ix2 (Cert.Spec.row16 (x1 (ix2 b p))) j) := by
  unfold ReadP.val_main_v13
  rw [gdims_eq, Cert.LibGatherRows3.gather_rows3_apply (by decide)]
  exact row16_read x6 _ _ (by
    rw [val_main_v12_apply, show idx_main_v12 (ix3 b p (0 : Fin 1)) = ix2 b p from idx5 b p, v11_at x1 h1]) (h1 b p) j _

/-- The concatenated rows at (b, p, j) are the part's input. -/
theorem v14_partIn (x0 x1 : (⟨S32768x8, .i32⟩ : BufTy).Contents (Elt Ideal)) (x5 x6 : (⟨S16x64, .f32⟩ : BufTy).Contents (Elt Ideal))
    (h0 : ∀ (b : Fin 32768) (p : Fin 8), (x0 (ix2 b p)).toNat < 16) (h1 : ∀ (b : Fin 32768) (p : Fin 8), (x1 (ix2 b p)).toNat < 16)
    (b : Fin 32768) (p : Fin 8) (j : Fin 128) :
    ReadP.val_main_v14 (F := Ideal) x0 x1 x5 x6 (ix3 b p j)
      = Cert.Spec.partIn (fun b p => x0 (ix2 b p)) (fun b p => x1 (ix2 b p)) (fun v k => x5 (ix2 v k)) (fun v k => x6 (ix2 v k)) b p j := by
  rw [v14_at]
  unfold Cert.Spec.partIn
  by_cases h : j.val < 64
  · rw [dif_pos h, dif_pos h, v6_at x0 x5 h0]
  · rw [dif_neg h, dif_neg h, v13_at x1 x6 h1]

/-- The clamped stage at (b, p, k) is the part's encoding: the part layer on the part's input, plus the bias, clamped at zero. -/
theorem v19_enc (x0 x1 : (⟨S32768x8, .i32⟩ : BufTy).Contents (Elt Ideal)) (x5 x6 : (⟨S16x64, .f32⟩ : BufTy).Contents (Elt Ideal))
    (x10 : (⟨S256x128, .f32⟩ : BufTy).Contents (Elt Ideal)) (x11 : (⟨S256, .f32⟩ : BufTy).Contents (Elt Ideal))
    (h0 : ∀ (b : Fin 32768) (p : Fin 8), (x0 (ix2 b p)).toNat < 16) (h1 : ∀ (b : Fin 32768) (p : Fin 8), (x1 (ix2 b p)).toNat < 16)
    (b : Fin 32768) (p : Fin 8) (k : Fin 256) :
    ReadP.val_main_v19 (F := Ideal) x0 x1 x5 x6 x10 x11 (ix3 b p k)
      = Cert.Spec.encR (fun b p => x0 (ix2 b p)) (fun b p => x1 (ix2 b p)) (fun v k => x5 (ix2 v k)) (fun v k => x6 (ix2 v k))
          (fun o j => x10 (ix2 o j)) (fun o => x11 (ix1 o)) b p k := by
  rw [val_main_v19_apply, val_main_v18_apply, val_main_v15_apply, v17_at, relu0_at]
  unfold Cert.Spec.encR
  simp only [lidx15, ridx15, v14_partIn x0 x1 x5 x6 h0 h1]
  rfl

end Pool

open Pool

/-- The reference's pooled stage at (b, k) is the maximum of the eight parts' encodings. -/
theorem pool_value (x0 x1 : (⟨S32768x8, .i32⟩ : BufTy).Contents (Elt Ideal)) (x5 x6 : (⟨S16x64, .f32⟩ : BufTy).Contents (Elt Ideal))
    (x10 : (⟨S256x128, .f32⟩ : BufTy).Contents (Elt Ideal)) (x11 : (⟨S256, .f32⟩ : BufTy).Contents (Elt Ideal))
    (h0 : ∀ (b : Fin 32768) (p : Fin 8), (x0 (ix2 b p)).toNat < 16) (h1 : ∀ (b : Fin 32768) (p : Fin 8), (x1 (ix2 b p)).toNat < 16)
    (b : Fin 32768) (k : Fin 256) :
    ReadP.val_main_v20 (F := Ideal) x0 x1 x5 x6 x10 x11 (ix2 b k)
      = Cert.Spec.poolR (fun b p => x0 (ix2 b p)) (fun b p => x1 (ix2 b p)) (fun v k => x5 (ix2 v k)) (fun v k => x6 (ix2 v k))
          (fun o j => x10 (ix2 o j)) (fun o => x11 (ix1 o)) b k := by
  rw [v20_fold]
  unfold Cert.Spec.poolR
  simp only [v19_enc x0 x1 x5 x6 x10 x11 h0 h1]

end Cert.ReferenceIdeal.RefValue
end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.RefOut.lean ====
/-
  The object layer of the reference, read at an index.

  The reference looks up, for a row b, the task, object and state embeddings (each index first wrapped as a negative
  index would be, then clamped into its table: both leave an index in range as it is), lays them end to end with the
  pooled part encoding (448 columns), multiplies by the transposed object layer, adds the bias and clamps at zero.

  Given that the pooled part encoding is the encoder's poolR, the result at (b, o) is the encoder as defined, Gr:
    max ((sum over j < 448 of objIn b j * W_obj o j) + b_obj o) 0,
  where objIn b is the task row (columns 0 to 63), the object row (64 to 127), the state row (128 to 191) and the pooled
  part encoding (192 to 447).

  Steps: three facts on 32-bit words (a word below 64 is not negative when read signed, so the wrap keeps it; read
  signed and clamped to N - 1 it is itself when below N); each lookup at (b, j) is the table's row named by the index;
  the concatenation at column j is the piece whose span holds j; the product with the transpose at (b, o) is the sum
  over the 448 columns.
-/
import proofs.«423634_j39307540693438_3_alg».proof.Proof.RefRead
import proofs.«423634_j39307540693438_3_alg».proof.Proof.LibGatherRows
import proofs.«423634_j39307540693438_3_alg».proof.Proof.Spec
import Idealize.ShloMosaic.Lib.Pipeline.Value
import Idealize.ShloMosaic.Lib.ValueIdx
import Idealize.ShloMosaic.PureOps.Ideal.Laws
import Mathlib.Algebra.BigOperators.Group.Finset.Basic

noncomputable section

namespace Cert.ReferenceIdeal.RefValue

open Cert.ReferenceIdeal Cert.ReferenceIdeal.Gen Cert.ReferenceIdeal.ReadP Idealize.ShloMosaic Idealize.ShloMosaic.ValueIdx

/-! ## Index words in range -/

/-- A word below 64 is not negative as a signed word. -/
theorem slt_zero_of_small (w : BitVec 32) (h : w.toNat < 64) : IntOp.cmpi .slt w 0#32 = 0#1 := by
  unfold IntOp.cmpi
  have : w.slt 0#32 = false := by
    rw [BitVec.slt, BitVec.toInt_eq_toNat_cond]
    simp
    omega
  simp [this]

/-- The wrap of a negative index leaves a word below 64 as it is. -/
theorem wrap_of_small (w c : BitVec 32) (h : w.toNat < 64) :
    Scalar.select (IntOp.cmpi .slt w 0#32) (IntOp.addi w c) w = w := by
  rw [slt_zero_of_small w h]
  unfold Scalar.select
  rw [if_neg (by decide)]

/-- A word below N, read signed and clamped into N rows, is itself. -/
theorem clamp_of_small (w : BitVec 32) (N : Nat) (hN : N ≤ 64) (h : w.toNat < N) :
    min w.toInt.toNat (N - 1) = w.toNat := by
  rw [BitVec.toInt_eq_toNat_cond]
  have : 2 * w.toNat < 2 ^ 32 := by omega
  rw [if_pos this]
  simp
  omega

/-! ## The three row lookups -/

theorem idx26_ix (b : Fin 32768) : idx_main_v26 (ix2 b (0 : Fin 1)) = ix1 b := by
  funext a; match a with | ⟨0, _⟩ => rfl

theorem idx33_ix (b : Fin 32768) : idx_main_v33 (ix2 b (0 : Fin 1)) = ix1 b := by
  funext a; match a with | ⟨0, _⟩ => rfl

theorem idx40_ix (b : Fin 32768) : idx_main_v40 (ix2 b (0 : Fin 1)) = ix1 b := by
  funext a; match a with | ⟨0, _⟩ => rfl

/-- The task index column at row b: the wrap leaves an index in range as it is. -/
theorem v26_at (x2 : (⟨S32768, .i32⟩ : BufTy).Contents (Elt Ideal)) (b : Fin 32768) (h : (x2 (ix1 b)).toNat < 16) :
    val_main_v26 (F := Ideal) x2 (ix2 b (0 : Fin 1)) = x2 (ix1 b) := by
  rw [val_main_v26_apply, idx26_ix, val_main_v25_apply, val_main_v22_apply, val_main_v21_apply, val_main_c_3_apply,
    val_main_v24_apply]
  exact wrap_of_small _ _ (by omega)

/-- The object index column at row b. -/
theorem v33_at (x3 : (⟨S32768, .i32⟩ : BufTy).Contents (Elt Ideal)) (b : Fin 32768) (h : (x3 (ix1 b)).toNat < 64) :
    val_main_v33 (F := Ideal) x3 (ix2 b (0 : Fin 1)) = x3 (ix1 b) := by
  rw [val_main_v33_apply, idx33_ix, val_main_v32_apply, val_main_v29_apply, val_main_v28_apply, val_main_c_5_apply,
    val_main_v31_apply]
  exact wrap_of_small _ _ h

/-- The state index column at row b. -/
theorem v40_at (x4 : (⟨S32768, .i32⟩ : BufTy).Contents (Elt Ideal)) (b : Fin 32768) (h : (x4 (ix1 b)).toNat < 32) :
    val_main_v40 (F := Ideal) x4 (ix2 b (0 : Fin 1)) = x4 (ix1 b) := by
  rw [val_main_v40_apply, idx40_ix, val_main_v39_apply, val_main_v36_apply, val_main_v35_apply, val_main_c_7_apply,
    val_main_v38_apply]
  exact wrap_of_small _ _ (by omega)

/-- The task embedding of row b, column j. -/
theorem v27_apply (x2 : (⟨S32768, .i32⟩ : BufTy).Contents (Elt Ideal)) (x7 : (⟨S16x64, .f32⟩ : BufTy).Contents (Elt Ideal))
    (b : Fin 32768) (j : Fin 64) (h : (x2 (ix1 b)).toNat < 16) :
    val_main_v27 (F := Ideal) x2 x7 (ix2 b j) = x7 (ix2 (Cert.Spec.row16 (x2 (ix1 b))) j) := by
  unfold val_main_v27
  refine (Cert.LibGatherRows.gather_rows_apply (N := 16) (D := 64) (R := 32768) (by decide)
    gather_S16x64_S32768x1_S32768x64_1_0_n_n_0_1_164_wf x7 (val_main_v26 (F := Ideal) x2) b j).trans ?_
  have hrow : (⟨min (val_main_v26 (F := Ideal) x2 (ix2 b (0 : Fin 1))).toInt.toNat (16 - 1), by omega⟩ : Fin 16)
      = Cert.Spec.row16 (x2 (ix1 b)) := Fin.ext (by
    show min _ _ = (x2 (ix1 b)).toNat % 16
    rw [v26_at x2 b h, clamp_of_small _ 16 (by decide) h, Nat.mod_eq_of_lt h])
  rw [hrow]

/-- The object embedding of row b, column j. -/
theorem v34_apply (x3 : (⟨S32768, .i32⟩ : BufTy).Contents (Elt Ideal)) (x8 : (⟨S64x64, .f32⟩ : BufTy).Contents (Elt Ideal))
    (b : Fin 32768) (j : Fin 64) (h : (x3 (ix1 b)).toNat < 64) :
    val_main_v34 (F := Ideal) x3 x8 (ix2 b j) = x8 (ix2 (Cert.Spec.row64 (x3 (ix1 b))) j) := by
  unfold val_main_v34
  refine (Cert.LibGatherRows.gather_rows_apply (N := 64) (D := 64) (R := 32768) (by decide)
    gather_S64x64_S32768x1_S32768x64_1_0_n_n_0_1_164_wf x8 (val_main_v33 (F := Ideal) x3) b j).trans ?_
  have hrow : (⟨min (val_main_v33 (F := Ideal) x3 (ix2 b (0 : Fin 1))).toInt.toNat (64 - 1), by omega⟩ : Fin 64)
      = Cert.Spec.row64 (x3 (ix1 b)) := Fin.ext (by
    show min _ _ = (x3 (ix1 b)).toNat % 64
    rw [v33_at x3 b h, clamp_of_small _ 64 (by decide) h, Nat.mod_eq_of_lt h])
  rw [hrow]

/-- The state embedding of row b, column j. -/
theorem v41_apply (x4 : (⟨S32768, .i32⟩ : BufTy).Contents (Elt Ideal)) (x9 : (⟨S32x64, .f32⟩ : BufTy).Contents (Elt Ideal))
    (b : Fin 32768) (j : Fin 64) (h : (x4 (ix1 b)).toNat < 32) :
    val_main_v41 (F := Ideal) x4 x9 (ix2 b j) = x9 (ix2 (Cert.Spec.row32 (x4 (ix1 b))) j) := by
  unfold val_main_v41
  refine (Cert.LibGatherRows.gather_rows_apply (N := 32) (D := 64) (R := 32768) (by decide)
    gather_S32x64_S32768x1_S32768x64_1_0_n_n_0_1_164_wf x9 (val_main_v40 (F := Ideal) x4) b j).trans ?_
  have hrow : (⟨min (val_main_v40 (F := Ideal) x4 (ix2 b (0 : Fin 1))).toInt.toNat (32 - 1), by omega⟩ : Fin 32)
      = Cert.Spec.row32 (x4 (ix1 b)) := Fin.ext (by
    show min _ _ = (x4 (ix1 b)).toNat % 32
    rw [v40_at x4 b h, clamp_of_small _ 32 (by decide) h, Nat.mod_eq_of_lt h])
  rw [hrow]

/-! ## The object layer's input: the four pieces of the concatenation -/

/-- Columns 0 to 63: the task embedding. -/
theorem v42_task (x0 x1 : (⟨S32768x8, .i32⟩ : BufTy).Contents (Elt Ideal)) (x2 x3 x4 : (⟨S32768, .i32⟩ : BufTy).Contents (Elt Ideal)) (x5 x6 x7 : (⟨S16x64, .f32⟩ : BufTy).Contents (Elt Ideal)) (x8 : (⟨S64x64, .f32⟩ : BufTy).Contents (Elt Ideal)) (x9 : (⟨S32x64, .f32⟩ : BufTy).Contents (Elt Ideal)) (x10 : (⟨S256x128, .f32⟩ : BufTy).Contents (Elt Ideal)) (x11 : (⟨S256, .f32⟩ : BufTy).Contents (Elt Ideal))
    (b : Fin 32768) (j : Fin 448) (hj : j.val < 64) :
    val_main_v42 (F := Ideal) x0 x1 x2 x3 x4 x5 x6 x7 x8 x9 x10 x11 (ix2 b j)
      = val_main_v27 (F := Ideal) x2 x7 (ix2 b ⟨j.val, hj⟩) := by
  unfold val_main_v42
  exact concatenate_apply_piece (1 : Fin S32768x448.rank) _ _ (ix2 b j) 0 (by show (0 : Nat) < 4; omega) S32768x64 _ rfl rfl 0 rfl
    (ix2 b ⟨j.val, hj⟩)
    (fun c hc => by match c, hc with
      | ⟨0, _⟩, _ => rfl
      | ⟨1, _⟩, hc => exact absurd rfl hc)
    (by show 0 + j.val = j.val; omega)

/-- Columns 64 to 127: the object embedding. -/
theorem v42_obj (x0 x1 : (⟨S32768x8, .i32⟩ : BufTy).Contents (Elt Ideal)) (x2 x3 x4 : (⟨S32768, .i32⟩ : BufTy).Contents (Elt Ideal)) (x5 x6 x7 : (⟨S16x64, .f32⟩ : BufTy).Contents (Elt Ideal)) (x8 : (⟨S64x64, .f32⟩ : BufTy).Contents (Elt Ideal)) (x9 : (⟨S32x64, .f32⟩ : BufTy).Contents (Elt Ideal)) (x10 : (⟨S256x128, .f32⟩ : BufTy).Contents (Elt Ideal)) (x11 : (⟨S256, .f32⟩ : BufTy).Contents (Elt Ideal))
    (b : Fin 32768) (j : Fin 448) (h1 : ¬ j.val < 64) (h2 : j.val < 128) :
    val_main_v42 (F := Ideal) x0 x1 x2 x3 x4 x5 x6 x7 x8 x9 x10 x11 (ix2 b j)
      = val_main_v34 (F := Ideal) x3 x8 (ix2 b ⟨j.val - 64, by omega⟩) := by
  unfold val_main_v42
  exact concatenate_apply_piece (1 : Fin S32768x448.rank) _ _ (ix2 b j) 1 (by show (1 : Nat) < 4; omega) S32768x64 _ rfl rfl 64 rfl
    (ix2 b ⟨j.val - 64, by omega⟩)
    (fun c hc => by match c, hc with
      | ⟨0, _⟩, _ => rfl
      | ⟨1, _⟩, hc => exact absurd rfl hc)
    (by show 64 + (j.val - 64) = j.val; omega)

/-- Columns 128 to 191: the state embedding. -/
theorem v42_state (x0 x1 : (⟨S32768x8, .i32⟩ : BufTy).Contents (Elt Ideal)) (x2 x3 x4 : (⟨S32768, .i32⟩ : BufTy).Contents (Elt Ideal)) (x5 x6 x7 : (⟨S16x64, .f32⟩ : BufTy).Contents (Elt Ideal)) (x8 : (⟨S64x64, .f32⟩ : BufTy).Contents (Elt Ideal)) (x9 : (⟨S32x64, .f32⟩ : BufTy).Contents (Elt Ideal)) (x10 : (⟨S256x128, .f32⟩ : BufTy).Contents (Elt Ideal)) (x11 : (⟨S256, .f32⟩ : BufTy).Contents (Elt Ideal))
    (b : Fin 32768) (j : Fin 448) (h2 : ¬ j.val < 128) (h3 : j.val < 192) :
    val_main_v42 (F := Ideal) x0 x1 x2 x3 x4 x5 x6 x7 x8 x9 x10 x11 (ix2 b j)
      = val_main_v41 (F := Ideal) x4 x9 (ix2 b ⟨j.val - 128, by omega⟩) := by
  unfold val_main_v42
  exact concatenate_apply_piece (1 : Fin S32768x448.rank) _ _ (ix2 b j) 2 (by show (2 : Nat) < 4; omega) S32768x64 _ rfl rfl 128 rfl
    (ix2 b ⟨j.val - 128, by omega⟩)
    (fun c hc => by match c, hc with
      | ⟨0, _⟩, _ => rfl
      | ⟨1, _⟩, hc => exact absurd rfl hc)
    (by show 128 + (j.val - 128) = j.val; omega)

/-- Columns 192 to 447: the pooled part encoding. -/
theorem v42_pool (x0 x1 : (⟨S32768x8, .i32⟩ : BufTy).Contents (Elt Ideal)) (x2 x3 x4 : (⟨S32768, .i32⟩ : BufTy).Contents (Elt Ideal)) (x5 x6 x7 : (⟨S16x64, .f32⟩ : BufTy).Contents (Elt Ideal)) (x8 : (⟨S64x64, .f32⟩ : BufTy).Contents (Elt Ideal)) (x9 : (⟨S32x64, .f32⟩ : BufTy).Contents (Elt Ideal)) (x10 : (⟨S256x128, .f32⟩ : BufTy).Contents (Elt Ideal)) (x11 : (⟨S256, .f32⟩ : BufTy).Contents (Elt Ideal))
    (b : Fin 32768) (j : Fin 448) (h3 : ¬ j.val < 192) :
    val_main_v42 (F := Ideal) x0 x1 x2 x3 x4 x5 x6 x7 x8 x9 x10 x11 (ix2 b j)
      = val_main_v20 (F := Ideal) x0 x1 x5 x6 x10 x11 (ix2 b ⟨j.val - 192, by omega⟩) := by
  unfold val_main_v42
  exact concatenate_apply_piece (1 : Fin S32768x448.rank) _ _ (ix2 b j) 3 (by show (3 : Nat) < 4; omega) S32768x256 _ rfl rfl 192 rfl
    (ix2 b ⟨j.val - 192, by omega⟩)
    (fun c hc => by match c, hc with
      | ⟨0, _⟩, _ => rfl
      | ⟨1, _⟩, hc => exact absurd rfl hc)
    (by show 192 + (j.val - 192) = j.val; omega)

/-- The object layer's input at row b, column j, is the encoder's. -/
theorem v42_objIn (x0 x1 : (⟨S32768x8, .i32⟩ : BufTy).Contents (Elt Ideal)) (x2 x3 x4 : (⟨S32768, .i32⟩ : BufTy).Contents (Elt Ideal)) (x5 x6 x7 : (⟨S16x64, .f32⟩ : BufTy).Contents (Elt Ideal)) (x8 : (⟨S64x64, .f32⟩ : BufTy).Contents (Elt Ideal)) (x9 : (⟨S32x64, .f32⟩ : BufTy).Contents (Elt Ideal)) (x10 : (⟨S256x128, .f32⟩ : BufTy).Contents (Elt Ideal)) (x11 : (⟨S256, .f32⟩ : BufTy).Contents (Elt Ideal))
    (hR : Cert.Spec.InRange (fun b p => x0 (ix2 b p)) (fun b p => x1 (ix2 b p)) (fun b => x2 (ix1 b))
      (fun b => x3 (ix1 b)) (fun b => x4 (ix1 b)))
    (hpool : ∀ (b : Fin 32768) (k : Fin 256), val_main_v20 (F := Ideal) x0 x1 x5 x6 x10 x11 (ix2 b k)
      = Cert.Spec.poolR (fun b p => x0 (ix2 b p)) (fun b p => x1 (ix2 b p)) (fun v k => x5 (ix2 v k))
          (fun v k => x6 (ix2 v k)) (fun o j => x10 (ix2 o j)) (fun o => x11 (ix1 o)) b k)
    (b : Fin 32768) (j : Fin 448) :
    val_main_v42 (F := Ideal) x0 x1 x2 x3 x4 x5 x6 x7 x8 x9 x10 x11 (ix2 b j)
      = Cert.Spec.objIn (fun b p => x0 (ix2 b p)) (fun b p => x1 (ix2 b p)) (fun b => x2 (ix1 b)) (fun b => x3 (ix1 b))
          (fun b => x4 (ix1 b)) (fun v k => x5 (ix2 v k)) (fun v k => x6 (ix2 v k)) (fun v k => x7 (ix2 v k))
          (fun v k => x8 (ix2 v k)) (fun v k => x9 (ix2 v k)) (fun o j => x10 (ix2 o j)) (fun o => x11 (ix1 o)) b j := by
  unfold Cert.Spec.objIn
  by_cases h1 : j.val < 64
  · rw [dif_pos h1, v42_task x0 x1 x2 x3 x4 x5 x6 x7 x8 x9 x10 x11 b j h1, v27_apply x2 x7 b _ (hR.task b)]
  · rw [dif_neg h1]
    by_cases h2 : j.val < 128
    · rw [dif_pos h2, v42_obj x0 x1 x2 x3 x4 x5 x6 x7 x8 x9 x10 x11 b j h1 h2, v34_apply x3 x8 b _ (hR.obj b)]
    · rw [dif_neg h2]
      by_cases h3 : j.val < 192
      · rw [dif_pos h3, v42_state x0 x1 x2 x3 x4 x5 x6 x7 x8 x9 x10 x11 b j h2 h3, v41_apply x4 x9 b _ (hR.state b)]
      · rw [dif_neg h3, v42_pool x0 x1 x2 x3 x4 x5 x6 x7 x8 x9 x10 x11 b j h3, hpool]

/-! ## The object layer -/

theorem lidx44_ix (b : Fin 32768) (o : Fin 256) (k : Fin 448) : lidx_main_v44 (ix2 b o) k = ix2 b k := by
  funext a; match a with
  | ⟨0, _⟩ => rfl
  | ⟨1, _⟩ => rfl

theorem ridx44_ix (b : Fin 32768) (o : Fin 256) (k : Fin 448) : ridx_main_v44 (ix2 b o) k = ix2 k o := by
  funext a; match a with
  | ⟨0, _⟩ => rfl
  | ⟨1, _⟩ => rfl

theorem idx43_ix (k : Fin 448) (o : Fin 256) : idx_main_v43 (ix2 k o) = ix2 o k := by
  funext a; match a with
  | ⟨0, _⟩ => rfl
  | ⟨1, _⟩ => rfl

theorem idx4546_ix (b : Fin 32768) (o : Fin 256) : idx_main_v45 (idx_main_v46 (ix2 b o)) = ix1 o := by
  funext a; match a with
  | ⟨0, _⟩ => rfl

/-- The reference's result at (b, o) is the encoder as defined, given the pooled part encoding. -/
theorem ref_value_of_pool (x0 x1 : (⟨S32768x8, .i32⟩ : BufTy).Contents (Elt Ideal)) (x2 x3 x4 : (⟨S32768, .i32⟩ : BufTy).Contents (Elt Ideal)) (x5 x6 x7 : (⟨S16x64, .f32⟩ : BufTy).Contents (Elt Ideal)) (x8 : (⟨S64x64, .f32⟩ : BufTy).Contents (Elt Ideal)) (x9 : (⟨S32x64, .f32⟩ : BufTy).Contents (Elt Ideal)) (x10 : (⟨S256x128, .f32⟩ : BufTy).Contents (Elt Ideal)) (x11 : (⟨S256, .f32⟩ : BufTy).Contents (Elt Ideal)) (x12 : (⟨S256x448, .f32⟩ : BufTy).Contents (Elt Ideal)) (x13 : (⟨S256, .f32⟩ : BufTy).Contents (Elt Ideal))
    (hR : Cert.Spec.InRange (fun b p => x0 (ix2 b p)) (fun b p => x1 (ix2 b p)) (fun b => x2 (ix1 b))
      (fun b => x3 (ix1 b)) (fun b => x4 (ix1 b)))
    (hpool : ∀ (b : Fin 32768) (k : Fin 256), ReadP.val_main_v20 (F := Ideal) x0 x1 x5 x6 x10 x11 (ix2 b k)
      = Cert.Spec.poolR (fun b p => x0 (ix2 b p)) (fun b p => x1 (ix2 b p)) (fun v k => x5 (ix2 v k))
          (fun v k => x6 (ix2 v k)) (fun o j => x10 (ix2 o j)) (fun o => x11 (ix1 o)) b k)
    (b : Fin 32768) (o : Fin 256) :
    ReadP.val_main_v48 (F := Ideal) x0 x1 x2 x3 x4 x5 x6 x7 x8 x9 x10 x11 x12 x13 (ix2 b o)
      = Cert.Spec.Gr (fun b p => x0 (ix2 b p)) (fun b p => x1 (ix2 b p)) (fun b => x2 (ix1 b)) (fun b => x3 (ix1 b))
          (fun b => x4 (ix1 b)) (fun v k => x5 (ix2 v k)) (fun v k => x6 (ix2 v k)) (fun v k => x7 (ix2 v k))
          (fun v k => x8 (ix2 v k)) (fun v k => x9 (ix2 v k)) (fun o j => x10 (ix2 o j)) (fun o => x11 (ix1 o))
          (fun o j => x12 (ix2 o j)) (fun o => x13 (ix1 o)) b o := by
  rw [val_main_v48_apply, val_main_call1_v0_apply, val_main_call1_cst_apply, val_main_v47_apply, val_main_v46_apply,
    val_main_v45_apply, val_main_v44_apply, idx4546_ix]
  rw [Ideal.ofBits_def, Ideal.ofBits_zero_f32]
  unfold Cert.Spec.Gr
  show max ((∑ k : Fin 448, _) + _) 0 = max ((∑ j : Fin 448, _) + _) 0
  congr 2
  refine Finset.sum_congr rfl fun k _ => ?_
  rw [lidx44_ix, ridx44_ix, val_main_v43_apply, idx43_ix,
    v42_objIn x0 x1 x2 x3 x4 x5 x6 x7 x8 x9 x10 x11 hR hpool b k]

end Cert.ReferenceIdeal.RefValue

end
-- ==== Proof.PreRange.lean ====
/-
  The precondition read back: every index word names a row of the table it indexes.

  The printed predicate is a conjunction of one-bit words. Its last five conjuncts are, for each index array x with
  table height N, the conjunction over all entries of (0 <= x signed) and (x < N signed). A word that is signed
  nonnegative and signed below N, with N below 2^31, has unsigned reading below N. The float conjuncts are not used.
-/
import Idealize.ShloMosaic.Lib.ReduceAll
import Idealize.ShloMosaic.Lib.IdealHost
import proofs.«423634_j39307540693438_3_alg».proof.Pre_finite_inputs
import proofs.«423634_j39307540693438_3_alg».proof.Proof.Spec

namespace Cert.PreRange

open Idealize.ShloMosaic Idealize.ShloMosaic.ValueIdx Cert.Pre_finite_inputs

/-- The scalar shape has one index. -/
instance : Subsingleton S_.Idx := ⟨fun a b => funext fun d => d.elim0⟩

/-- A word that tests signed nonnegative and signed below N, N below 2^31, reads unsigned below N. -/
theorem toNat_lt_of_cmp (w : BitVec 32) (N : Nat) (hN : N < 2 ^ 31)
    (h0 : IntOp.cmpi .sge w 0#32 = 1#1) (h1 : IntOp.cmpi .slt w (BitVec.ofNat 32 N) = 1#1) : w.toNat < N := by
  rw [IntOp.cmpi_sge] at h0
  rw [IntOp.cmpi_slt] at h1
  have hz : (0#32 : BitVec 32).toInt = 0 := by decide
  have hNn : (BitVec.ofNat 32 N).toNat = N := by rw [BitVec.toNat_ofNat]; omega
  have hNi : (BitVec.ofNat 32 N).toInt = (N : Int) := by
    rw [BitVec.toInt_eq_toNat_of_lt (by omega), hNn]
  rw [hz] at h0
  rw [hNi] at h1
  have hw := BitVec.toInt_eq_toNat_cond w
  split at hw <;> omega

/-- A conjunction of two one-bit arrays read at an index. -/
theorem andi_one {s : Shape} (x y : IVec s 1) (i : s.Idx) : andi x y i = 1#1 ↔ x i = 1#1 ∧ y i = 1#1 :=
  IntOp.andi_eq_one

/-- One range test read at an index: if the conjunction over all entries of (0 <= x) and (x < N) is 1, every entry
    of x reads unsigned below N. -/
theorem range_of_all {s : Shape} {axes : List (Fin s.rank)} (x : IVec s 32) (N : Nat) (hN : N < 2 ^ 31)
    (hb : S_.BroadcastsInDim s (![] : Fin 0 → Fin s.rank)) (hr : s.ReducesTo axes S_) (hu : 0 < S_.numel)
    (init : IVec S_ 1)
    (e : Host.reduce IntOp.andi
          (andi (cmpi .sge x (broadcastInDim s ![] hb (constantI S_ 32 0#32)))
            (cmpi .slt x (broadcastInDim s ![] hb (constantI S_ 32 (BitVec.ofNat 32 N)))))
          init hr hu ix0 = 1#1)
    (i : s.Idx) : (x i).toNat < N := by
  have hi := Host.reduce_andi_all _ init hr hu ix0 e i
  obtain ⟨h0, h1⟩ := (andi_one _ _ i).1 hi
  have e0 : broadcastInDim s ![] hb (constantI S_ 32 0#32) i = 0#32 := broadcastInDim_scalar_apply hb _ i
  have e1 : broadcastInDim s ![] hb (constantI S_ 32 (BitVec.ofNat 32 N)) i = BitVec.ofNat 32 N :=
    broadcastInDim_scalar_apply hb _ i
  have h0' : IntOp.cmpi .sge (x i) 0#32 = 1#1 := by rw [← e0]; exact h0
  have h1' : IntOp.cmpi .slt (x i) (BitVec.ofNat 32 N) = 1#1 := by rw [← e1]; exact h1
  exact toNat_lt_of_cmp (x i) N hN h0' h1'

variable [Cert.Pre_finite_inputs.Facts]

/-- The precondition gives the five index ranges, at any float family. -/
theorem inRange_of_pre_any {F : FTy → Type} [FloatOps F] (a0 a1 : IVec S32768x8 32) (a2 a3 a4 : IVec S32768 32)
    (a5 a6 a7 : FVec F S16x64 .f32) (a8 : FVec F S64x64 .f32) (a9 : FVec F S32x64 .f32) (a10 : FVec F S256x128 .f32)
    (a11 : FVec F S256 .f32) (a12 : FVec F S256x448 .f32) (a13 : FVec F S256 .f32)
    (h : Cert.Pre_finite_inputs.fn (F := F) a0 a1 a2 a3 a4 a5 a6 a7 a8 a9 a10 a11 a12 a13 = (fun _ => 1#1)) :
    Cert.Spec.InRange (fun b p => a0 (ix2 b p)) (fun b p => a1 (ix2 b p)) (fun b => a2 (ix1 b)) (fun b => a3 (ix1 b))
      (fun b => a4 (ix1 b)) := by
  have h0 := congrFun h ix0
  dsimp only [fn, fn_part1, fn_part2, fn_part3, fn_part4] at h0
  obtain ⟨h0, r4⟩ := (andi_one _ _ _).1 h0
  obtain ⟨h0, r3⟩ := (andi_one _ _ _).1 h0
  obtain ⟨h0, r2⟩ := (andi_one _ _ _).1 h0
  obtain ⟨h0, r1⟩ := (andi_one _ _ _).1 h0
  obtain ⟨-, r0⟩ := (andi_one _ _ _).1 h0
  exact
    { aff := fun b p => range_of_all a0 16 (by decide) _ _ _ _ r0 (ix2 b p)
      mat := fun b p => range_of_all a1 16 (by decide) _ _ _ _ r1 (ix2 b p)
      task := fun b => range_of_all a2 16 (by decide) _ _ _ _ r2 (ix1 b)
      obj := fun b => range_of_all a3 64 (by decide) _ _ _ _ r3 (ix1 b)
      state := fun b => range_of_all a4 32 (by decide) _ _ _ _ r4 (ix1 b) }

/-- The precondition gives the five index ranges, over the extended reals. -/
theorem inRange_of_pre (a0 a1 : IVec S32768x8 32) (a2 a3 a4 : IVec S32768 32)
    (a5 a6 a7 : FVec Ideal S16x64 .f32) (a8 : FVec Ideal S64x64 .f32) (a9 : FVec Ideal S32x64 .f32)
    (a10 : FVec Ideal S256x128 .f32) (a11 : FVec Ideal S256 .f32) (a12 : FVec Ideal S256x448 .f32)
    (a13 : FVec Ideal S256 .f32)
    (h : Cert.Pre_finite_inputs.fn (F := Ideal) a0 a1 a2 a3 a4 a5 a6 a7 a8 a9 a10 a11 a12 a13 = (fun _ => 1#1)) :
    Cert.Spec.InRange (fun b p => a0 (ix2 b p)) (fun b p => a1 (ix2 b p)) (fun b => a2 (ix1 b)) (fun b => a3 (ix1 b))
      (fun b => a4 (ix1 b)) :=
  inRange_of_pre_any a0 a1 a2 a3 a4 a5 a6 a7 a8 a9 a10 a11 a12 a13 h

end Cert.PreRange
-- ==== Proof.lean ====
/-
  The proof of Cert.Claim: the kernel program, its idealization and the idealized reference run to the end without fault
  and leave their fourteen arguments as launched, and over the extended reals the idealized kernel and the reference
  compute one function of arguments that agree.

  The function is the object encoder: per row, eight parts' affordance and material embeddings through the part layer,
  bias and clamp at zero, the maximum over the parts; then the task, object and state embeddings and that maximum through
  the object layer, bias and clamp. The reference computes it as defined (Gr). The kernel is handed the embedding tables
  already multiplied through their slices of the two layers and stacked, looks rows up by one-hot products, takes the
  maximum over the parts before the bias and the clamp, and writes the result one block of 2048 rows per grid point; its
  result array is the encoder with the tables pushed through the layers (Gk). A sum over a concatenated axis is the sum
  of the sums over its pieces, and x |-> max (x + c) 0 is monotone and so commutes with a maximum: Gk = Gr at every row
  and column. The precondition makes every index name a row of its table, which both value statements use.

  The idealization pass rewrote no operation, so the preservation claim is trivial. The witnesses of the programs'
  stated facts are the generated instances.
-/
import proofs.«423634_j39307540693438_3_alg».proof.Defs
import proofs.«423634_j39307540693438_3_alg».proof.Proof.Gen.Kernel
import proofs.«423634_j39307540693438_3_alg».proof.Proof.Gen.Kernel.Skeleton
import proofs.«423634_j39307540693438_3_alg».proof.Proof.Gen.Kernel.Launch
import proofs.«423634_j39307540693438_3_alg».proof.Proof.Gen.Kernel.Points
import proofs.«423634_j39307540693438_3_alg».proof.Proof.Gen.KernelIdeal
import proofs.«423634_j39307540693438_3_alg».proof.Proof.Gen.KernelIdeal.Skeleton
import proofs.«423634_j39307540693438_3_alg».proof.Proof.Gen.KernelIdeal.Launch
import proofs.«423634_j39307540693438_3_alg».proof.Proof.Gen.KernelIdeal.Points
import proofs.«423634_j39307540693438_3_alg».proof.Proof.Gen.ReferenceIdeal
import proofs.«423634_j39307540693438_3_alg».proof.Proof.Gen.Pre_finite_inputs
import proofs.«423634_j39307540693438_3_alg».proof.Proof.FrameKRun
import proofs.«423634_j39307540693438_3_alg».proof.Proof.FrameKIRun
import proofs.«423634_j39307540693438_3_alg».proof.Proof.KernelValue
import proofs.«423634_j39307540693438_3_alg».proof.Proof.RefRun
import proofs.«423634_j39307540693438_3_alg».proof.Proof.RefRead
import proofs.«423634_j39307540693438_3_alg».proof.Proof.RefPool
import proofs.«423634_j39307540693438_3_alg».proof.Proof.RefOut
import proofs.«423634_j39307540693438_3_alg».proof.Proof.Bridge
import proofs.«423634_j39307540693438_3_alg».proof.Proof.PreRange
import Idealize.ShloMosaic.Lib.ValueIdx
import Idealize.ShloMosaic.Adequacy
import Idealize.ShloMosaic.Init

noncomputable section

namespace Cert.ReferenceIdeal.RefValue

open Cert.ReferenceIdeal Cert.ReferenceIdeal.Gen Idealize.ShloMosaic Idealize.ShloMosaic.ValueIdx

/-- The reference's result array, with every index in range, is the encoder with the tables pushed through the layers:
    it is the encoder as defined, row by row, and the two forms are one function. -/
theorem ref_value (x0 x1 : (⟨S32768x8, .i32⟩ : BufTy).Contents (Elt Ideal)) (x2 x3 x4 : (⟨S32768, .i32⟩ : BufTy).Contents (Elt Ideal))
    (x5 x6 x7 : (⟨S16x64, .f32⟩ : BufTy).Contents (Elt Ideal)) (x8 : (⟨S64x64, .f32⟩ : BufTy).Contents (Elt Ideal)) (x9 : (⟨S32x64, .f32⟩ : BufTy).Contents (Elt Ideal))
    (x10 : (⟨S256x128, .f32⟩ : BufTy).Contents (Elt Ideal)) (x11 : (⟨S256, .f32⟩ : BufTy).Contents (Elt Ideal)) (x12 : (⟨S256x448, .f32⟩ : BufTy).Contents (Elt Ideal))
    (x13 : (⟨S256, .f32⟩ : BufTy).Contents (Elt Ideal))
    (hR : Cert.Spec.InRange (fun b p => x0 (ix2 b p)) (fun b p => x1 (ix2 b p)) (fun b => x2 (ix1 b))
      (fun b => x3 (ix1 b)) (fun b => x4 (ix1 b))) :
    ReadP.val_main_v48 (F := Ideal) x0 x1 x2 x3 x4 x5 x6 x7 x8 x9 x10 x11 x12 x13
      = fun i => Cert.Spec.Gk (fun b p => x0 (ix2 b p)) (fun b p => x1 (ix2 b p)) (fun b => x2 (ix1 b)) (fun b => x3 (ix1 b))
          (fun b => x4 (ix1 b)) (fun v k => x5 (ix2 v k)) (fun v k => x6 (ix2 v k)) (fun v k => x7 (ix2 v k))
          (fun v k => x8 (ix2 v k)) (fun v k => x9 (ix2 v k)) (fun o j => x10 (ix2 o j)) (fun o => x11 (ix1 o))
          (fun o j => x12 (ix2 o j)) (fun o => x13 (ix1 o)) (i 0) (i 1) := by
  funext i
  obtain ⟨b, o, rfl⟩ : ∃ (b : Fin 32768) (o : Fin 256), i = ix2 b o := ⟨i 0, i 1, eq_ix2 i⟩
  rw [ref_value_of_pool x0 x1 x2 x3 x4 x5 x6 x7 x8 x9 x10 x11 x12 x13 hR
    (fun b k => pool_value x0 x1 x5 x6 x10 x11 hR.aff hR.mat b k) b o]
  exact (Cert.Bridge.bridge _ _ _ _ _ _ _ _ _ _ _ _ _ _ b o).symm

end Cert.ReferenceIdeal.RefValue

/-! ## The claims -/

namespace Cert.Proof.Claims

open Idealize.ShloMosaic Idealize.ShloMosaic.TcCoe Idealize.SL.Sem

/-- The program as printed runs to the end and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the idealized reference: its run leaves every argument unchanged. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Over the extended reals, from arguments that agree and whose indices are in range, the kernel's result array ends at
    the encoder with the tables pushed through the layers and the reference's at the encoder as defined, of the same
    arguments: one function. -/
theorem algebraic : Cert.algebraic_KernelIdeal_ReferenceIdeal := by
  intro m ρ m' ρ' hpre hagree
  have hR := fun c : Dev Cert.KernelIdeal.nD => Cert.PreRange.inRange_of_pre _ _ _ _ _ _ _ _ _ _ _ _ _ _ (hpre c)
  refine ⟨_, Cert.KernelIdeal.Hand.kernel_value m ρ hR, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13⟩ := hagree c
  refine (Cert.ReferenceIdeal.ReadP.val_main_v48_eq _ _ _ _ _ _ _ _ _ _ _ _ _ _).trans ?_
  rw [a0, a1, a2, a3, a4, a5, a6, a7, a8, a9, a10, a11, a12, a13]
  exact Cert.ReferenceIdeal.RefValue.ref_value _ _ _ _ _ _ _ _ _ _ _ _ _ _ (hR c)

end Cert.Proof.Claims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
